-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg1 : IVec S800000 32) (main_v32 : IVec S_ 1) (main_c_12 : IVec S_ 32) : IVec S_ 1 :=
  let main_v33 : IVec S800000 32 := broadcastInDim S800000 ![] bcast_S_S800000 main_c_12
  let main_v34 : IVec S800000 1 := cmpi .slt main_arg1 main_v33
  let main_c_13 : IVec S_ 1 := constantI S_ 1 1#1
  let main_v35 : IVec S_ 1 := (fun x v => Host.reduce IntOp.andi x v reducesTo_S800000_S_d0 h_S_) main_v34 main_c_13
  let main_v36 : IVec S_ 1 := andi main_v32 main_v35
  main_v36

def fn_part1 {F : FTy → Type} [FloatOps F] (main_arg1 : IVec S800000 32) (main_arg6 : FVec F S64x64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_c_10 : IVec S_ 32 := constantI S_ 32 0#32
  let main_v29 : IVec S800000 32 := broadcastInDim S800000 ![] bcast_S_S800000 main_c_10
  let main_v30 : IVec S800000 1 := cmpi .sge main_arg1 main_v29
  let main_c_11 : IVec S_ 1 := constantI S_ 1 1#1
  let main_v31 : IVec S_ 1 := (fun x v => Host.reduce IntOp.andi x v reducesTo_S800000_S_d0 h_S_) main_v30 main_c_11
  let main_v32 : IVec S_ 1 := andi main_v28 main_v31
  let main_c_12 : IVec S_ 32 := constantI S_ 32 50000#32
  fn_part2 (F := F) main_arg1 main_v32 main_c_12

def fn {F : FTy → Type} [FloatOps F] (main_arg0 : FVec F S50000x64 .f32) (main_arg1 : IVec S800000 32) (main_arg2 : IVec S800000 32) (main_arg3 : FVec F S800000 .f32) (main_arg4 : FVec F S64x64 .f32) (main_arg5 : FVec F S64 .f32) (main_arg6 : FVec F S64x64 .f32) (main_arg7 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg6 main_arg7 main_v13 main_v16
-- ==== Kernel.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S_ : Shape := ⟨0, ![]⟩
abbrev S50048x64 : Shape := ⟨2, ![50048, 64]⟩
abbrev S50000 : Shape := ⟨1, ![50000]⟩
abbrev S800000x1 : Shape := ⟨2, ![800000, 1]⟩
abbrev S50048 : Shape := ⟨1, ![50048]⟩
abbrev S50048x1 : Shape := ⟨2, ![50048, 1]⟩
abbrev S800000x64 : Shape := ⟨2, ![800000, 64]⟩
abbrev S128 : Shape := ⟨1, ![128]⟩
abbrev S128x64 : Shape := ⟨2, ![128, 64]⟩
abbrev S128x50048 : Shape := ⟨2, ![128, 50048]⟩
abbrev S128x1 : Shape := ⟨2, ![128, 1]⟩
abbrev S50048x128 : Shape := ⟨2, ![50048, 128]⟩
abbrev S1x128 : Shape := ⟨2, ![1, 128]⟩
abbrev S6256x64 : Shape := ⟨2, ![6256, 64]⟩
abbrev S6256x1 : Shape := ⟨2, ![6256, 1]⟩
abbrev S1x64 : Shape := ⟨2, ![1, 64]⟩
abbrev S1 : Shape := ⟨1, ![1]⟩
abbrev S48x64 : Shape := ⟨2, ![48, 64]⟩

abbrev nBuf : Space → Nat
  | .hbm => 45
  | .vmem => 48
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S_, .i32⟩
  | .hbm, ⟨9, _⟩ => ⟨S_, .f32⟩
  | .hbm, ⟨10, _⟩ => ⟨S50048x64, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S_, .f32⟩
  | .hbm, ⟨19, _⟩ => ⟨S_, .f32⟩
  | .hbm, ⟨20, _⟩ => ⟨S50048, .f32⟩
  | .hbm, ⟨21, _⟩ => ⟨S50048x1, .f32⟩
  | .hbm, ⟨22, _⟩ => ⟨S64x64, .f32⟩
  | .hbm, ⟨23, _⟩ => ⟨S64x64, .bf16⟩
  | .hbm, ⟨24, _⟩ => ⟨S64x64, .f32⟩
  | .hbm, ⟨25, _⟩ => ⟨S64x64, .bf16⟩
  | .hbm, ⟨26, _⟩ => ⟨S50048x64, .bf16⟩
  | .hbm, ⟨27, _⟩ => ⟨S800000x64, .bf16⟩
  | .hbm, ⟨28, _⟩ => ⟨S50048x64, .f32⟩
  | .hbm, ⟨29, _⟩ => ⟨S50048x64, .f32⟩
  | .hbm, ⟨30, _⟩ => ⟨S_, .i32⟩
  | .hbm, ⟨31, _⟩ => ⟨S1, .i32⟩
  | .hbm, ⟨32, _⟩ => ⟨S_, .f32⟩
  | .hbm, ⟨33, _⟩ => ⟨S48x64, .f32⟩
  | .hbm, ⟨34, _⟩ => ⟨S50048x64, .f32⟩
  | .hbm, ⟨35, _⟩ => ⟨S50048x64, .bf16⟩
  | .hbm, ⟨36, _⟩ => ⟨S800000x64, .bf16⟩
  | .hbm, ⟨37, _⟩ => ⟨S50048x64, .f32⟩
  | .hbm, ⟨38, _⟩ => ⟨S50048x64, .f32⟩
  | .hbm, ⟨39, _⟩ => ⟨S_, .i32⟩
  | .hbm, ⟨40, _⟩ => ⟨S1, .i32⟩
  | .hbm, ⟨41, _⟩ => ⟨S_, .f32⟩
  | .hbm, ⟨42, _⟩ => ⟨S48x64, .f32⟩
  | .hbm, ⟨43, _⟩ => ⟨S50048x64, .f32⟩
  | .hbm, ⟨44, _⟩ => ⟨S50000x64, .f32⟩
  | .local _ .vmem, ⟨0, _⟩ => ⟨S50048x64, .bf16⟩
  | .local _ .vmem, ⟨1, _⟩ => ⟨S128, .i32⟩
  | .local _ .vmem, ⟨2, _⟩ => ⟨S128, .i32⟩
  | .local _ .vmem, ⟨3, _⟩ => ⟨S128, .f32⟩
  | .local _ .vmem, ⟨4, _⟩ => ⟨S128, .f32⟩
  | .local _ .vmem, ⟨5, _⟩ => ⟨S128x64, .bf16⟩
  | .local _ .vmem, ⟨6, _⟩ => ⟨S128x64, .bf16⟩
  | .local _ .vmem, ⟨7, _⟩ => ⟨S128, .i32⟩
  | .local _ .vmem, ⟨8, _⟩ => ⟨S128, .i32⟩
  | .local _ .vmem, ⟨9, _⟩ => ⟨S128x64, .bf16⟩
  | .local _ .vmem, ⟨10, _⟩ => ⟨S128x64, .bf16⟩
  | .local _ .vmem, ⟨11, _⟩ => ⟨S50048x64, .f32⟩
  | .local _ .vmem, ⟨12, _⟩ => ⟨S6256x64, .f32⟩
  | .local _ .vmem, ⟨13, _⟩ => ⟨S6256x64, .f32⟩
  | .local _ .vmem, ⟨14, _⟩ => ⟨S6256x64, .f32⟩
  | .local _ .vmem, ⟨15, _⟩ => ⟨S6256x64, .f32⟩
  | .local _ .vmem, ⟨16, _⟩ => ⟨S6256x1, .f32⟩
  | .local _ .vmem, ⟨17, _⟩ => ⟨S6256x1, .f32⟩
  | .local _ .vmem, ⟨18, _⟩ => ⟨S64x64, .bf16⟩
  | .local _ .vmem, ⟨19, _⟩ => ⟨S64, .f32⟩
  | .local _ .vmem, ⟨20, _⟩ => ⟨S64x64, .bf16⟩
  | .local _ .vmem, ⟨21, _⟩ => ⟨S64, .f32⟩
  | .local _ .vmem, ⟨22, _⟩ => ⟨S6256x64, .f32⟩
  | .local _ .vmem, ⟨23, _⟩ => ⟨S6256x64, .f32⟩
  | .local _ .vmem, ⟨24, _⟩ => ⟨S50048x64, .bf16⟩
  | .local _ .vmem, ⟨25, _⟩ => ⟨S128, .i32⟩
  | .local _ .vmem, ⟨26, _⟩ => ⟨S128, .i32⟩
  | .local _ .vmem, ⟨27, _⟩ => ⟨S128, .f32⟩
  | .local _ .vmem, ⟨28, _⟩ => ⟨S128, .f32⟩
  | .local _ .vmem, ⟨29, _⟩ => ⟨S128x64, .bf16⟩
  | .local _ .vmem, ⟨30, _⟩ => ⟨S128x64, .bf16⟩
  | .local _ .vmem, ⟨31, _⟩ => ⟨S128, .i32⟩
  | .local _ .vmem, ⟨32, _⟩ => ⟨S128, .i32⟩
  | .local _ .vmem, ⟨33, _⟩ => ⟨S128x64, .bf16⟩
  | .local _ .vmem, ⟨34, _⟩ => ⟨S128x64, .bf16⟩
  | .local _ .vmem, ⟨35, _⟩ => ⟨S50048x64, .f32⟩
  | .local _ .vmem, ⟨36, _⟩ => ⟨S6256x64, .f32⟩
  | .local _ .vmem, ⟨37, _⟩ => ⟨S6256x64, .f32⟩
  | .local _ .vmem, ⟨38, _⟩ => ⟨S6256x64, .f32⟩
  | .local _ .vmem, ⟨39, _⟩ => ⟨S6256x64, .f32⟩
  | .local _ .vmem, ⟨40, _⟩ => ⟨S6256x1, .f32⟩
  | .local _ .vmem, ⟨41, _⟩ => ⟨S6256x1, .f32⟩
  | .local _ .vmem, ⟨42, _⟩ => ⟨S64x64, .bf16⟩
  | .local _ .vmem, ⟨43, _⟩ => ⟨S64, .f32⟩
  | .local _ .vmem, ⟨44, _⟩ => ⟨S64x64, .bf16⟩
  | .local _ .vmem, ⟨45, _⟩ => ⟨S64, .f32⟩
  | .local _ .vmem, ⟨46, _⟩ => ⟨S6256x64, .f32⟩
  | .local _ .vmem, ⟨47, _⟩ => ⟨S6256x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_call1_v0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg7_0 : Ref sig .tc := ⟨.vmem, 22, rfl⟩
abbrev cc2_stg7_1 : Ref sig .tc := ⟨.vmem, 23, rfl⟩
abbrev cc3_stg0_0 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg3_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg1_1 : Ref sig .tc := ⟨.vmem, 34, rfl⟩
abbrev cc4_stg2_0 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg2_1 : Ref sig .tc := ⟨.vmem, 41, rfl⟩
abbrev cc5_stg3_0 : Ref sig .tc := ⟨.vmem, 42, rfl⟩
abbrev cc5_stg4_0 : Ref sig .tc := ⟨.vmem, 43, rfl⟩
abbrev cc5_stg5_0 : Ref sig .tc := ⟨.vmem, 44, rfl⟩
abbrev cc5_stg6_0 : Ref sig .tc := ⟨.vmem, 45, rfl⟩
abbrev cc5_stg7_0 : Ref sig .tc := ⟨.vmem, 46, rfl⟩
abbrev cc5_stg7_1 : Ref sig .tc := ⟨.vmem, 47, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem7_0 : DmaSem sig := 22
abbrev cc2_sem7_1 : DmaSem sig := 23
abbrev cc3_sem0_0 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem3_1 : DmaSem sig := 30
abbrev cc4_sem0_0 : DmaSem sig := 31
abbrev cc4_sem0_1 : DmaSem sig := 32
abbrev cc4_sem1_0 : DmaSem sig := 33
abbrev cc4_sem1_1 : DmaSem sig := 34
abbrev cc4_sem2_0 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem2_1 : DmaSem sig := 41
abbrev cc5_sem3_0 : DmaSem sig := 42
abbrev cc5_sem4_0 : DmaSem sig := 43
abbrev cc5_sem5_0 : DmaSem sig := 44
abbrev cc5_sem6_0 : DmaSem sig := 45
abbrev cc5_sem7_0 : DmaSem sig := 46
abbrev cc5_sem7_1 : DmaSem sig := 47

abbrev nD : Nat := 1
abbrev τ : Topo := Topo.v7x

variable {F : FTy → Type} [FloatOps F]

abbrev grid0 : Pipeline.Grid := ⟨1, ![6250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S50048x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![6250], ![false]⟩

def cc1_transform_0 (i : grid1.Coords) : Fin 1 → Nat :=
  let arg0 : BitVec 32 := BitVec.ofNat 32 (i 0).val
  let c0_i32 : BitVec 32 := 0#32
  ![arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S128 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S50048x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6256x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S6256x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S6256x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S6256x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![6250], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 1 → Nat :=
  let arg0 : BitVec 32 := BitVec.ofNat 32 (i 0).val
  let c0_i32 : BitVec 32 := 0#32
  ![arg0.toNat]

def cc3_transform_2 (i : grid3.Coords) : Fin 1 → Nat :=
  let arg0 : BitVec 32 := BitVec.ofNat 32 (i 0).val
  let c0_i32 : BitVec 32 := 0#32
  ![arg0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S50048x64 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S128 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S128x64 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![6250], ![false]⟩

def cc4_transform_0 (i : grid4.Coords) : Fin 1 → Nat :=
  let arg0 : BitVec 32 := BitVec.ofNat 32 (i 0).val
  let c0_i32 : BitVec 32 := 0#32
  ![arg0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S128 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S128x64 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S50048x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S6256x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S6256x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S6256x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S64x64 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S64x64 .bf16 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S6256x64 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

class Facts₀ : Prop where
  pads_S50000x64_S50048x64_0480_000 : S50000x64.Pads (![0, 0] : Fin 2 → Nat) ![48, 0] ![0, 0] S50048x64
  h_S_ : 0 < S_.numel
  bcast_S_S50000 : S_.BroadcastsInDim S50000 (![] : Fin 0 → Fin S50000.rank)
  bcast_S800000_S800000x1_0 : S800000.BroadcastsInDim S800000x1 (![0] : Fin 1 → Fin S800000x1.rank)
  pads_S50000_S50048_0480 : S50000.Pads (![0] : Fin 1 → Nat) ![48] ![0] S50048
  bcast_S50048_S50048x1_0 : S50048.BroadcastsInDim S50048x1 (![0] : Fin 1 → Fin S50048x1.rank)
  transposes_S64x64_S64x64_1_0 : S64x64.Transposes [1, 0] S64x64
  bitsLt_bf16_f32 : FTy.bits .bf16 < FTy.bits .f32
  iota_S128x50048_d1_w32 : S128x50048.Iotas .tc 32 [1]
  inb_S128_S128_0 : ∀ a, (![0] : Fin 1 → Nat) a + S128.size a ≤ S128.size a
  h_S128 : 0 < S128.numel
  shapeCasts_S128_S128x1 : S128.ShapeCasts S128x1
  broadcasts_S128x1_S128x50048 : S128x1.Broadcasts S128x50048
  natLt_1_32 : 1 < 32
  inb_S50048x64_S50048x64_0_0 : ∀ a, (![0, 0] : Fin 2 → Nat) a + S50048x64.size a ≤ S50048x64.size a
  h_S50048x64 : 0 < S50048x64.numel
  shapeCasts_S50048x64_S50048x64 : S50048x64.ShapeCasts S50048x64
  broadcasts_S128x1_S128x64 : S128x1.Broadcasts S128x64
  inb_S128x64_S128x64_0_0 : ∀ a, (![0, 0] : Fin 2 → Nat) a + S128x64.size a ≤ S128x64.size a
  h_S128x64 : 0 < S128x64.numel
  packedbf16_S128x64_S128x64_0_0 : (Rect.unit (s := S128x64) ![0, 0] S128x64.size inb_S128x64_S128x64_0_0).PackedRows (EltTy.packing .bf16)
  iota_S50048x128_d0_w32 : S50048x128.Iotas .tc 32 [0]
  shapeCasts_S128_S1x128 : S128.ShapeCasts S1x128
  broadcasts_S1x128_S50048x128 : S1x128.Broadcasts S50048x128
  shapeCasts_S128x64_S128x64 : S128x64.ShapeCasts S128x64
  inb_S6256x64_S6256x64_0_0 : ∀ a, (![0, 0] : Fin 2 → Nat) a + S6256x64.size a ≤ S6256x64.size a
  h_S6256x64 : 0 < S6256x64.numel
  shapeCasts_S6256x64_S6256x64 : S6256x64.ShapeCasts S6256x64
  inb_S6256x1_S6256x1_0_0 : ∀ a, (![0, 0] : Fin 2 → Nat) a + S6256x1.size a ≤ S6256x1.size a
  h_S6256x1 : 0 < S6256x1.numel
  shapeCasts_S6256x1_S6256x1 : S6256x1.ShapeCasts S6256x1
  broadcasts_S6256x1_S6256x64 : S6256x1.Broadcasts S6256x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64_S64_0 : ∀ a, (![0] : Fin 1 → Nat) a + S64.size a ≤ S64.size a
  h_S64 : 0 < S64.numel
  shapeCasts_S64_S1x64 : S64.ShapeCasts S1x64
  broadcasts_S1x64_S6256x64 : S1x64.Broadcasts S6256x64
  bcast_S_S1 : S_.BroadcastsInDim S1 (![] : Fin 0 → Fin S1.rank)
  bcast_S_S48x64 : S_.BroadcastsInDim S48x64 (![] : Fin 0 → Fin S48x64.rank)
  slices_S50048x64_S50000x64_0_0 : S50048x64.Slices ![0, 0] S50000x64
  scatter_S50000_S800000x1_S800000_n_0_0_1_wf : ScatterDims.WF S50000 S800000x1 S800000 [] [0] [0] 1
  dot_S128x50048_S50048x64_S128x64_1_0_0_1_n_n_wf : DotDims.WF S128x50048 S50048x64 S128x64 [1] [0] [0] [1] [] []
  dot_S50048x128_S128x64_S50048x64_1_0_0_1_n_n_wf : DotDims.WF S50048x128 S128x64 S50048x64 [1] [0] [0] [1] [] []
  dot_S6256x64_S64x64_S6256x64_1_0_0_1_n_n_wf : DotDims.WF S6256x64 S64x64 S6256x64 [1] [0] [0] [1] [] []
  scatter_S50048x64_S1_S48x64_01_n_0_0_wf : ScatterDims.WF S50048x64 S1 S48x64 [0, 1] [] [0] 0
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S50048x64.size a ≤ S50048x64.size a
  hwx0_0 : ∀ i : grid0.Coords, EltTy.bits .bf16 = 32 ∨ (Rect.block (s := S50048x64) S50048x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128.size a ≤ S800000.size a
  hwx0_1 : ∀ i : grid0.Coords, EltTy.bits .i32 = 32 ∨ (Rect.block (s := S800000) S128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S800000.size a
  hwx0_2 : ∀ i : grid0.Coords, EltTy.bits .f32 = 32 ∨ (Rect.block (s := S800000) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S800000x64.size a
  hwx0_3 : ∀ i : grid0.Coords, EltTy.bits .bf16 = 32 ∨ (Rect.block (s := S800000x64) S128x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128.size a ≤ S800000.size a
  hwx1_0 : ∀ i : grid1.Coords, EltTy.bits .i32 = 32 ∨ (Rect.block (s := S800000) S128.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S800000x64.size a
  hwx1_1 : ∀ i : grid1.Coords, EltTy.bits .bf16 = 32 ∨ (Rect.block (s := S800000x64) S128x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S50048x64.size a ≤ S50048x64.size a
  hwx1_2 : ∀ i : grid1.Coords, EltTy.bits .f32 = 32 ∨ (Rect.block (s := S50048x64) S50048x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6256x64.size a ≤ S50048x64.size a
  hwx2_0 : ∀ i : grid2.Coords, EltTy.bits .f32 = 32 ∨ (Rect.block (s := S50048x64) S6256x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S6256x64.size a ≤ S50048x64.size a
  hwx2_1 : ∀ i : grid2.Coords, EltTy.bits .f32 = 32 ∨ (Rect.block (s := S50048x64) S6256x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S6256x1.size a ≤ S50048x1.size a
  hwx2_2 : ∀ i : grid2.Coords, EltTy.bits .f32 = 32 ∨ (Rect.block (s := S50048x1) S6256x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .bf16 = 32 ∨ (Rect.block (s := S64x64) S64x64.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .bf16 = 32 ∨ (Rect.block (s := S64x64) S64x64.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64.size a ≤ S64.size a
  hwx2_6 : ∀ i : grid2.Coords, EltTy.bits .f32 = 32 ∨ (Rect.block (s := S64) S64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S6256x64.size a ≤ S50048x64.size a
  hwx2_7 : ∀ i : grid2.Coords, EltTy.bits .f32 = 32 ∨ (Rect.block (s := S50048x64) S6256x64.size (cc2_transform_7 i) (hinb2_7 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S50048x64.size a ≤ S50048x64.size a
  hwx3_0 : ∀ i : grid3.Coords, EltTy.bits .bf16 = 32 ∨ (Rect.block (s := S50048x64) S50048x64.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S800000.size a
  hwx3_1 : ∀ i : grid3.Coords, EltTy.bits .i32 = 32 ∨ (Rect.block (s := S800000) S128.size (cc3_transform_1 i) (hinb3_1 i)).WholeWords (EltTy.packing .i32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S800000.size a
  hwx3_2 : ∀ i : grid3.Coords, EltTy.bits .f32 = 32 ∨ (Rect.block (s := S800000) S128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S128x64.size a ≤ S800000x64.size a
  hwx3_3 : ∀ i : grid3.Coords, EltTy.bits .bf16 = 32 ∨ (Rect.block (s := S800000x64) S128x64.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S128.size a ≤ S800000.size a
  hwx4_0 : ∀ i : grid4.Coords, EltTy.bits .i32 = 32 ∨ (Rect.block (s := S800000) S128.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S800000x64.size a
  hwx4_1 : ∀ i : grid4.Coords, EltTy.bits .bf16 = 32 ∨ (Rect.block (s := S800000x64) S128x64.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S50048x64.size a ≤ S50048x64.size a
  hwx4_2 : ∀ i : grid4.Coords, EltTy.bits .f32 = 32 ∨ (Rect.block (s := S50048x64) S50048x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S6256x64.size a ≤ S50048x64.size a
  hwx5_0 : ∀ i : grid5.Coords, EltTy.bits .f32 = 32 ∨ (Rect.block (s := S50048x64) S6256x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S6256x64.size a ≤ S50048x64.size a
  hwx5_1 : ∀ i : grid5.Coords, EltTy.bits .f32 = 32 ∨ (Rect.block (s := S50048x64) S6256x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S6256x1.size a ≤ S50048x1.size a
  hwx5_2 : ∀ i : grid5.Coords, EltTy.bits .f32 = 32 ∨ (Rect.block (s := S50048x1) S6256x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x64.size a ≤ S64x64.size a
  hwx5_3 : ∀ i : grid5.Coords, EltTy.bits .bf16 = 32 ∨ (Rect.block (s := S64x64) S64x64.size (cc5_transform_3 i) (hinb5_3 i)).WholeWords (EltTy.packing .bf16)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S64.size a ≤ S64.size a
  hwx5_4 : ∀ i : grid5.Coords, EltTy.bits .f32 = 32 ∨ (Rect.block (s := S64) S64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S64x64.size a ≤ S64x64.size a
  hwx5_5 : ∀ i : grid5.Coords, EltTy.bits .bf16 = 32 ∨ (Rect.block (s := S64x64) S64x64.size (cc5_transform_5 i) (hinb5_5 i)).WholeWords (EltTy.packing .bf16)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S64.size a ≤ S64.size a
  hwx5_6 : ∀ i : grid5.Coords, EltTy.bits .f32 = 32 ∨ (Rect.block (s := S64) S64.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S6256x64.size a ≤ S50048x64.size a
  hwx5_7 : ∀ i : grid5.Coords, EltTy.bits .f32 = 32 ∨ (Rect.block (s := S50048x64) S6256x64.size (cc5_transform_7 i) (hinb5_7 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S128x50048_S50048x64_S128x64_1_0_0_1_n_n : DotDims S128x50048 S50048x64 S128x64 where
  lhsContracting := [1]
  rhsContracting := [0]
  lhsNonContracting := [0]
  rhsNonContracting := [1]
  lhsBatch := []
  rhsBatch := []
  wf := dot_S128x50048_S50048x64_S128x64_1_0_0_1_n_n_wf
def dot_S50048x128_S128x64_S50048x64_1_0_0_1_n_n : DotDims S50048x128 S128x64 S50048x64 where
  lhsContracting := [1]
  rhsContracting := [0]
  lhsNonContracting := [0]
  rhsNonContracting := [1]
  lhsBatch := []
  rhsBatch := []
  wf := dot_S50048x128_S128x64_S50048x64_1_0_0_1_n_n_wf
def dot_S6256x64_S64x64_S6256x64_1_0_0_1_n_n : DotDims S6256x64 S64x64 S6256x64 where
  lhsContracting := [1]
  rhsContracting := [0]
  lhsNonContracting := [0]
  rhsNonContracting := [1]
  lhsBatch := []
  rhsBatch := []
  wf := dot_S6256x64_S64x64_S6256x64_1_0_0_1_n_n_wf
def scatter_S50048x64_S1_S48x64_01_n_0_0 : ScatterDims S50048x64 S1 S48x64 where
  updateWindowDims := [0, 1]
  insertedWindowDims := []
  scatterDimsToOperandDims := [0]
  indexVectorDim := 0
  wf := scatter_S50048x64_S1_S48x64_01_n_0_0_wf

abbrev win0_0 : Pipeline.Window sig grid0 :=
  Pipeline.Window.ofSpec (Memref.whole main_v12) S50048x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S128x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S128x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S50048x64.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v0) S6256x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S6256x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v7) S6256x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v9) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg5) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v11) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg7) S64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v15) S6256x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v19) S50048x64.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg1) S128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg3) S128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v20) S128x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_arg2) S128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v20) S128x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v21) S50048x64.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v18) S6256x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v21) S6256x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v7) S6256x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v9) S64x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg5) S64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v11) S64x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_arg7) S64.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v22) S6256x64.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

class Facts : Prop extends Facts₀ where

variable [Facts]
-- ==== ReferenceIdeal.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S50000x1 : Shape := ⟨2, ![50000, 1]⟩
abbrev S1x64 : Shape := ⟨2, ![1, 64]⟩

abbrev nBuf : Space → Nat
  | .hbm => 81
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S_, .f32⟩
  | .hbm, ⟨9, _⟩ => ⟨S50000, .f32⟩
  | .hbm, ⟨10, _⟩ => ⟨S800000x1, .i32⟩
  | .hbm, ⟨11, _⟩ => ⟨S50000, .f32⟩
  | .hbm, ⟨12, _⟩ => ⟨S_, .f32⟩
  | .hbm, ⟨13, _⟩ => ⟨S50000, .f32⟩
  | .hbm, ⟨14, _⟩ => ⟨S50000, .f32⟩
  | .hbm, ⟨15, _⟩ => ⟨S800000x1, .f32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x64, .f32⟩
  | .hbm, ⟨25, _⟩ => ⟨S800000x64, .f32⟩
  | .hbm, ⟨26, _⟩ => ⟨S800000x64, .f32⟩
  | .hbm, ⟨27, _⟩ => ⟨S_, .f32⟩
  | .hbm, ⟨28, _⟩ => ⟨S50000x64, .f32⟩
  | .hbm, ⟨29, _⟩ => ⟨S800000x1, .i32⟩
  | .hbm, ⟨30, _⟩ => ⟨S50000x64, .f32⟩
  | .hbm, ⟨31, _⟩ => ⟨S50000x1, .f32⟩
  | .hbm, ⟨32, _⟩ => ⟨S50000x64, .f32⟩
  | .hbm, ⟨33, _⟩ => ⟨S50000x64, .f32⟩
  | .hbm, ⟨34, _⟩ => ⟨S64x64, .f32⟩
  | .hbm, ⟨35, _⟩ => ⟨S50000x64, .f32⟩
  | .hbm, ⟨36, _⟩ => ⟨S1x64, .f32⟩
  | .hbm, ⟨37, _⟩ => ⟨S50000x64, .f32⟩
  | .hbm, ⟨38, _⟩ => ⟨S50000x64, .f32⟩
  | .hbm, ⟨39, _⟩ => ⟨S64x64, .f32⟩
  | .hbm, ⟨40, _⟩ => ⟨S50000x64, .f32⟩
  | .hbm, ⟨41, _⟩ => ⟨S50000x64, .f32⟩
  | .hbm, ⟨42, _⟩ => ⟨S1x64, .f32⟩
  | .hbm, ⟨43, _⟩ => ⟨S50000x64, .f32⟩
  | .hbm, ⟨44, _⟩ => ⟨S50000x64, .f32⟩
  | .hbm, ⟨45, _⟩ => ⟨S_, .f32⟩
  | .hbm, ⟨46, _⟩ => ⟨S50000x64, .f32⟩
  | .hbm, ⟨47, _⟩ => ⟨S50000x64, .f32⟩
  | .hbm, ⟨48, _⟩ => ⟨S800000x1, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x64, .f32⟩
  | .hbm, ⟨58, _⟩ => ⟨S800000x64, .f32⟩
  | .hbm, ⟨59, _⟩ => ⟨S800000x64, .f32⟩
  | .hbm, ⟨60, _⟩ => ⟨S_, .f32⟩
  | .hbm, ⟨61, _⟩ => ⟨S50000x64, .f32⟩
  | .hbm, ⟨62, _⟩ => ⟨S800000x1, .i32⟩
  | .hbm, ⟨63, _⟩ => ⟨S50000x64, .f32⟩
  | .hbm, ⟨64, _⟩ => ⟨S50000x1, .f32⟩
  | .hbm, ⟨65, _⟩ => ⟨S50000x64, .f32⟩
  | .hbm, ⟨66, _⟩ => ⟨S50000x64, .f32⟩
  | .hbm, ⟨67, _⟩ => ⟨S64x64, .f32⟩
  | .hbm, ⟨68, _⟩ => ⟨S50000x64, .f32⟩
  | .hbm, ⟨69, _⟩ => ⟨S1x64, .f32⟩
  | .hbm, ⟨70, _⟩ => ⟨S50000x64, .f32⟩
  | .hbm, ⟨71, _⟩ => ⟨S50000x64, .f32⟩
  | .hbm, ⟨72, _⟩ => ⟨S64x64, .f32⟩
  | .hbm, ⟨73, _⟩ => ⟨S50000x64, .f32⟩
  | .hbm, ⟨74, _⟩ => ⟨S50000x64, .f32⟩
  | .hbm, ⟨75, _⟩ => ⟨S1x64, .f32⟩
  | .hbm, ⟨76, _⟩ => ⟨S50000x64, .f32⟩
  | .hbm, ⟨77, _⟩ => ⟨S50000x64, .f32⟩
  | .hbm, ⟨78, _⟩ => ⟨S_, .f32⟩
  | .hbm, ⟨79, _⟩ => ⟨S50000x64, .f32⟩
  | .hbm, ⟨80, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_call0_cst : Ref sig .tc := ⟨.hbm, 45, rfl⟩
abbrev main_call0_v0 : Ref sig .tc := ⟨.hbm, 46, rfl⟩
abbrev main_v32 : Ref sig .tc := ⟨.hbm, 47, rfl⟩
abbrev main_v33 : Ref sig .tc := ⟨.hbm, 48, rfl⟩
abbrev main_c_3 : Ref sig .tc := ⟨.hbm, 49, rfl⟩
abbrev main_v34 : Ref sig .tc := ⟨.hbm, 50, rfl⟩
abbrev main_v35 : Ref sig .tc := ⟨.hbm, 51, rfl⟩
abbrev main_c_4 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_5 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_call1_cst : Ref sig .tc := ⟨.hbm, 78, rfl⟩
abbrev main_call1_v0 : Ref sig .tc := ⟨.hbm, 79, rfl⟩
abbrev main_v60 : Ref sig .tc := ⟨.hbm, 80, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  transposes_S64x64_S64x64_1_0 : S64x64.Transposes [1, 0] S64x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.Spec.lean ====
/-
  The mathematics of one message-passing layer, as functions on the extended reals at any extents.

  A layer takes node features x (one row per node), edges (src e, dst e) with weights w e, a positive-or-not
  normaliser den per node, two square matrices and two bias rows, and returns

      relu( x·A + b0 + (msg / den)·B + b1 ),   msg(i, ·) = Σ_{e : dst e = i} w e · x(src e, ·).

  Two readings of it are stated here.  The first is how a blocked one-hot product computes it: the row read for an
  edge is "the row whose number equals src e, or zero when there is none" (`pick`), and the sum for node i runs over
  all edges with a test on dst e (`sumByDst`).  The second is how a gather and an accumulating scatter compute it:
  the row number is wrapped when negative and clamped into the table, and an edge whose destination is no row of
  the result is dropped.  They agree on every node of the smaller table as soon as every src e is a row number of
  it (`layer_eq` in the algebra module).
-/
import Idealize.ShloMosaic.PureOps.Ideal
import Idealize.ShloMosaic.Lib.ValueIdx

noncomputable section

open scoped BigOperators

namespace Cert.Spec

open Idealize.ShloMosaic Idealize.ShloMosaic.ValueIdx

/-- A matrix of extended reals with n rows and D columns. -/
abbrev Mat (n D : ℕ) := (⟨2, ![n, D]⟩ : Shape).Idx → EReal
/-- A row of extended reals. -/
abbrev Row (n : ℕ) := (⟨1, ![n]⟩ : Shape).Idx → EReal
/-- A row of 32-bit words. -/
abbrev Words (n : ℕ) := (⟨1, ![n]⟩ : Shape).Idx → BitVec 32

/-- Entry d of the row of x whose number is the word s, read unsigned; zero when x has no such row.  This is what
    a product with a one-hot row leaves: every term but at most one is 0 · x = 0. -/
def pick {n D : ℕ} (x : Mat n D) (s : BitVec 32) (d : Fin D) : EReal :=
  if h : s.toNat < n then x (ix2 ⟨s.toNat, h⟩ d) else 0

/-- One row per edge: the picked row of x, times the edge's weight. -/
def weightedRows {n D E : ℕ} (x : Mat n D) (src : Words E) (w : Row E) : Mat E D :=
  fun j => pick x (src (ix1 (j 0))) (j 1) * w (ix1 (j 0))

/-- Entry (i, d) is the sum of u(e, d) over the edges e whose destination word, read unsigned, is i. -/
def sumByDst {n D E : ℕ} (dst : Words E) (u : Mat E D) : Mat n D :=
  fun j => ∑ e : Fin E, if (dst (ix1 e)).toNat = (j 0).val then u (ix2 e (j 1)) else 0

/-- The dense stage on rows: relu (f·A + b0 + (msg / den)·B + b1), the sums associated as written. -/
def denseRows {n D : ℕ} (f msg : Mat n D) (den : Mat n 1) (A B : Mat D D) (b0 b1 : Row D) : Mat n D :=
  fun j =>
    max ((((∑ k : Fin D, f (ix2 (j 0) k) * A (ix2 k (j 1))) + b0 (ix1 (j 1)))
        + (∑ k : Fin D, Ideal.div (msg (ix2 (j 0) k)) (den (ix2 (j 0) (0 : Fin 1))) * B (ix2 k (j 1))))
        + b1 (ix1 (j 1))) 0

/-- One layer as the blocked one-hot products compute it, on a table of n rows. -/
def layerK {n D E : ℕ} (x : Mat n D) (src dst : Words E) (w : Row E) (den : Mat n 1) (A B : Mat D D) (b0 b1 : Row D) :
    Mat n D :=
  denseRows x (sumByDst dst (weightedRows x src w)) den A B b0 b1

/-- The row number a gather reads for the word s in a table of N rows: s + N when s is negative (as a signed
    word), then clamped into [0, N − 1]. -/
def wrapClamp (N : ℕ) (s : BitVec 32) : ℕ :=
  min (if s.toInt < 0 then s + BitVec.ofNat 32 N else s).toInt.toNat (N - 1)

/-- The message sums as a gather and an accumulating scatter compute them: an edge counts for node i when its
    destination word read SIGNED is i; its row is the wrapped and clamped one; the weight multiplies on the left. -/
def msgR {N D E : ℕ} (hN : 0 < N) (x : Mat N D) (src dst : Words E) (w : Row E) : Mat N D :=
  fun j => 0 + ∑ e ∈ Finset.univ.filter (fun e : Fin E => (dst (ix1 e)).toInt = ((j 0).val : ℤ)),
    w (ix1 e) * x (ix2 (⟨wrapClamp N (src (ix1 e)), by unfold wrapClamp; omega⟩ : Fin N) (j 1))

/-- One layer as the gather and the accumulating scatter compute it, on the table of N rows. -/
def layerR {N D E : ℕ} (hN : 0 < N) (x : Mat N D) (src dst : Words E) (w : Row E) (den : Row N) (A B : Mat D D)
    (b0 b1 : Row D) : Mat N D :=
  fun j =>
    max ((((∑ k : Fin D, x (ix2 (j 0) k) * A (ix2 k (j 1))) + b0 (ix1 (j 1)))
        + (∑ k : Fin D, Ideal.div (msgR hN x src dst w (ix2 (j 0) k)) (den (ix1 (j 0))) * B (ix2 k (j 1))))
        + b1 (ix1 (j 1))) 0

/-- The normaliser of node i: the sum of the weights of the edges whose destination word read signed is i, plus a
    fixed positive constant. -/
def denomR {N E : ℕ} (dst : Words E) (w : Row E) (eps : EReal) : Row N :=
  fun j => (0 + ∑ e ∈ Finset.univ.filter (fun e : Fin E => (dst (ix1 e)).toInt = ((j 0).val : ℤ)), w (ix1 e)) + eps

/-- Two layers as the gather and the accumulating scatter compute them: the result of the reference program. -/
def twoLayersR {N D E : ℕ} (hN : 0 < N) (x : Mat N D) (src dst : Words E) (w : Row E) (eps : EReal) (W0 W1 : Mat D D)
    (b0 b1 : Row D) : Mat N D :=
  layerR hN (layerR hN x src dst w (denomR dst w eps) (fun j => W0 (ix2 (j 1) (j 0))) (fun j => W1 (ix2 (j 1) (j 0))) b0 b1)
    src dst w (denomR dst w eps) (fun j => W0 (ix2 (j 1) (j 0))) (fun j => W1 (ix2 (j 1) (j 0))) b0 b1

end Cert.Spec

end
-- ==== Proof.Algebra.lean ====
/-
  The two readings of a layer agree on the smaller table.

  Let the one-hot reading run on a table x of n rows and the gather/scatter reading on a table xr of N ≤ n rows that
  is x's first N rows, with n below 2³¹, and let every source word be a row number of xr (0 ≤ src e < N as a signed
  word).  Then on every row i < N:
    * the row picked for an edge is row src e of xr — the word is non-negative, so it is not wrapped, and it is at
      most N − 1, so it is not clamped;
    * a destination word read signed equals i exactly when it does read unsigned, because i < 2³¹;
    * 0 · y = 0 and 0 + y = y hold for every extended real y, so no finiteness is used.
-/
import proofs.«411369_j50465865728371_2_alg».proof.Proof.Spec

noncomputable section

open scoped BigOperators

namespace Cert.Spec

open Idealize.ShloMosaic Idealize.ShloMosaic.ValueIdx

/-- A non-negative signed word below N reads the same unsigned. -/
theorem toNat_of_range {s : BitVec 32} {N : ℕ} (h0 : 0 ≤ s.toInt) (h1 : s.toInt < (N : ℤ)) : s.toNat < N ∧ s.toInt = (s.toNat : ℤ) := by
  -- The signed reading is the unsigned one when the top bit is clear and the unsigned one minus 2³² otherwise;
  -- the second case is negative, which h0 excludes.
  have hlt := s.isLt
  rw [BitVec.toInt_eq_toNat_cond] at h0 h1 ⊢
  split_ifs at h0 h1 ⊢ with hc
  · exact ⟨by omega, rfl⟩
  · exfalso; omega

/-- For a number i below 2³¹, a word reads i signed exactly when it reads i unsigned: a word with its top bit set
    reads negative signed and at least 2³¹ unsigned, so it is i in neither reading. -/
theorem toInt_eq_iff_toNat_eq (t : BitVec 32) {i : ℕ} (hi : i < 2 ^ 31) : t.toInt = (i : ℤ) ↔ t.toNat = i := by
  have hlt := t.isLt
  rw [BitVec.toInt_eq_toNat_cond]
  split_ifs with hc <;> omega

/-- A word that is a row number of the table of N rows is neither wrapped (it is not negative) nor clamped (it is
    at most N − 1): the row read is the word's own number. -/
theorem wrapClamp_of_range {s : BitVec 32} {N : ℕ} (h0 : 0 ≤ s.toInt) (h1 : s.toInt < (N : ℤ)) :
    wrapClamp N s = s.toNat := by
  obtain ⟨hlt, he⟩ := toNat_of_range h0 h1
  unfold wrapClamp
  rw [if_neg (by omega), he, Int.toNat_natCast]
  exact Nat.min_eq_left (by omega)

/-- The message sums agree on the rows of the smaller table. -/
theorem msg_eq {N n D E : ℕ} (hN : 0 < N) (hNn : N ≤ n) (hn : n < 2 ^ 31)
    (x : Mat n D) (xr : Mat N D) (hx : ∀ (i : Fin N) (d : Fin D), x (ix2 (⟨i.val, by omega⟩ : Fin n) d) = xr (ix2 i d))
    (src dst : Words E) (w : Row E)
    (hsrc : ∀ e : Fin E, 0 ≤ (src (ix1 e)).toInt ∧ (src (ix1 e)).toInt < (N : ℤ))
    (i : Fin N) (d : Fin D) :
    sumByDst (n := n) dst (weightedRows x src w) (ix2 (⟨i.val, by omega⟩ : Fin n) d) = msgR hN xr src dst w (ix2 i d) := by
  unfold sumByDst msgR
  -- The filtered sum is the sum over all edges of "the term if the test holds, else 0"; 0 + y = y.
  rw [zero_add, Finset.sum_filter]
  refine Finset.sum_congr rfl fun e _ => ?_
  show (if (dst (ix1 e)).toNat = i.val then weightedRows x src w (ix2 e d) else 0)
     = (if (dst (ix1 e)).toInt = (i.val : ℤ) then
          w (ix1 e) * xr (ix2 (⟨wrapClamp N (src (ix1 e)), _⟩ : Fin N) d) else 0)
  obtain ⟨h0, h1⟩ := hsrc e
  obtain ⟨hlt, -⟩ := toNat_of_range h0 h1
  have hwc : wrapClamp N (src (ix1 e)) = (src (ix1 e)).toNat := wrapClamp_of_range h0 h1
  -- The two tests on the destination word agree, since i < N ≤ n < 2³¹.
  have hiff : (dst (ix1 e)).toInt = (i.val : ℤ) ↔ (dst (ix1 e)).toNat = i.val :=
    toInt_eq_iff_toNat_eq _ (by omega)
  -- The two terms agree: the picked row exists and is row src e of the smaller table; the product commutes.
  have hterm : ∀ (k : ℕ) (hk : k < N), k = (src (ix1 e)).toNat →
      weightedRows x src w (ix2 e d) = w (ix1 e) * xr (ix2 (⟨k, hk⟩ : Fin N) d) := by
    intro k hk hkeq
    subst hkeq
    show pick x (src (ix1 e)) d * w (ix1 e) = _
    unfold pick
    rw [dif_pos (show (src (ix1 e)).toNat < n by omega), mul_comm]
    exact congrArg (fun t => w (ix1 e) * t) (hx ⟨(src (ix1 e)).toNat, hk⟩ d)
  by_cases hc : (dst (ix1 e)).toNat = i.val
  · rw [if_pos hc, if_pos (hiff.mpr hc)]
    exact hterm _ _ hwc
  · rw [if_neg hc, if_neg (fun h => hc (hiff.mp h))]

/-- One layer agrees on the rows of the smaller table. -/
theorem layer_eq {N n D E : ℕ} (hN : 0 < N) (hNn : N ≤ n) (hn : n < 2 ^ 31)
    (x : Mat n D) (xr : Mat N D) (hx : ∀ (i : Fin N) (d : Fin D), x (ix2 (⟨i.val, by omega⟩ : Fin n) d) = xr (ix2 i d))
    (src dst : Words E) (w : Row E)
    (hsrc : ∀ e : Fin E, 0 ≤ (src (ix1 e)).toInt ∧ (src (ix1 e)).toInt < (N : ℤ))
    (den : Mat n 1) (denr : Row N) (hden : ∀ i : Fin N, den (ix2 (⟨i.val, by omega⟩ : Fin n) (0 : Fin 1)) = denr (ix1 i))
    (A B : Mat D D) (b0 b1 : Row D) (i : Fin N) (d : Fin D) :
    layerK x src dst w den A B b0 b1 (ix2 (⟨i.val, by omega⟩ : Fin n) d) = layerR hN xr src dst w denr A B b0 b1 (ix2 i d) := by
  unfold layerK denseRows layerR
  -- The feature sums agree term by term because x's row i is xr's row i.
  have e1 : (∑ k : Fin D, x (ix2 (⟨i.val, by omega⟩ : Fin n) k) * A (ix2 k d))
      = ∑ k : Fin D, xr (ix2 i k) * A (ix2 k d) :=
    Finset.sum_congr rfl fun k _ => by rw [hx i k]
  -- The message sums agree term by term by msg_eq, and the normalisers by hden.
  have e2 : (∑ k : Fin D, Ideal.div (sumByDst (n := n) dst (weightedRows x src w) (ix2 (⟨i.val, by omega⟩ : Fin n) k))
        (den (ix2 (⟨i.val, by omega⟩ : Fin n) (0 : Fin 1))) * B (ix2 k d))
      = ∑ k : Fin D, Ideal.div (msgR hN xr src dst w (ix2 i k)) (denr (ix1 i)) * B (ix2 k d) :=
    Finset.sum_congr rfl fun k _ => by
      rw [msg_eq hN hNn hn x xr hx src dst w hsrc i k, hden i]
  -- Everything else in the two expressions is the same.
  have H : ∀ (S1 S1' S2 S2' p q : EReal), S1 = S1' → S2 = S2' →
      max (((S1 + p) + S2) + q) 0 = max (((S1' + p) + S2') + q) 0 := by
    intro S1 S1' S2 S2' p q h1 h2
    rw [h1, h2]
  exact H _ _ _ _ _ _ e1 e2

end Cert.Spec

end
-- ==== Proof.GatherValue.lean ====
/-
  The weighted gather as a product with one-hot rows.

  For a block of 128 edges the body builds the 128 × 50048 matrix whose row p has a one in column src p and zeros
  elsewhere (an integer comparison of a column iota with the broadcast source words, widened and converted), multiplies
  it into the whole 50048 × 64 table from a zero accumulator, and scales row p by the weight w p.  Over the extended
  reals 0 · y = 0 for every y, so row p of the product is row src p of the table when the table has such a row and the
  zero row otherwise.  Block t of the [800000, 64] result covers edges 128 t … 128 t + 127, and the blocks tile it.
-/
import proofs.«411369_j50465865728371_2_alg».proof.Proof.Gen.KernelIdeal.Frame
import proofs.«411369_j50465865728371_2_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate
import Idealize.ShloMosaic.Lib.Tactic

noncomputable section

open scoped BigOperators
open Idealize.ShloMosaic Idealize.ShloMosaic.TcCoe Idealize.ShloMosaic.ValueIdx Idealize.SL.Sem
open Idealize.ShloMosaic.Pipeline (Dat)

namespace Cert.KernelIdeal.GatherValue

open Cert.KernelIdeal Cert.KernelIdeal.Gen

variable (V : (c : Dev nD) → (b : Ref sig .tc) → Buf (Elt Ideal) ((c : Thread nD τ).loc b))

/-! ## The body's stored block at an index -/

/-- A row vector viewed as a column and repeated along 64 columns reads its row's entry. -/
theorem col64_apply {α : Type} (x : S128.Idx → α) (p : Fin 128) (q : Fin 64) :
    broadcastTo S128x64 (shapeCast S128x1 x shapeCasts_S128_S128x1) broadcasts_S128x1_S128x64 (ix2 p q) = x (ix1 p) := by
  refine (broadcastTo_apply _ broadcasts_S128x1_S128x64 (ix2 p q) (ix2 p (0 : Fin 1)) (fun a => ?_)).trans ?_
  · match a with
    | ⟨0, _⟩ => show p.val = if (128 : Nat) = 1 then 0 else p.val; rw [if_neg (by decide)]
    | ⟨1, _⟩ => show 0 = if (1 : Nat) = 1 then 0 else q.val; rw [if_pos rfl]
  · refine shapeCast_apply x shapeCasts_S128_S128x1 (ix2 p (0 : Fin 1)) (ix1 p) ?_
    rw [Shape.rowMajor_val_one, Shape.rowMajor_val_two]
    show p.val = p.val * 1 + 0
    omega

/-- The same along 50048 columns. -/
theorem col50048_apply {α : Type} (x : S128.Idx → α) (p : Fin 128) (n : Fin 50048) :
    broadcastTo S128x50048 (shapeCast S128x1 x shapeCasts_S128_S128x1) broadcasts_S128x1_S128x50048 (ix2 p n) = x (ix1 p) := by
  refine (broadcastTo_apply _ broadcasts_S128x1_S128x50048 (ix2 p n) (ix2 p (0 : Fin 1)) (fun a => ?_)).trans ?_
  · match a with
    | ⟨0, _⟩ => show p.val = if (128 : Nat) = 1 then 0 else p.val; rw [if_neg (by decide)]
    | ⟨1, _⟩ => show 0 = if (1 : Nat) = 1 then 0 else n.val; rw [if_pos rfl]
  · refine shapeCast_apply x shapeCasts_S128_S128x1 (ix2 p (0 : Fin 1)) (ix1 p) ?_
    rw [Shape.rowMajor_val_one, Shape.rowMajor_val_two]
    show p.val = p.val * 1 + 0
    omega

/-- The comparison bit widened and converted is the real one or the real zero. -/
theorem bit_one : (FloatOps.sitofp (F := Ideal) .f32 ((1#1 : BitVec 1).setWidth 32) : EReal) = 1 := by
  show (((( (1#1 : BitVec 1).setWidth 32).toInt : ℝ)) : EReal) = 1
  rw [show ((1#1 : BitVec 1).setWidth 32).toInt = 1 from by decide]
  simp
theorem bit_zero : (FloatOps.sitofp (F := Ideal) .f32 ((0#1 : BitVec 1).setWidth 32) : EReal) = 0 := by
  show (((( (0#1 : BitVec 1).setWidth 32).toInt : ℝ)) : EReal) = 0
  rw [show ((0#1 : BitVec 1).setWidth 32).toInt = 0 from by decide]
  simp

/-- Entry (p, n) of the one-hot matrix: one exactly when the source word of row p, read unsigned, is n. -/
theorem onehot_apply (v1 : Vec Ideal S128 .i32) (p : Fin 128) (n : Fin 50048) :
    (truncf .bf16 (sitofp .f32 (extui 32 (cmpi .eq (iota .tc S128x50048 32 [1] iota_S128x50048_d1_w32)
        (broadcastTo S128x50048 (shapeCast S128x1 v1 shapeCasts_S128_S128x1) broadcasts_S128x1_S128x50048)) natLt_1_32) : FVec Ideal S128x50048 .f32)
        bitsLt_bf16_f32 : FVec Ideal S128x50048 .bf16) (ix2 p n)
      = if (v1 (ix1 p)).toNat = n.val then (1 : EReal) else 0 := by
  show FloatOps.sitofp (F := Ideal) .f32 ((IntOp.cmpi .eq (iota .tc S128x50048 32 [1] iota_S128x50048_d1_w32 (ix2 p n))
        (broadcastTo S128x50048 (shapeCast S128x1 v1 shapeCasts_S128_S128x1) broadcasts_S128x1_S128x50048 (ix2 p n))).setWidth 32) = _
  rw [iota_single_apply, col50048_apply]
  show FloatOps.sitofp (F := Ideal) .f32 ((IntOp.cmpi .eq (BitVec.ofNat 32 n.val) (v1 (ix1 p))).setWidth 32) = _
  have hn : n.val < 50048 := n.isLt
  by_cases h : (v1 (ix1 p)).toNat = n.val
  · have e : BitVec.ofNat 32 n.val = v1 (ix1 p) := BitVec.eq_of_toNat_eq (by rw [BitVec.toNat_ofNat]; omega)
    rw [if_pos h, StableHlo.Predicate.cmpi_eq_iff.mpr e]
    exact bit_one
  · have e : ¬ BitVec.ofNat 32 n.val = v1 (ix1 p) := fun e => h (by rw [← e, BitVec.toNat_ofNat]; omega)
    rw [if_neg h, eq_zero_of_ne_one (fun hc => e (StableHlo.Predicate.cmpi_eq_iff.mp hc))]
    exact bit_zero

/-! The product's operand indices, axis by axis: the left operand is read at (row of the result, contraction position),
    the right one at (contraction position, column of the result). -/
theorem lhs_axis0 (i : S128x64.Idx) (k : dot_S128x50048_S50048x64_S128x64_1_0_0_1_n_n.contr.Idx) :
    (dot_S128x50048_S50048x64_S128x64_1_0_0_1_n_n.lhsIdx i k 0).val = (i 0).val := by
  unfold DotDims.lhsIdx
  rw [dif_neg (show ¬(0 : Fin S128x50048.rank) ∈ dot_S128x50048_S50048x64_S128x64_1_0_0_1_n_n.lhsBatch by decide), dif_pos (show (0 : Fin S128x50048.rank) ∈ dot_S128x50048_S50048x64_S128x64_1_0_0_1_n_n.lhsNonContracting by decide)]
  rfl
theorem lhs_axis1 (i : S128x64.Idx) (k : dot_S128x50048_S50048x64_S128x64_1_0_0_1_n_n.contr.Idx) :
    (dot_S128x50048_S50048x64_S128x64_1_0_0_1_n_n.lhsIdx i k 1).val = (k ⟨0, by decide⟩).val :=
  dot_S128x50048_S50048x64_S128x64_1_0_0_1_n_n.lhsIdx_val_of_single rfl i k
theorem rhs_axis0 (i : S128x64.Idx) (k : dot_S128x50048_S50048x64_S128x64_1_0_0_1_n_n.contr.Idx) :
    (dot_S128x50048_S50048x64_S128x64_1_0_0_1_n_n.rhsIdx i k 0).val = (k ⟨0, by decide⟩).val :=
  dot_S128x50048_S50048x64_S128x64_1_0_0_1_n_n.rhsIdx_val_of_single rfl i k
theorem rhs_axis1 (i : S128x64.Idx) (k : dot_S128x50048_S50048x64_S128x64_1_0_0_1_n_n.contr.Idx) :
    (dot_S128x50048_S50048x64_S128x64_1_0_0_1_n_n.rhsIdx i k 1).val = (i 1).val := by
  unfold DotDims.rhsIdx
  rw [dif_neg (show ¬(1 : Fin S50048x64.rank) ∈ dot_S128x50048_S50048x64_S128x64_1_0_0_1_n_n.rhsBatch by decide), dif_pos (show (1 : Fin S50048x64.rank) ∈ dot_S128x50048_S50048x64_S128x64_1_0_0_1_n_n.rhsNonContracting by decide)]
  rfl

/-- The product from a zero accumulator at (p, q): the sum over the 50048 rows n of the table of the left operand's
    (p, n) entry times the table's (n, q) entry. -/
theorem matmul_zero_apply (a : FVec Ideal S128x50048 .bf16) (b : FVec Ideal S50048x64 .bf16) (p : Fin 128) (q : Fin 64) :
    matmul dot_S128x50048_S50048x64_S128x64_1_0_0_1_n_n none a b (constant (F := Ideal) S128x64 .f32 0x00000000#32) (ix2 p q)
      = ∑ n : Fin 50048, a (ix2 p n) * b (ix2 n q) := by
  simp only [matmul]
  rw [Ideal.matmul_constant_zero_apply, ← Equiv.sum_comp (contrEquiv1 dot_S128x50048_S50048x64_S128x64_1_0_0_1_n_n 50048 rfl rfl).symm]
  refine Finset.sum_congr rfl fun n _ => ?_
  have hn := contrEquiv1_symm_val dot_S128x50048_S50048x64_S128x64_1_0_0_1_n_n 50048 rfl rfl n
  have el : dot_S128x50048_S50048x64_S128x64_1_0_0_1_n_n.lhsIdx (ix2 p q) ((contrEquiv1 dot_S128x50048_S50048x64_S128x64_1_0_0_1_n_n 50048 rfl rfl).symm n) = ix2 p n := funext fun a => Fin.ext (by
    match a with
    | ⟨0, _⟩ => exact lhs_axis0 _ _
    | ⟨1, _⟩ => exact (lhs_axis1 _ _).trans hn)
  have er : dot_S128x50048_S50048x64_S128x64_1_0_0_1_n_n.rhsIdx (ix2 p q) ((contrEquiv1 dot_S128x50048_S50048x64_S128x64_1_0_0_1_n_n 50048 rfl rfl).symm n) = ix2 n q := funext fun a => Fin.ext (by
    match a with
    | ⟨0, _⟩ => exact (rhs_axis0 _ _).trans hn
    | ⟨1, _⟩ => exact rhs_axis1 _ _)
  rw [el, er]

/-- A sum against a one-hot row keeps at most one term: every other term is 0 · y = 0 on the extended reals. -/
theorem onehot_sum (x : Cert.Spec.Mat 50048 64) (s : BitVec 32) (q : Fin 64) :
    (∑ n : Fin 50048, (if s.toNat = n.val then (1 : EReal) else 0) * x (ix2 n q)) = Cert.Spec.pick x s q := by
  unfold Cert.Spec.pick
  by_cases h : s.toNat < 50048
  · rw [dif_pos h, Finset.sum_eq_single (⟨s.toNat, h⟩ : Fin 50048)]
    · rw [if_pos rfl, one_mul]
    · intro n _ hne
      rw [if_neg (fun e => hne (Fin.ext e.symm)), zero_mul]
    · intro hm; exact absurd (Finset.mem_univ _) hm
  · rw [dif_neg h]
    refine Finset.sum_eq_zero fun n _ => ?_
    rw [if_neg (fun e => h (by rw [e]; exact n.isLt)), zero_mul]

/-- The stored block at (p, q): the picked row's entry q times the weight of edge p. -/
theorem pay_apply (v1 : Vec Ideal S128 .i32) (v8 : Vec Ideal S50048x64 .bf16) (v11 : Vec Ideal S128 .f32) (p : Fin 128) (q : Fin 64) :
    k0_pay1 (F := Ideal) v1 v8 v11 (ix2 p q) = Cert.Spec.pick v8 (v1 (ix1 p)) q * v11 (ix1 p) := by
  unfold k0_pay1
  refine (truncf_apply _ bitsLt_bf16_f32 (ix2 p q)).trans ?_
  refine (mulf_apply _ _ (ix2 p q)).trans ?_
  rw [col64_apply, shapeCast_self, matmul_zero_apply]
  refine congrArg (· * v11 (ix1 p)) ?_
  refine (Finset.sum_congr rfl fun n _ => ?_).trans (onehot_sum v8 (v1 (ix1 p)) q)
  rw [onehot_apply]

/-! ## From blocks to the result array -/

theorem hz1 : (![0] : Fin 1 → Nat) = fun _ => 0 := funext fun a => by fin_cases a; rfl
theorem hz2 : (![0, 0] : Fin 2 → Nat) = fun _ => 0 := funext fun a => by fin_cases a <;> rfl

/-- A weighted picked entry depends only on the table, the source word and the weight. -/
theorem weighted_congr {T T' : Cert.Spec.Mat 50048 64} {s s' : BitVec 32} {w w' : EReal} (q : Fin 64)
    (hT : T = T') (hs : s = s') (hw : w = w') : Cert.Spec.pick T s q * w = Cert.Spec.pick T' s' q * w' := by
  subst hT hs hw; rfl

/-- The block index maps of the first gather, decided over its 6250 points: the table's window stays at block (0, 0);
    the source words', the weights' and the result's windows are at block t along the edges. -/
theorem idx_facts0 : ∀ t : Fin cfg0.N, win0_0.index t (0 : Fin 2) = 0 ∧ win0_0.index t (1 : Fin 2) = 0
    ∧ win0_1.index t (0 : Fin 1) = t.val ∧ win0_2.index t (0 : Fin 1) = t.val
    ∧ win0_3.index t (0 : Fin 2) = t.val ∧ win0_3.index t (1 : Fin 2) = 0 :=
  (by decide +kernel : ∀ t : Fin grid0.N, _)

/-- The table's one block is the whole table. -/
theorem table_blk0 (c : Dev nD) (t : Fin cfg0.N) :
    (iblk0 (F := Ideal) V c 0 t : S50048x64.Idx → EReal) = V c main_v12 := by
  obtain ⟨e0, e1, -⟩ := idx_facts0 t
  funext y
  show V c main_v12 (((cfg0.win 0).blk t).view.emb y) = V c main_v12 y
  refine congrArg (V c main_v12) (funext fun a => Fin.ext ?_)
  match a with
  | ⟨0, _⟩ => show win0_0.index t (0 : Fin 2) * 50048 + 1 * (y 0).val = (y 0).val; omega
  | ⟨1, _⟩ => show win0_0.index t (1 : Fin 2) * 64 + 1 * (y 1).val = (y 1).val; omega

/-- Entry p of block t of the source words is the source word of edge 128 t + p. -/
theorem src_blk0 (c : Dev nD) (t : Fin cfg0.N) (p : Fin 128) (r : Fin 800000) (hr : r.val = t.val * 128 + p.val) :
    (iblk0 (F := Ideal) V c 1 t : S128.Idx → BitVec 32) (ix1 p) = (V c main_arg1 : S800000.Idx → BitVec 32) (ix1 r) := by
  obtain ⟨-, -, e2, -⟩ := idx_facts0 t
  show V c main_arg1 (((cfg0.win 1).blk t).view.emb (ix1 p)) = V c main_arg1 (ix1 r)
  refine congrArg (V c main_arg1) (funext fun a => Fin.ext ?_)
  match a with
  | ⟨0, _⟩ => show win0_1.index t (0 : Fin 1) * 128 + 1 * p.val = r.val; omega

/-- Entry p of block t of the weights is the weight of edge 128 t + p. -/
theorem wgt_blk0 (c : Dev nD) (t : Fin cfg0.N) (p : Fin 128) (r : Fin 800000) (hr : r.val = t.val * 128 + p.val) :
    (iblk0 (F := Ideal) V c 2 t : S128.Idx → EReal) (ix1 p) = (V c main_arg3 : S800000.Idx → EReal) (ix1 r) := by
  obtain ⟨-, -, -, e3, -⟩ := idx_facts0 t
  show V c main_arg3 (((cfg0.win 2).blk t).view.emb (ix1 p)) = V c main_arg3 (ix1 r)
  refine congrArg (V c main_arg3) (funext fun a => Fin.ext ?_)
  match a with
  | ⟨0, _⟩ => show win0_2.index t (0 : Fin 1) * 128 + 1 * p.val = r.val; omega

/-- Entry (p, q) of block t of the result sits at row 128 t + p, column q of the result array. -/
theorem out_idx0 (t : Fin cfg0.N) (p : Fin 128) (q : Fin 64) (r : Fin 800000) (hr : r.val = t.val * 128 + p.val) :
    (((cfg0.win 3).blk t).view.emb (ix2 p q) : S800000x64.Idx) = ix2 r q := by
  obtain ⟨-, -, -, -, e4, e5⟩ := idx_facts0 t
  funext a; apply Fin.ext
  match a with
  | ⟨0, _⟩ => show win0_3.index t (0 : Fin 2) * 128 + 1 * p.val = r.val; omega
  | ⟨1, _⟩ => show win0_3.index t (1 : Fin 2) * 64 + 1 * q.val = q.val; omega

/-- What point t writes back is block t of the weighted rows of the arrays the region was entered with. -/
theorem flushed0_eq (c : Dev nD) (t : Fin cfg0.N) :
    (dat0 (F := Ideal) V c).flushed 3 t = ((cfg0.win 3).blk t).view.read (Elt Ideal)
      (Cert.Spec.weightedRows (V c main_v12) (V c main_arg1) (V c main_arg3)) := by
  show (cfg0.win 3).cut (grid0.coords t) ((dat0 (F := Ideal) V c).after 3 t) = _
  rw [after0_3]
  unfold out0_3
  rw [View.canon_unit_zero hz2]
  simp only [View.ld_unit_zero (S := S128) hz1, View.ld_unit_zero (S := S50048x64) hz2]
  funext j
  obtain ⟨p, q, rfl⟩ : ∃ (p : Fin 128) (q : Fin 64), j = ix2 p q := ⟨j 0, j 1, eq_ix2 j⟩
  have hN : cfg0.N = 6250 := N_0
  have ht : t.val < 6250 := hN ▸ t.isLt
  have hp : p.val < 128 := p.isLt
  let r : Fin 800000 := ⟨t.val * 128 + p.val, by omega⟩
  have hr : r.val = t.val * 128 + p.val := rfl
  refine (pay_apply (iblk0 (F := Ideal) V c 1 t) (iblk0 (F := Ideal) V c 0 t) (iblk0 (F := Ideal) V c 2 t) p q).trans ?_
  refine Eq.trans ?_ (congrArg (Cert.Spec.weightedRows (V c main_v12) (V c main_arg1) (V c main_arg3)) (out_idx0 t p q r hr)).symm
  exact weighted_congr q (table_blk0 V c t) (src_blk0 V c t p r hr) (wgt_blk0 V c t p r hr)

/-- An index of the result array is in point t's block exactly when each coordinate is in the block's range. -/
theorem mem_blk0 (t : Fin cfg0.N) (i : S800000x64.Idx) :
    i ∈ ((cfg0.win 3).blk t).view.set ↔ ∀ a : Fin 2, win0_3.index t a * S128x64.size a ≤ (i a).val ∧ (i a).val < win0_3.index t a * S128x64.size a + S128x64.size a := by
  show i ∈ ((View.whole main_v13).slice (win0_3.rect t)).set ↔ _
  rw [View.set_slice_whole, Rect.mem_set_unit]
  exact Iff.rfl

/-- Row r of the result is written by point r / 128: the blocks tile the array. -/
theorem cover0 (i : S800000x64.Idx) :
    ∃ t : Fin cfg0.N, (cfg0.win 3).flush t = true ∧ i ∈ ((cfg0.win 3).blk t).view.set := by
  have hi0 : (i 0).val < 800000 := (i 0).isLt
  have hi1 : (i 1).val < 64 := (i 1).isLt
  have hN : cfg0.N = 6250 := N_0
  let t : Fin cfg0.N := ⟨(i 0).val / 128, by rw [hN]; omega⟩
  have htv : t.val = (i 0).val / 128 := rfl
  obtain ⟨-, -, -, -, e4, e5⟩ := idx_facts0 t
  refine ⟨t, flush0_3 t, ?_⟩
  rw [mem_blk0]
  intro a
  match a with
  | ⟨0, _⟩ => show win0_3.index t (0 : Fin 2) * 128 ≤ (i 0).val ∧ (i 0).val < win0_3.index t (0 : Fin 2) * 128 + 128; omega
  | ⟨1, _⟩ => show win0_3.index t (1 : Fin 2) * 64 ≤ (i 1).val ∧ (i 1).val < win0_3.index t (1 : Fin 2) * 64 + 64; omega

/-- After the first gather's region its result array holds the weighted rows of the table it was entered with. -/
theorem region0 (c : Dev nD) :
    (dat0 (F := Ideal) V c).arrAt 3 cfg0.N = Cert.Spec.weightedRows (V c main_v12) (V c main_arg1) (V c main_arg3) :=
  (dat0 (F := Ideal) V c).arrAt_eq_of_cover 3 (Cert.Spec.weightedRows (V c main_v12) (V c main_arg1) (V c main_arg3))
    (fun t _ => flushed0_eq V c t) cover0

/-- The second gather's body is the same arithmetic as the first's. -/
theorem pay3_apply (v1 : Vec Ideal S128 .i32) (v8 : Vec Ideal S50048x64 .bf16) (v11 : Vec Ideal S128 .f32) (p : Fin 128) (q : Fin 64) :
    k3_pay1 (F := Ideal) v1 v8 v11 (ix2 p q) = Cert.Spec.pick v8 (v1 (ix1 p)) q * v11 (ix1 p) :=
  (congrFun (show k3_pay1 (F := Ideal) v1 v8 v11 = k0_pay1 (F := Ideal) v1 v8 v11 from rfl) (ix2 p q)).trans (pay_apply v1 v8 v11 p q)

/-- The block index maps of the second gather, decided over its 6250 points: the table's window stays at block (0, 0);
    the source words', the weights' and the result's windows are at block t along the edges. -/
theorem idx_facts3 : ∀ t : Fin cfg3.N, win3_0.index t (0 : Fin 2) = 0 ∧ win3_0.index t (1 : Fin 2) = 0
    ∧ win3_1.index t (0 : Fin 1) = t.val ∧ win3_2.index t (0 : Fin 1) = t.val
    ∧ win3_3.index t (0 : Fin 2) = t.val ∧ win3_3.index t (1 : Fin 2) = 0 :=
  (by decide +kernel : ∀ t : Fin grid3.N, _)

/-- The table's one block is the whole table. -/
theorem table_blk3 (c : Dev nD) (t : Fin cfg3.N) :
    (iblk3 (F := Ideal) V c 0 t : S50048x64.Idx → EReal) = V c main_v19 := by
  obtain ⟨e0, e1, -⟩ := idx_facts3 t
  funext y
  show V c main_v19 (((cfg3.win 0).blk t).view.emb y) = V c main_v19 y
  refine congrArg (V c main_v19) (funext fun a => Fin.ext ?_)
  match a with
  | ⟨0, _⟩ => show win3_0.index t (0 : Fin 2) * 50048 + 1 * (y 0).val = (y 0).val; omega
  | ⟨1, _⟩ => show win3_0.index t (1 : Fin 2) * 64 + 1 * (y 1).val = (y 1).val; omega

/-- Entry p of block t of the source words is the source word of edge 128 t + p. -/
theorem src_blk3 (c : Dev nD) (t : Fin cfg3.N) (p : Fin 128) (r : Fin 800000) (hr : r.val = t.val * 128 + p.val) :
    (iblk3 (F := Ideal) V c 1 t : S128.Idx → BitVec 32) (ix1 p) = (V c main_arg1 : S800000.Idx → BitVec 32) (ix1 r) := by
  obtain ⟨-, -, e2, -⟩ := idx_facts3 t
  show V c main_arg1 (((cfg3.win 1).blk t).view.emb (ix1 p)) = V c main_arg1 (ix1 r)
  refine congrArg (V c main_arg1) (funext fun a => Fin.ext ?_)
  match a with
  | ⟨0, _⟩ => show win3_1.index t (0 : Fin 1) * 128 + 1 * p.val = r.val; omega

/-- Entry p of block t of the weights is the weight of edge 128 t + p. -/
theorem wgt_blk3 (c : Dev nD) (t : Fin cfg3.N) (p : Fin 128) (r : Fin 800000) (hr : r.val = t.val * 128 + p.val) :
    (iblk3 (F := Ideal) V c 2 t : S128.Idx → EReal) (ix1 p) = (V c main_arg3 : S800000.Idx → EReal) (ix1 r) := by
  obtain ⟨-, -, -, e3, -⟩ := idx_facts3 t
  show V c main_arg3 (((cfg3.win 2).blk t).view.emb (ix1 p)) = V c main_arg3 (ix1 r)
  refine congrArg (V c main_arg3) (funext fun a => Fin.ext ?_)
  match a with
  | ⟨0, _⟩ => show win3_2.index t (0 : Fin 1) * 128 + 1 * p.val = r.val; omega

/-- Entry (p, q) of block t of the result sits at row 128 t + p, column q of the result array. -/
theorem out_idx3 (t : Fin cfg3.N) (p : Fin 128) (q : Fin 64) (r : Fin 800000) (hr : r.val = t.val * 128 + p.val) :
    (((cfg3.win 3).blk t).view.emb (ix2 p q) : S800000x64.Idx) = ix2 r q := by
  obtain ⟨-, -, -, -, e4, e5⟩ := idx_facts3 t
  funext a; apply Fin.ext
  match a with
  | ⟨0, _⟩ => show win3_3.index t (0 : Fin 2) * 128 + 1 * p.val = r.val; omega
  | ⟨1, _⟩ => show win3_3.index t (1 : Fin 2) * 64 + 1 * q.val = q.val; omega

/-- What point t writes back is block t of the weighted rows of the arrays the region was entered with. -/
theorem flushed3_eq (c : Dev nD) (t : Fin cfg3.N) :
    (dat3 (F := Ideal) V c).flushed 3 t = ((cfg3.win 3).blk t).view.read (Elt Ideal)
      (Cert.Spec.weightedRows (V c main_v19) (V c main_arg1) (V c main_arg3)) := by
  show (cfg3.win 3).cut (grid3.coords t) ((dat3 (F := Ideal) V c).after 3 t) = _
  rw [after3_3]
  unfold out3_3
  rw [View.canon_unit_zero hz2]
  simp only [View.ld_unit_zero (S := S128) hz1, View.ld_unit_zero (S := S50048x64) hz2]
  funext j
  obtain ⟨p, q, rfl⟩ : ∃ (p : Fin 128) (q : Fin 64), j = ix2 p q := ⟨j 0, j 1, eq_ix2 j⟩
  have hN : cfg3.N = 6250 := N_3
  have ht : t.val < 6250 := hN ▸ t.isLt
  have hp : p.val < 128 := p.isLt
  let r : Fin 800000 := ⟨t.val * 128 + p.val, by omega⟩
  have hr : r.val = t.val * 128 + p.val := rfl
  refine (pay3_apply (iblk3 (F := Ideal) V c 1 t) (iblk3 (F := Ideal) V c 0 t) (iblk3 (F := Ideal) V c 2 t) p q).trans ?_
  refine Eq.trans ?_ (congrArg (Cert.Spec.weightedRows (V c main_v19) (V c main_arg1) (V c main_arg3)) (out_idx3 t p q r hr)).symm
  exact weighted_congr q (table_blk3 V c t) (src_blk3 V c t p r hr) (wgt_blk3 V c t p r hr)

/-- An index of the result array is in point t's block exactly when each coordinate is in the block's range. -/
theorem mem_blk3 (t : Fin cfg3.N) (i : S800000x64.Idx) :
    i ∈ ((cfg3.win 3).blk t).view.set ↔ ∀ a : Fin 2, win3_3.index t a * S128x64.size a ≤ (i a).val ∧ (i a).val < win3_3.index t a * S128x64.size a + S128x64.size a := by
  show i ∈ ((View.whole main_v20).slice (win3_3.rect t)).set ↔ _
  rw [View.set_slice_whole, Rect.mem_set_unit]
  exact Iff.rfl

/-- Row r of the result is written by point r / 128: the blocks tile the array. -/
theorem cover3 (i : S800000x64.Idx) :
    ∃ t : Fin cfg3.N, (cfg3.win 3).flush t = true ∧ i ∈ ((cfg3.win 3).blk t).view.set := by
  have hi0 : (i 0).val < 800000 := (i 0).isLt
  have hi1 : (i 1).val < 64 := (i 1).isLt
  have hN : cfg3.N = 6250 := N_3
  let t : Fin cfg3.N := ⟨(i 0).val / 128, by rw [hN]; omega⟩
  have htv : t.val = (i 0).val / 128 := rfl
  obtain ⟨-, -, -, -, e4, e5⟩ := idx_facts3 t
  refine ⟨t, flush3_3 t, ?_⟩
  rw [mem_blk3]
  intro a
  match a with
  | ⟨0, _⟩ => show win3_3.index t (0 : Fin 2) * 128 ≤ (i 0).val ∧ (i 0).val < win3_3.index t (0 : Fin 2) * 128 + 128; omega
  | ⟨1, _⟩ => show win3_3.index t (1 : Fin 2) * 64 ≤ (i 1).val ∧ (i 1).val < win3_3.index t (1 : Fin 2) * 64 + 64; omega

/-- The same for the second gather's region. -/
theorem region3 (c : Dev nD) :
    (dat3 (F := Ideal) V c).arrAt 3 cfg3.N = Cert.Spec.weightedRows (V c main_v19) (V c main_arg1) (V c main_arg3) :=
  (dat3 (F := Ideal) V c).arrAt_eq_of_cover 3 (Cert.Spec.weightedRows (V c main_v19) (V c main_arg1) (V c main_arg3))
    (fun t _ => flushed3_eq V c t) cover3

end Cert.KernelIdeal.GatherValue

end
-- ==== Proof.ScatterValue.lean ====
/-
  The sum by destination as an accumulation of products with one-hot columns.

  The output block is the whole 50048 × 64 table and its index never moves, so it stays in place across the 6250 grid
  points and is written back once, after the last.  The first point stores zeros, every point then adds to what is there
  the product of the 50048 × 128 matrix whose column k has a one in row dst k (zeros elsewhere) with the block's
  128 × 64 rows.  Over the extended reals 0 · y = 0 and 0 + y = y, so after point t entry (i, d) is the sum of u(e, d)
  over the edges e < 128 (t + 1) whose destination word is i; after the last point, over all edges.

  The steps: what each of the two cases of a point leaves in the staging buffer, as the update applied to the point's
  two blocks; the update read at one entry (the one-hot entry, the product's sum, the two identities above); the
  sum of the first N terms of a sum over 800000 edges and how one block of 128 extends it; the blocks as stretches
  of their arrays; the induction over the points; the one write-back and the table it covers.
-/
import proofs.«411369_j50465865728371_2_alg».proof.Proof.Gen.KernelIdeal.Frame
import proofs.«411369_j50465865728371_2_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate
import Idealize.ShloMosaic.Lib.Tactic

noncomputable section

open scoped BigOperators
open Idealize.ShloMosaic Idealize.ShloMosaic.TcCoe Idealize.ShloMosaic.ValueIdx Idealize.SL.Sem
open Idealize.ShloMosaic.Pipeline (Dat)

namespace Cert.KernelIdeal.ScatterValue

open Cert.KernelIdeal Cert.KernelIdeal.Gen

section Pieces
variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl

/-- A point after the first leaves, in the staging buffer holding `xo`, the update of `xo` by the point's two blocks:
    its one store covers the buffer and its loads read the whole buffers. -/
theorem piece1_B (c : Dev nD) (i : grid1.Coords) (a1 : Memref sig .tc .vmem S128 .i32) (h1 : a1.IsWhole)
    (a2 : Memref sig .tc .vmem S128x64 .bf16) (h2 : a2.IsWhole) (a3 : Memref sig .tc .vmem S50048x64 .f32) (h3 : a3.IsWhole)
    (hc : ¬cond1_0 i) (x0 : Vec F S128 .i32) (x1 : Vec F S128x64 .bf16) (xo : Vec F S50048x64 .f32) :
    out1_B_2 c i a1 h1 a2 h2 a3 h3 hc x0 x1 xo = k1_pay2 x0 x1 xo := by
  unfold out1_B_2
  rw [View.read_writes_eq_canon _ _ _ (cover1_B_2 c i a1 h1 a2 h2 a3 h3 hc x0 x1 xo)]
  unfold kernelRun1_B
  dsimp only
  sl_unfold_words
  rw [View.canon_unit_zero hz2]
  simp only [View.readAt_eq_ld, h1.read_unread, h2.read_unread, h3.read_unread, View.ld_unit_zero (S := S128) hz1,
    View.ld_unit_zero (S := S128x64) hz2, View.ld_unit_zero (S := S50048x64) hz2]

/-- The first point stores the zero table, reads it back, and leaves its update by the point's two blocks. -/
theorem piece1_A (c : Dev nD) (i : grid1.Coords) (a1 : Memref sig .tc .vmem S128 .i32) (h1 : a1.IsWhole)
    (a2 : Memref sig .tc .vmem S128x64 .bf16) (h2 : a2.IsWhole) (a3 : Memref sig .tc .vmem S50048x64 .f32) (h3 : a3.IsWhole)
    (hc : cond1_0 i) (x0 : Vec F S128 .i32) (x1 : Vec F S128x64 .bf16) :
    out1_A_2 c i a1 h1 a2 h2 a3 h3 hc x0 x1 = k1_pay2 x0 x1 (k1_pay1 (F := F)) := by
  unfold out1_A_2
  rw [View.read_writes_eq_canon _ _ _ (cover1_A_2 c i a1 h1 a2 h2 a3 h3 hc x0 x1)]
  unfold kernelRun1_A
  dsimp only
  sl_unfold_words
  rw [View.canon_cons_unit_zero (S := S50048x64) hz2, View.readCov_unit_zero (S := S50048x64) _ hz2]
  simp only [View.readAt_eq_ld, h1.read_unread, h2.read_unread, View.ld_unit_zero (S := S128) hz1,
    View.ld_unit_zero (S := S128x64) hz2]

end Pieces

section Payload

/-- The number of a table row, as a 32-bit word, is the word w exactly when w read unsigned is that number. -/
theorem ofNat_eq_iff (i : Fin 50048) (w : BitVec 32) : BitVec.ofNat 32 i.val = w ↔ w.toNat = i.val := by
  have hi : i.val < 2 ^ 32 := lt_trans i.isLt (by norm_num)
  constructor
  · rintro rfl
    rw [BitVec.toNat_ofNat]
    exact Nat.mod_eq_of_lt hi
  · intro h
    apply BitVec.eq_of_toNat_eq
    rw [BitVec.toNat_ofNat, h]
    exact Nat.mod_eq_of_lt hi

/-- The equality test of two words, widened to a word and read as a signed integer: one or zero. -/
theorem eqWord_toInt (x y : BitVec 32) :
    (BitVec.setWidth 32 (IntOp.cmpi .eq x y)).toInt = if x = y then 1 else 0 := by
  unfold IntOp.cmpi
  by_cases h : x = y
  · subst h; rw [if_pos rfl, beq_self_eq_true]; rfl
  · rw [if_neg h, beq_eq_false_iff_ne.mpr h]; rfl

/-- Entry (i, k) of the one-hot matrix of a block of 128 destination words: one when word k, read unsigned, is i. -/
theorem onehot_apply (v4 : Vec Ideal S128 .i32) (i : Fin 50048) (k : Fin 128) :
    (truncf .bf16 (sitofp (F := Ideal) .f32 (extui 32 (cmpi .eq (iota .tc S50048x128 32 [0] iota_S50048x128_d0_w32)
        (broadcastTo S50048x128 (shapeCast S1x128 v4 shapeCasts_S128_S1x128) broadcasts_S1x128_S50048x128)) natLt_1_32))
      bitsLt_bf16_f32 : FVec Ideal S50048x128 .bf16) (ix2 i k)
      = if (v4 (ix1 k)).toNat = i.val then 1 else 0 := by
  show FloatOps.sitofp (F := Ideal) .f32 ((IntOp.cmpi .eq (iota .tc S50048x128 32 [0] iota_S50048x128_d0_w32 (ix2 i k))
      (broadcastTo S50048x128 (shapeCast S1x128 v4 shapeCasts_S128_S1x128) broadcasts_S1x128_S50048x128 (ix2 i k))).setWidth 32) = _
  rw [iota_single_apply, broadcastTo_1b_ab_apply, shapeCast_a_1a_apply]
  show (((BitVec.setWidth 32 (IntOp.cmpi .eq (BitVec.ofNat 32 i.val) (v4 (ix1 k)))).toInt : ℝ) : EReal) = _
  rw [eqWord_toInt]
  by_cases h : (v4 (ix1 k)).toNat = i.val
  · rw [if_pos h, if_pos ((ofNat_eq_iff i _).mpr h)]; norm_num
  · rw [if_neg h, if_neg (fun e => h ((ofNat_eq_iff i _).mp e))]; norm_num

/-- The product's operand indices at result entry (i, d) and contraction position k are (i, k) and (k, d): the four
    coordinates, one at a time. -/
theorem lhs_dot_0 (j : S50048x64.Idx) (q : dot_S50048x128_S128x64_S50048x64_1_0_0_1_n_n.contr.Idx) :
    (dot_S50048x128_S128x64_S50048x64_1_0_0_1_n_n.lhsIdx j q 0).val = (j 0).val := by
  unfold DotDims.lhsIdx
  rw [dif_neg (show ¬(0 : Fin S50048x128.rank) ∈ dot_S50048x128_S128x64_S50048x64_1_0_0_1_n_n.lhsBatch by decide), dif_pos (show (0 : Fin S50048x128.rank) ∈ dot_S50048x128_S128x64_S50048x64_1_0_0_1_n_n.lhsNonContracting by decide)]
  rfl
theorem lhs_dot_1 (j : S50048x64.Idx) (q : dot_S50048x128_S128x64_S50048x64_1_0_0_1_n_n.contr.Idx) :
    (dot_S50048x128_S128x64_S50048x64_1_0_0_1_n_n.lhsIdx j q 1).val = (q ⟨0, by decide⟩).val :=
  dot_S50048x128_S128x64_S50048x64_1_0_0_1_n_n.lhsIdx_val_of_single rfl j q
theorem rhs_dot_0 (j : S50048x64.Idx) (q : dot_S50048x128_S128x64_S50048x64_1_0_0_1_n_n.contr.Idx) :
    (dot_S50048x128_S128x64_S50048x64_1_0_0_1_n_n.rhsIdx j q 0).val = (q ⟨0, by decide⟩).val :=
  dot_S50048x128_S128x64_S50048x64_1_0_0_1_n_n.rhsIdx_val_of_single rfl j q
theorem rhs_dot_1 (j : S50048x64.Idx) (q : dot_S50048x128_S128x64_S50048x64_1_0_0_1_n_n.contr.Idx) :
    (dot_S50048x128_S128x64_S50048x64_1_0_0_1_n_n.rhsIdx j q 1).val = (j 1).val := by
  unfold DotDims.rhsIdx
  rw [dif_neg (show ¬(1 : Fin S128x64.rank) ∈ dot_S50048x128_S128x64_S50048x64_1_0_0_1_n_n.rhsBatch by decide), dif_pos (show (1 : Fin S128x64.rank) ∈ dot_S50048x128_S128x64_S50048x64_1_0_0_1_n_n.rhsNonContracting by decide)]
  rfl

/-- The product of a 50048 × 128 matrix with a 128 × 64 one into the zero table, at entry (i, d): the sum over the 128
    positions of the products. -/
theorem scatterMatmul_apply (l : FVec Ideal S50048x128 .bf16) (r : FVec Ideal S128x64 .bf16) (i : Fin 50048) (d : Fin 64) :
    matmul dot_S50048x128_S128x64_S50048x64_1_0_0_1_n_n none l r (constant (F := Ideal) S50048x64 .f32 0x00000000#32) (ix2 i d)
      = ∑ k : Fin 128, l (ix2 i k) * r (ix2 k d) := by
  simp only [matmul]
  rw [Ideal.matmul_constant_zero_apply, ← Equiv.sum_comp (ValueIdx.contrEquiv1 dot_S50048x128_S128x64_S50048x64_1_0_0_1_n_n 128 rfl rfl).symm]
  refine Finset.sum_congr rfl fun k _ => ?_
  have hk := ValueIdx.contrEquiv1_symm_val dot_S50048x128_S128x64_S50048x64_1_0_0_1_n_n 128 rfl rfl k
  have el : dot_S50048x128_S128x64_S50048x64_1_0_0_1_n_n.lhsIdx (ix2 i d) ((ValueIdx.contrEquiv1 dot_S50048x128_S128x64_S50048x64_1_0_0_1_n_n 128 rfl rfl).symm k) = ix2 i k := funext fun a => Fin.ext (by
    match a with
    | ⟨0, _⟩ => exact lhs_dot_0 _ _
    | ⟨1, _⟩ => exact (lhs_dot_1 _ _).trans hk)
  have er : dot_S50048x128_S128x64_S50048x64_1_0_0_1_n_n.rhsIdx (ix2 i d) ((ValueIdx.contrEquiv1 dot_S50048x128_S128x64_S50048x64_1_0_0_1_n_n 128 rfl rfl).symm k) = ix2 k d := funext fun a => Fin.ext (by
    match a with
    | ⟨0, _⟩ => exact (rhs_dot_0 _ _).trans hk
    | ⟨1, _⟩ => exact rhs_dot_1 _ _)
  rw [el, er]

/-- What a point's update leaves at entry (i, d): what was there, plus the rows of the point's block of 128 whose
    destination word read unsigned is i (0 · y = 0 and 1 · y = y over the extended reals). -/
theorem pay2_apply (v4 : Vec Ideal S128 .i32) (v11 : Vec Ideal S128x64 .bf16) (v14 : Vec Ideal S50048x64 .f32)
    (i : Fin 50048) (d : Fin 64) :
    k1_pay2 (F := Ideal) v4 v11 v14 (ix2 i d)
      = v14 (ix2 i d) + ∑ k : Fin 128, if (v4 (ix1 k)).toNat = i.val then v11 (ix2 k d) else 0 := by
  unfold k1_pay2
  refine (addf_apply _ _ _).trans ?_
  refine congrArg₂ (· + ·) (congrFun (shapeCast_self v14 _) (ix2 i d)) ?_
  refine (scatterMatmul_apply _ _ i d).trans ?_
  refine Finset.sum_congr rfl fun k _ => ?_
  refine (congrArg₂ (· * ·) (onehot_apply v4 i k) (congrFun (shapeCast_self v11 _) (ix2 k d))).trans ?_
  rw [ite_mul, one_mul, zero_mul]

/-- The table the first point stores is zero everywhere. -/
theorem pay1_apply (j : S50048x64.Idx) : k1_pay1 (F := Ideal) j = 0 := by
  unfold k1_pay1
  exact Ideal.ofBits_zero_f32

end Payload

section PartialSums

/-- The sum of the first N of 800000 terms. -/
def partSum (g : Fin 800000 → EReal) (N : ℕ) : EReal :=
  ∑ n ∈ Finset.range N, if h : n < 800000 then g ⟨n, h⟩ else 0

theorem partSum_zero (g : Fin 800000 → EReal) : partSum g 0 = 0 := Finset.sum_range_zero _

/-- A further block of 128 terms. -/
theorem partSum_block (g : Fin 800000 → EReal) (t : ℕ) (ht : 128 * t + 128 ≤ 800000) :
    partSum g (128 * t + 128)
      = partSum g (128 * t) + ∑ k : Fin 128, g ⟨128 * t + k.val, by have := k.isLt; omega⟩ := by
  unfold partSum
  rw [Finset.sum_range_add, Finset.sum_range (fun x => if h : 128 * t + x < 800000 then g ⟨128 * t + x, h⟩ else 0)]
  refine congrArg₂ (· + ·) rfl (Finset.sum_congr rfl fun k _ => ?_)
  exact dif_pos (by have := k.isLt; omega)

/-- All 800000 of them. -/
theorem partSum_all (g : Fin 800000 → EReal) : partSum g 800000 = ∑ e : Fin 800000, g e := by
  unfold partSum
  rw [Finset.sum_range (fun n => if h : n < 800000 then g ⟨n, h⟩ else 0)]
  exact Finset.sum_congr rfl fun e _ => dif_pos e.isLt

/-- What edge e adds to entry (i, d) of the sums by destination. -/
def term (dst : Cert.Spec.Words 800000) (u : Cert.Spec.Mat 800000 64) (i : Fin 50048) (d : Fin 64) (e : Fin 800000) : EReal :=
  if (dst (ix1 e)).toNat = i.val then u (ix2 e d) else 0

/-- One point's step: what was there, if it was the sum over the edges before block t, plus block t's rows with
    destination i, is the sum over the edges up to the end of block t. -/
theorem step_eq (dst : Cert.Spec.Words 800000) (u : Cert.Spec.Mat 800000 64) (i : Fin 50048) (d : Fin 64)
    (t : ℕ) (ht : 128 * t + 128 ≤ 800000) (v4 : Vec Ideal S128 .i32) (v11 : Vec Ideal S128x64 .bf16)
    (h4 : ∀ k : Fin 128, v4 (ix1 k) = dst (ix1 (⟨128 * t + k.val, by have := k.isLt; omega⟩ : Fin 800000)))
    (h11 : ∀ k : Fin 128, v11 (ix2 k d) = u (ix2 (⟨128 * t + k.val, by have := k.isLt; omega⟩ : Fin 800000) d))
    (prev : EReal) (hprev : prev = partSum (term dst u i d) (128 * t)) :
    prev + (∑ k : Fin 128, if (v4 (ix1 k)).toNat = i.val then v11 (ix2 k d) else 0)
      = partSum (term dst u i d) (128 * t + 128) := by
  rw [partSum_block _ t ht, hprev]
  refine congrArg₂ (· + ·) rfl (Finset.sum_congr rfl fun k _ => ?_)
  unfold term
  rw [h4 k, h11 k]

/-- After the last block the sum is over every edge: the sums by destination. -/
theorem partSum_last (dst : Cert.Spec.Words 800000) (u : Cert.Spec.Mat 800000 64) (i : Fin 50048) (d : Fin 64) :
    partSum (term dst u i d) 800000 = Cert.Spec.sumByDst (n := 50048) dst u (ix2 i d) :=
  partSum_all _

end PartialSums

section Region1

variable (V : (c : Dev nD) → (b : Ref sig .tc) → Buf (Elt Ideal) ((c : Thread nD τ).loc b))

/-- The blocks' index maps over the grid: block t of the words and of the rows is at t; the table's one block at 0. -/
theorem idx1_0 : ∀ t : Fin cfg1.N, win1_0.index t 0 = t.val :=
  (by decide +kernel : ∀ t : Fin grid1.N, win1_0.index t 0 = t.val)
theorem idx1_1 : ∀ t : Fin cfg1.N, win1_1.index t 0 = t.val ∧ win1_1.index t 1 = 0 :=
  (by decide +kernel : ∀ t : Fin grid1.N, win1_1.index t 0 = t.val ∧ win1_1.index t 1 = 0)
theorem idx1_2 : ∀ t : Fin cfg1.N, win1_2.index t 0 = 0 ∧ win1_2.index t 1 = 0
    ∧ win1_2.xsize (grid1.coords t) 0 = 50048 ∧ win1_2.xsize (grid1.coords t) 1 = 64 :=
  (by decide +kernel : ∀ t : Fin grid1.N, win1_2.index t 0 = 0 ∧ win1_2.index t 1 = 0
    ∧ win1_2.xsize (grid1.coords t) 0 = 50048 ∧ win1_2.xsize (grid1.coords t) 1 = 64)

/-- Word k of block t of the destinations is word 128 t + k of the array. -/
theorem dblk1_apply (c : Dev nD) (t : Fin cfg1.N) (k : Fin 128) (e : Fin 800000) (he : e.val = 128 * t.val + k.val) :
    (iblk1 V c 0 t : Vec Ideal S128 .i32) (ix1 k) = (V c main_arg2 : S800000.Idx → BitVec 32) (ix1 e) := by
  unfold iblk1
  rw [View.read_apply]
  show V c main_arg2 _ = V c main_arg2 _
  congr 1
  funext a
  apply Fin.ext
  match a with
  | ⟨0, _⟩ => show win1_0.index t 0 * 128 + 1 * k.val = e.val; rw [idx1_0 t, he]; omega

/-- Row k of block t of the rows is row 128 t + k of the array. -/
theorem ublk1_apply (c : Dev nD) (t : Fin cfg1.N) (k : Fin 128) (d : Fin 64) (e : Fin 800000) (he : e.val = 128 * t.val + k.val) :
    (iblk1 V c 1 t : Vec Ideal S128x64 .bf16) (ix2 k d) = (V c main_v13 : S800000x64.Idx → EReal) (ix2 e d) := by
  unfold iblk1
  rw [View.read_apply]
  show V c main_v13 _ = V c main_v13 _
  congr 1
  funext a
  apply Fin.ext
  match a with
  | ⟨0, _⟩ => show win1_1.index t 0 * 128 + 1 * k.val = e.val; rw [(idx1_1 t).1, he]; omega
  | ⟨1, _⟩ => show win1_1.index t 1 * 64 + 1 * d.val = d.val; rw [(idx1_1 t).2]; omega

/-- THE INVARIANT. After point n the staging buffer holds, at (i, d), the sum of u(e, d) over the edges e before
    128 (n + 1) whose destination word read unsigned is i — by induction on the point. -/
theorem outsAt1_eq (c : Dev nD) : ∀ (n : ℕ) (h : n < cfg1.N) (i : Fin 50048) (d : Fin 64),
    outsAt1 V c n h (ix2 i d) = partSum (term (V c main_arg2) (V c main_v13) i d) (128 * n + 128)
  | 0, h, i, d => by
    refine (congrFun (outsAt1_A V c ⟨0, h⟩ rfl) (ix2 i d)).trans ?_
    refine (congrFun (piece1_A (F := Ideal) c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) ((hcond1_0 ⟨0, h⟩).mpr rfl) (iblk1 V c 0 ⟨0, h⟩) (iblk1 V c 1 ⟨0, h⟩)) (ix2 i d)).trans ?_
    refine (pay2_apply (iblk1 V c 0 ⟨0, h⟩) (iblk1 V c 1 ⟨0, h⟩) (k1_pay1 (F := Ideal)) i d).trans ?_
    refine step_eq (V c main_arg2) (V c main_v13) i d 0 (by norm_num) (iblk1 V c 0 ⟨0, h⟩) (iblk1 V c 1 ⟨0, h⟩)
      (fun k => dblk1_apply V c ⟨0, h⟩ k _ rfl) (fun k => ublk1_apply V c ⟨0, h⟩ k d _ rfl) _ ?_
    exact (pay1_apply _).trans (partSum_zero _).symm
  | n + 1, h, i, d => by
    have hN : cfg1.N = 6250 := N_1
    have hB : ¬(⟨n + 1, h⟩ : Fin cfg1.N).val % 6250 = 0 := by dsimp only; omega
    refine (congrFun (outsAt1_B V c ⟨n + 1, h⟩ hB) (ix2 i d)).trans ?_
    refine (congrFun (piece1_B (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (fun hh => hB ((hcond1_0 ⟨n + 1, h⟩).mp hh)) (iblk1 V c 0 ⟨n + 1, h⟩) (iblk1 V c 1 ⟨n + 1, h⟩) (outsAt1 V c n (Nat.lt_of_succ_lt h))) (ix2 i d)).trans ?_
    refine (pay2_apply (iblk1 V c 0 ⟨n + 1, h⟩) (iblk1 V c 1 ⟨n + 1, h⟩) (outsAt1 V c n (Nat.lt_of_succ_lt h)) i d).trans ?_
    refine step_eq (V c main_arg2) (V c main_v13) i d (n + 1) (by omega) (iblk1 V c 0 ⟨n + 1, h⟩) (iblk1 V c 1 ⟨n + 1, h⟩)
      (fun k => dblk1_apply V c ⟨n + 1, h⟩ k _ rfl) (fun k => ublk1_apply V c ⟨n + 1, h⟩ k d _ rfl) _ ?_
    exact (outsAt1_eq c n (Nat.lt_of_succ_lt h) i d).trans (congrArg _ (Nat.mul_succ 128 n).symm)

/-- After the last point: the sums by destination. -/
theorem outsAt1_last (c : Dev nD) (t : Fin cfg1.N) (ht : t.val = 6249) :
    outsAt1 V c t.val t.isLt = Cert.Spec.sumByDst (n := 50048) (V c main_arg2) (V c main_v13) := by
  funext j
  obtain ⟨i, d, rfl⟩ : ∃ (i : Fin 50048) (d : Fin 64), j = ix2 i d := ⟨j 0, j 1, eq_ix2 j⟩
  rw [outsAt1_eq V c t.val t.isLt i d, ht]
  exact partSum_last _ _ i d

/-- The one write-back, after the last point, writes them: the table's one block, read through zero offsets, is the table. -/
theorem flushed1_eq (c : Dev nD) (t : Fin cfg1.N) (hf : (cfg1.win 2).flush t = true) :
    (dat1 V c).flushed 2 t
      = ((cfg1.win 2).blk t).view.read (Elt Ideal) (Cert.Spec.sumByDst (n := 50048) (V c main_arg2) (V c main_v13)) := by
  have hN : cfg1.N = 6250 := N_1
  have ht : t.val = 6249 := by have := (flush1_2 t).mp hf; have := t.isLt; omega
  show (cfg1.win 2).cut (grid1.coords t) ((dat1 V c).after 2 t) = _
  rw [after1_2, outsAt1_last V c t ht]
  have hz' : (fun a => win1_2.index t a * main_v14.ty.shape.size a) = fun _ => 0 := funext fun a => by
    match a with
    | ⟨0, _⟩ => show win1_2.index t 0 * _ = 0; rw [(idx1_2 t).1, Nat.zero_mul]
    | ⟨1, _⟩ => show win1_2.index t 1 * _ = 0; rw [(idx1_2 t).2.1, Nat.zero_mul]
  exact (Memref.read_access_unit_zero (Elt Ideal) main_v14 hz' (fun a => by rw [congrFun hz' a]; simp) _).symm

/-- The last point of the grid. -/
abbrev tLast1 : Fin cfg1.N := ⟨6249, lt_of_lt_of_eq (by norm_num) N_1.symm⟩

/-- After the first scatter's region its result array holds the sums by destination of the rows it was entered with. -/
theorem region1 (c : Dev nD) :
    (dat1 (F := Ideal) V c).arrAt 2 cfg1.N = Cert.Spec.sumByDst (n := 50048) (V c main_arg2) (V c main_v13) :=
  (dat1 V c).arrAt_eq_of_cover 2 _ (flushed1_eq V c) fun j =>
    ⟨tLast1, (flush1_2 tLast1).mpr rfl, by
      show j ∈ ((View.whole main_v14).slice (win1_2.rect tLast1)).set
      rw [View.set_slice_whole, Rect.mem_set_unit]
      intro a
      have h0 : (j 0 : Nat) < 50048 := (j 0).isLt
      have h1 : (j 1 : Nat) < 64 := (j 1).isLt
      match a with
      | ⟨0, _⟩ =>
        show win1_2.index tLast1 0 * win1_2.size 0 ≤ (j 0 : Nat) ∧ (j 0 : Nat) < win1_2.index tLast1 0 * win1_2.size 0 + win1_2.xsize (grid1.coords tLast1) 0
        rw [(idx1_2 tLast1).1, (idx1_2 tLast1).2.2.1, Nat.zero_mul]; omega
      | ⟨1, _⟩ =>
        show win1_2.index tLast1 1 * win1_2.size 1 ≤ (j 1 : Nat) ∧ (j 1 : Nat) < win1_2.index tLast1 1 * win1_2.size 1 + win1_2.xsize (grid1.coords tLast1) 1
        rw [(idx1_2 tLast1).2.1, (idx1_2 tLast1).2.2.2, Nat.zero_mul]; omega⟩

end Region1

section Pieces4
variable {F : FTy → Type} [FloatOps F]

/-- The second scatter's body is the first's: the same update and the same zero table. -/
theorem k4_pay2_eq (v4 : Vec F S128 .i32) (v11 : Vec F S128x64 .bf16) (v14 : Vec F S50048x64 .f32) :
    k4_pay2 v4 v11 v14 = k1_pay2 v4 v11 v14 := rfl
theorem k4_pay1_eq : k4_pay1 (F := F) = k1_pay1 := rfl

/-- A point after the first, in the second scatter. -/
theorem piece4_B (c : Dev nD) (i : grid4.Coords) (a1 : Memref sig .tc .vmem S128 .i32) (h1 : a1.IsWhole)
    (a2 : Memref sig .tc .vmem S128x64 .bf16) (h2 : a2.IsWhole) (a3 : Memref sig .tc .vmem S50048x64 .f32) (h3 : a3.IsWhole)
    (hc : ¬cond4_0 i) (x0 : Vec F S128 .i32) (x1 : Vec F S128x64 .bf16) (xo : Vec F S50048x64 .f32) :
    out4_B_2 c i a1 h1 a2 h2 a3 h3 hc x0 x1 xo = k1_pay2 x0 x1 xo := by
  unfold out4_B_2
  rw [View.read_writes_eq_canon _ _ _ (cover4_B_2 c i a1 h1 a2 h2 a3 h3 hc x0 x1 xo)]
  unfold kernelRun4_B
  dsimp only
  sl_unfold_words
  rw [View.canon_unit_zero hz2]
  simp only [View.readAt_eq_ld, h1.read_unread, h2.read_unread, h3.read_unread, View.ld_unit_zero (S := S128) hz1,
    View.ld_unit_zero (S := S128x64) hz2, View.ld_unit_zero (S := S50048x64) hz2]
  exact k4_pay2_eq x0 x1 xo

/-- The first point, in the second scatter. -/
theorem piece4_A (c : Dev nD) (i : grid4.Coords) (a1 : Memref sig .tc .vmem S128 .i32) (h1 : a1.IsWhole)
    (a2 : Memref sig .tc .vmem S128x64 .bf16) (h2 : a2.IsWhole) (a3 : Memref sig .tc .vmem S50048x64 .f32) (h3 : a3.IsWhole)
    (hc : cond4_0 i) (x0 : Vec F S128 .i32) (x1 : Vec F S128x64 .bf16) :
    out4_A_2 c i a1 h1 a2 h2 a3 h3 hc x0 x1 = k1_pay2 x0 x1 (k1_pay1 (F := F)) := by
  unfold out4_A_2
  rw [View.read_writes_eq_canon _ _ _ (cover4_A_2 c i a1 h1 a2 h2 a3 h3 hc x0 x1)]
  unfold kernelRun4_A
  dsimp only
  sl_unfold_words
  rw [View.canon_cons_unit_zero (S := S50048x64) hz2, View.readCov_unit_zero (S := S50048x64) _ hz2]
  simp only [View.readAt_eq_ld, h1.read_unread, h2.read_unread, View.ld_unit_zero (S := S128) hz1,
    View.ld_unit_zero (S := S128x64) hz2]
  exact k4_pay2_eq x0 x1 k1_pay1

end Pieces4

section Region4

variable (V : (c : Dev nD) → (b : Ref sig .tc) → Buf (Elt Ideal) ((c : Thread nD τ).loc b))

/-- The blocks' index maps over the grid: block t of the words and of the rows is at t; the table's one block at 0. -/
theorem idx4_0 : ∀ t : Fin cfg4.N, win4_0.index t 0 = t.val :=
  (by decide +kernel : ∀ t : Fin grid4.N, win4_0.index t 0 = t.val)
theorem idx4_1 : ∀ t : Fin cfg4.N, win4_1.index t 0 = t.val ∧ win4_1.index t 1 = 0 :=
  (by decide +kernel : ∀ t : Fin grid4.N, win4_1.index t 0 = t.val ∧ win4_1.index t 1 = 0)
theorem idx4_2 : ∀ t : Fin cfg4.N, win4_2.index t 0 = 0 ∧ win4_2.index t 1 = 0
    ∧ win4_2.xsize (grid4.coords t) 0 = 50048 ∧ win4_2.xsize (grid4.coords t) 1 = 64 :=
  (by decide +kernel : ∀ t : Fin grid4.N, win4_2.index t 0 = 0 ∧ win4_2.index t 1 = 0
    ∧ win4_2.xsize (grid4.coords t) 0 = 50048 ∧ win4_2.xsize (grid4.coords t) 1 = 64)

/-- Word k of block t of the destinations is word 128 t + k of the array. -/
theorem dblk4_apply (c : Dev nD) (t : Fin cfg4.N) (k : Fin 128) (e : Fin 800000) (he : e.val = 128 * t.val + k.val) :
    (iblk4 V c 0 t : Vec Ideal S128 .i32) (ix1 k) = (V c main_arg2 : S800000.Idx → BitVec 32) (ix1 e) := by
  unfold iblk4
  rw [View.read_apply]
  show V c main_arg2 _ = V c main_arg2 _
  congr 1
  funext a
  apply Fin.ext
  match a with
  | ⟨0, _⟩ => show win4_0.index t 0 * 128 + 1 * k.val = e.val; rw [idx4_0 t, he]; omega

/-- Row k of block t of the rows is row 128 t + k of the array. -/
theorem ublk4_apply (c : Dev nD) (t : Fin cfg4.N) (k : Fin 128) (d : Fin 64) (e : Fin 800000) (he : e.val = 128 * t.val + k.val) :
    (iblk4 V c 1 t : Vec Ideal S128x64 .bf16) (ix2 k d) = (V c main_v20 : S800000x64.Idx → EReal) (ix2 e d) := by
  unfold iblk4
  rw [View.read_apply]
  show V c main_v20 _ = V c main_v20 _
  congr 1
  funext a
  apply Fin.ext
  match a with
  | ⟨0, _⟩ => show win4_1.index t 0 * 128 + 1 * k.val = e.val; rw [(idx4_1 t).1, he]; omega
  | ⟨1, _⟩ => show win4_1.index t 1 * 64 + 1 * d.val = d.val; rw [(idx4_1 t).2]; omega

/-- THE INVARIANT. After point n the staging buffer holds, at (i, d), the sum of u(e, d) over the edges e before
    128 (n + 1) whose destination word read unsigned is i — by induction on the point. -/
theorem outsAt4_eq (c : Dev nD) : ∀ (n : ℕ) (h : n < cfg4.N) (i : Fin 50048) (d : Fin 64),
    outsAt4 V c n h (ix2 i d) = partSum (term (V c main_arg2) (V c main_v20) i d) (128 * n + 128)
  | 0, h, i, d => by
    refine (congrFun (outsAt4_A V c ⟨0, h⟩ rfl) (ix2 i d)).trans ?_
    refine (congrFun (piece4_A (F := Ideal) c (grid4.coords ⟨0, h⟩) (ms4_0 ⟨0, h⟩) (hs4_0 ⟨0, h⟩) (ms4_1 ⟨0, h⟩) (hs4_1 ⟨0, h⟩) (ms4_2 ⟨0, h⟩) (hs4_2 ⟨0, h⟩) ((hcond4_0 ⟨0, h⟩).mpr rfl) (iblk4 V c 0 ⟨0, h⟩) (iblk4 V c 1 ⟨0, h⟩)) (ix2 i d)).trans ?_
    refine (pay2_apply (iblk4 V c 0 ⟨0, h⟩) (iblk4 V c 1 ⟨0, h⟩) (k1_pay1 (F := Ideal)) i d).trans ?_
    refine step_eq (V c main_arg2) (V c main_v20) i d 0 (by norm_num) (iblk4 V c 0 ⟨0, h⟩) (iblk4 V c 1 ⟨0, h⟩)
      (fun k => dblk4_apply V c ⟨0, h⟩ k _ rfl) (fun k => ublk4_apply V c ⟨0, h⟩ k d _ rfl) _ ?_
    exact (pay1_apply _).trans (partSum_zero _).symm
  | n + 1, h, i, d => by
    have hN : cfg4.N = 6250 := N_4
    have hB : ¬(⟨n + 1, h⟩ : Fin cfg4.N).val % 6250 = 0 := by dsimp only; omega
    refine (congrFun (outsAt4_B V c ⟨n + 1, h⟩ hB) (ix2 i d)).trans ?_
    refine (congrFun (piece4_B (F := Ideal) c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) (fun hh => hB ((hcond4_0 ⟨n + 1, h⟩).mp hh)) (iblk4 V c 0 ⟨n + 1, h⟩) (iblk4 V c 1 ⟨n + 1, h⟩) (outsAt4 V c n (Nat.lt_of_succ_lt h))) (ix2 i d)).trans ?_
    refine (pay2_apply (iblk4 V c 0 ⟨n + 1, h⟩) (iblk4 V c 1 ⟨n + 1, h⟩) (outsAt4 V c n (Nat.lt_of_succ_lt h)) i d).trans ?_
    refine step_eq (V c main_arg2) (V c main_v20) i d (n + 1) (by omega) (iblk4 V c 0 ⟨n + 1, h⟩) (iblk4 V c 1 ⟨n + 1, h⟩)
      (fun k => dblk4_apply V c ⟨n + 1, h⟩ k _ rfl) (fun k => ublk4_apply V c ⟨n + 1, h⟩ k d _ rfl) _ ?_
    exact (outsAt4_eq c n (Nat.lt_of_succ_lt h) i d).trans (congrArg _ (Nat.mul_succ 128 n).symm)

/-- After the last point: the sums by destination. -/
theorem outsAt4_last (c : Dev nD) (t : Fin cfg4.N) (ht : t.val = 6249) :
    outsAt4 V c t.val t.isLt = Cert.Spec.sumByDst (n := 50048) (V c main_arg2) (V c main_v20) := by
  funext j
  obtain ⟨i, d, rfl⟩ : ∃ (i : Fin 50048) (d : Fin 64), j = ix2 i d := ⟨j 0, j 1, eq_ix2 j⟩
  rw [outsAt4_eq V c t.val t.isLt i d, ht]
  exact partSum_last _ _ i d

/-- The one write-back, after the last point, writes them: the table's one block, read through zero offsets, is the table. -/
theorem flushed4_eq (c : Dev nD) (t : Fin cfg4.N) (hf : (cfg4.win 2).flush t = true) :
    (dat4 V c).flushed 2 t
      = ((cfg4.win 2).blk t).view.read (Elt Ideal) (Cert.Spec.sumByDst (n := 50048) (V c main_arg2) (V c main_v20)) := by
  have hN : cfg4.N = 6250 := N_4
  have ht : t.val = 6249 := by have := (flush4_2 t).mp hf; have := t.isLt; omega
  show (cfg4.win 2).cut (grid4.coords t) ((dat4 V c).after 2 t) = _
  rw [after4_2, outsAt4_last V c t ht]
  have hz' : (fun a => win4_2.index t a * main_v21.ty.shape.size a) = fun _ => 0 := funext fun a => by
    match a with
    | ⟨0, _⟩ => show win4_2.index t 0 * _ = 0; rw [(idx4_2 t).1, Nat.zero_mul]
    | ⟨1, _⟩ => show win4_2.index t 1 * _ = 0; rw [(idx4_2 t).2.1, Nat.zero_mul]
  exact (Memref.read_access_unit_zero (Elt Ideal) main_v21 hz' (fun a => by rw [congrFun hz' a]; simp) _).symm

/-- The last point of the grid. -/
abbrev tLast4 : Fin cfg4.N := ⟨6249, lt_of_lt_of_eq (by norm_num) N_4.symm⟩

/-- The same for the second scatter's region. -/
theorem region4 (c : Dev nD) :
    (dat4 (F := Ideal) V c).arrAt 2 cfg4.N = Cert.Spec.sumByDst (n := 50048) (V c main_arg2) (V c main_v20) :=
  (dat4 V c).arrAt_eq_of_cover 2 _ (flushed4_eq V c) fun j =>
    ⟨tLast4, (flush4_2 tLast4).mpr rfl, by
      show j ∈ ((View.whole main_v21).slice (win4_2.rect tLast4)).set
      rw [View.set_slice_whole, Rect.mem_set_unit]
      intro a
      have h0 : (j 0 : Nat) < 50048 := (j 0).isLt
      have h1 : (j 1 : Nat) < 64 := (j 1).isLt
      match a with
      | ⟨0, _⟩ =>
        show win4_2.index tLast4 0 * win4_2.size 0 ≤ (j 0 : Nat) ∧ (j 0 : Nat) < win4_2.index tLast4 0 * win4_2.size 0 + win4_2.xsize (grid4.coords tLast4) 0
        rw [(idx4_2 tLast4).1, (idx4_2 tLast4).2.2.1, Nat.zero_mul]; omega
      | ⟨1, _⟩ =>
        show win4_2.index tLast4 1 * win4_2.size 1 ≤ (j 1 : Nat) ∧ (j 1 : Nat) < win4_2.index tLast4 1 * win4_2.size 1 + win4_2.xsize (grid4.coords tLast4) 1
        rw [(idx4_2 tLast4).2.1, (idx4_2 tLast4).2.2.2, Nat.zero_mul]; omega⟩

end Region4

end Cert.KernelIdeal.ScatterValue

end
-- ==== Proof.DenseValue.lean ====
/-
  The dense stage on a block of 6256 rows.

  Row by row the body divides the message row by the row's normaliser, multiplies the feature row and the quotient row
  into two 64 × 64 matrices from zero accumulators (a change of float format is the identity on the extended reals),
  adds the two bias rows in the order ((f·A + b0) + m·B) + b1 and takes the maximum with zero.  Every entry depends on
  its own row only, so the eight blocks of the [50048, 64] result are the restrictions of one function of the whole
  arrays, and they tile it.
-/
import proofs.«411369_j50465865728371_2_alg».proof.Proof.Gen.KernelIdeal.Frame
import proofs.«411369_j50465865728371_2_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate
import Idealize.ShloMosaic.Lib.Tactic

noncomputable section

open scoped BigOperators
open Idealize.ShloMosaic Idealize.ShloMosaic.TcCoe Idealize.ShloMosaic.ValueIdx Idealize.SL.Sem
open Idealize.ShloMosaic.Pipeline (Dat)

namespace Cert.KernelIdeal.DenseValue

open Cert.KernelIdeal Cert.KernelIdeal.Gen

/-! ## The block's arithmetic at an entry -/

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The left operand of the block's product is read at the result's row ... -/
theorem mm_lhs_0 (i : S6256x64.Idx) (q : dot_S6256x64_S64x64_S6256x64_1_0_0_1_n_n.contr.Idx) :
    (dot_S6256x64_S64x64_S6256x64_1_0_0_1_n_n.lhsIdx i q 0).val = (i 0).val := by
  unfold DotDims.lhsIdx
  rw [dif_neg (show ¬(0 : Fin S6256x64.rank) ∈ dot_S6256x64_S64x64_S6256x64_1_0_0_1_n_n.lhsBatch by decide), dif_pos (show (0 : Fin S6256x64.rank) ∈ dot_S6256x64_S64x64_S6256x64_1_0_0_1_n_n.lhsNonContracting by decide)]
  rfl
/-- ... and at the summation index as its column; -/
theorem mm_lhs_1 (i : S6256x64.Idx) (q : dot_S6256x64_S64x64_S6256x64_1_0_0_1_n_n.contr.Idx) :
    (dot_S6256x64_S64x64_S6256x64_1_0_0_1_n_n.lhsIdx i q 1).val = (q ⟨0, by decide⟩).val :=
  dot_S6256x64_S64x64_S6256x64_1_0_0_1_n_n.lhsIdx_val_of_single rfl i q
/-- the right operand at the summation index as its row ... -/
theorem mm_rhs_0 (i : S6256x64.Idx) (q : dot_S6256x64_S64x64_S6256x64_1_0_0_1_n_n.contr.Idx) :
    (dot_S6256x64_S64x64_S6256x64_1_0_0_1_n_n.rhsIdx i q 0).val = (q ⟨0, by decide⟩).val :=
  dot_S6256x64_S64x64_S6256x64_1_0_0_1_n_n.rhsIdx_val_of_single rfl i q
/-- ... and at the result's column. -/
theorem mm_rhs_1 (i : S6256x64.Idx) (q : dot_S6256x64_S64x64_S6256x64_1_0_0_1_n_n.contr.Idx) :
    (dot_S6256x64_S64x64_S6256x64_1_0_0_1_n_n.rhsIdx i q 1).val = (i 1).val := by
  unfold DotDims.rhsIdx
  rw [dif_neg (show ¬(1 : Fin S64x64.rank) ∈ dot_S6256x64_S64x64_S6256x64_1_0_0_1_n_n.rhsBatch by decide), dif_pos (show (1 : Fin S64x64.rank) ∈ dot_S6256x64_S64x64_S6256x64_1_0_0_1_n_n.rhsNonContracting by decide)]
  rfl

/-- A product of a `[6256, 64]` block with a `[64, 64]` matrix into the zero accumulator, at `(p, q)`: the sum over
    `k` of the block's `(p, k)` times the matrix's `(k, q)`. -/
theorem mm_apply (a : FVec Ideal S6256x64 .bf16) (b : FVec Ideal S64x64 .bf16) (p : Fin 6256) (q : Fin 64) :
    matmul dot_S6256x64_S64x64_S6256x64_1_0_0_1_n_n none a b (constant (F := Ideal) S6256x64 .f32 0x00000000#32) (ix2 p q)
      = ∑ k : Fin 64, a (ix2 p k) * b (ix2 k q) := by
  show FloatOps.matmul dot_S6256x64_S64x64_S6256x64_1_0_0_1_n_n none a b (constant (F := Ideal) S6256x64 .f32 0x00000000#32) (ix2 p q) = _
  rw [Ideal.matmul_constant_zero_apply, ← Equiv.sum_comp (ValueIdx.contrEquiv1 dot_S6256x64_S64x64_S6256x64_1_0_0_1_n_n 64 rfl rfl).symm]
  refine Finset.sum_congr rfl fun k _ => ?_
  have hk := ValueIdx.contrEquiv1_symm_val dot_S6256x64_S64x64_S6256x64_1_0_0_1_n_n 64 rfl rfl k
  have el : dot_S6256x64_S64x64_S6256x64_1_0_0_1_n_n.lhsIdx (ix2 p q) ((ValueIdx.contrEquiv1 dot_S6256x64_S64x64_S6256x64_1_0_0_1_n_n 64 rfl rfl).symm k) = ix2 p k := funext fun ax => Fin.ext (by
    match ax with
    | ⟨0, _⟩ => exact mm_lhs_0 _ _
    | ⟨1, _⟩ => exact (mm_lhs_1 _ _).trans hk)
  have er : dot_S6256x64_S64x64_S6256x64_1_0_0_1_n_n.rhsIdx (ix2 p q) ((ValueIdx.contrEquiv1 dot_S6256x64_S64x64_S6256x64_1_0_0_1_n_n 64 rfl rfl).symm k) = ix2 k q := funext fun ax => Fin.ext (by
    match ax with
    | ⟨0, _⟩ => exact (mm_rhs_0 _ _).trans hk
    | ⟨1, _⟩ => exact mm_rhs_1 _ _)
  rw [el, er]

/-- THE BLOCK'S ENTRY `(p, q)`: the feature row times the first matrix plus the first bias, plus the message row divided
    by the row's normaliser times the second matrix, plus the second bias, cut below at zero. -/
theorem dense_pay_apply (v0 v2 : Vec Ideal S6256x64 .f32) (v4 : Vec Ideal S6256x1 .f32) (v10 v13 : Vec Ideal S64x64 .bf16)
    (v16 v21 : Vec Ideal S64 .f32) (p : Fin 6256) (q : Fin 64) :
    k2_pay1 (F := Ideal) v0 v2 v4 v10 v13 v16 v21 (ix2 p q)
      = max ((((∑ k : Fin 64, v0 (ix2 p k) * v10 (ix2 k q)) + v16 (ix1 q))
          + (∑ k : Fin 64, Ideal.div (v2 (ix2 p k)) (v4 (ix2 p (0 : Fin 1))) * v13 (ix2 k q))) + v21 (ix1 q)) 0 := by
  unfold k2_pay1
  simp only [shapeCast_self]
  rw [maximumf_apply, addf_apply, addf_apply, addf_apply, mm_apply, mm_apply,
    broadcastTo_1b_ab_apply, broadcastTo_1b_ab_apply, shapeCast_a_1a_apply, shapeCast_a_1a_apply, broadcast_apply]
  simp only [truncf_apply, divf_apply, broadcastTo_a1_ab_apply]
  exact congrArg (max _) Ideal.ofBits_zero_f32

/-- The second dense region's block arithmetic is the first's. -/
theorem pay5_eq_pay2 (v0 v2 : Vec Ideal S6256x64 .f32) (v4 : Vec Ideal S6256x1 .f32) (v10 v13 : Vec Ideal S64x64 .bf16)
    (v16 v21 : Vec Ideal S64 .f32) :
    k5_pay1 (F := Ideal) v0 v2 v4 v10 v13 v16 v21 = k2_pay1 (F := Ideal) v0 v2 v4 v10 v13 v16 v21 := rfl

/-- The block's entry is the dense stage's entry of the whole arrays, as soon as the block's rows are rows of the arrays:
    row `p` of the feature, message and normaliser blocks is row `r` of their arrays, and the matrices and bias rows are
    read whole. -/
theorem dense_pay_eq_denseRows (x0 x1 : Vec Ideal S6256x64 .f32) (x2 : Vec Ideal S6256x1 .f32) (x3 x5 : Vec Ideal S64x64 .bf16)
    (x4 x6 : Vec Ideal S64 .f32)
    (f msg : Cert.Spec.Mat 50048 64) (den : Cert.Spec.Mat 50048 1) (A B : Cert.Spec.Mat 64 64) (b0 b1 : Cert.Spec.Row 64)
    (p : Fin 6256) (q : Fin 64) (r : Fin 50048)
    (h0 : ∀ k : Fin 64, x0 (ix2 p k) = f (ix2 r k)) (h1 : ∀ k : Fin 64, x1 (ix2 p k) = msg (ix2 r k))
    (h2 : x2 (ix2 p (0 : Fin 1)) = den (ix2 r (0 : Fin 1)))
    (h3 : ∀ k : Fin 64, x3 (ix2 k q) = A (ix2 k q)) (h5 : ∀ k : Fin 64, x5 (ix2 k q) = B (ix2 k q))
    (h4 : x4 (ix1 q) = b0 (ix1 q)) (h6 : x6 (ix1 q) = b1 (ix1 q)) :
    k2_pay1 (F := Ideal) x0 x1 x2 x3 x5 x4 x6 (ix2 p q) = Cert.Spec.denseRows f msg den A B b0 b1 (ix2 r q) := by
  rw [dense_pay_apply, h2, h4, h6]
  unfold Cert.Spec.denseRows
  simp only [h0, h1, h3, h5]

/-! ## The first dense region: blocks of rows, and the array they tile -/

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The block's entry at a block index `y` is the dense stage's entry of the whole arrays at the array index `i`, when `i`
    is `y` moved down by `T` blocks of 6256 rows, the three row-blocked inputs are the arrays' rows from `6256 T` on,
    and the matrices and bias rows are read whole. -/
theorem block_entry_eq (T : ℕ) (x0 x1 : Vec Ideal S6256x64 .f32) (x2 : Vec Ideal S6256x1 .f32) (x3 x5 : Vec Ideal S64x64 .bf16)
    (x4 x6 : Vec Ideal S64 .f32)
    (f msg : Cert.Spec.Mat 50048 64) (den : Cert.Spec.Mat 50048 1) (A B : Cert.Spec.Mat 64 64) (b0 b1 : Cert.Spec.Row 64)
    (h0 : ∀ (p : Fin 6256) (k : Fin 64) (r : Fin 50048), r.val = T * 6256 + p.val → x0 (ix2 p k) = f (ix2 r k))
    (h1 : ∀ (p : Fin 6256) (k : Fin 64) (r : Fin 50048), r.val = T * 6256 + p.val → x1 (ix2 p k) = msg (ix2 r k))
    (h2 : ∀ (p : Fin 6256) (r : Fin 50048), r.val = T * 6256 + p.val → x2 (ix2 p (0 : Fin 1)) = den (ix2 r (0 : Fin 1)))
    (h3 : ∀ k q : Fin 64, x3 (ix2 k q) = A (ix2 k q)) (h5 : ∀ k q : Fin 64, x5 (ix2 k q) = B (ix2 k q))
    (h4 : ∀ q : Fin 64, x4 (ix1 q) = b0 (ix1 q)) (h6 : ∀ q : Fin 64, x6 (ix1 q) = b1 (ix1 q))
    (y : S6256x64.Idx) (i : S50048x64.Idx) (hrow : (i 0).val = T * 6256 + (y 0).val) (hcol : (i 1).val = (y 1).val) :
    k2_pay1 (F := Ideal) x0 x1 x2 x3 x5 x4 x6 y = Cert.Spec.denseRows f msg den A B b0 b1 i := by
  obtain ⟨p, q, rfl⟩ : ∃ (p : Fin 6256) (q : Fin 64), y = ix2 p q := ⟨y 0, y 1, eq_ix2 y⟩
  obtain ⟨r, q', rfl⟩ : ∃ (r : Fin 50048) (q' : Fin 64), i = ix2 r q' := ⟨i 0, i 1, eq_ix2 i⟩
  obtain rfl : q' = q := Fin.ext hcol
  exact dense_pay_eq_denseRows x0 x1 x2 x3 x5 x4 x6 f msg den A B b0 b1 p q' r (fun k => h0 p k r hrow) (fun k => h1 p k r hrow)
    (h2 p r hrow) (fun k => h3 k q') (fun k => h5 k q') (h4 q') (h6 q')

/-- Where each window's block sits at point `t`: the three row-blocked inputs and the output at block row `t`, the two
    matrices and the two bias rows whole (decided over the 8 points). -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = 0 ∧ win2_5.index t (1 : Fin 2) = 0
    ∧ win2_6.index t (0 : Fin 1) = 0
    ∧ win2_7.index t (0 : Fin 2) = t.val ∧ win2_7.index t (1 : Fin 2) = 0 :=
  (by decide +kernel : ∀ t : Fin grid2.N, _)

/-- Row `p` of the feature block at point `t` is row `6256 t + p` of the feature array. -/
theorem iblk2_0_apply (c : Dev nD) (t : Fin cfg2.N) (p : Fin 6256) (k : Fin 64) (r : Fin 50048) (hr : r.val = t.val * 6256 + p.val) :
    (iblk2 (F := Ideal) V c 0 t : Vec Ideal S6256x64 .f32) (ix2 p k) = (V c main_v0 : S50048x64.Idx → EReal) (ix2 r k) := by
  obtain ⟨e0, e1, -⟩ := idx_facts2 t
  unfold iblk2
  rw [View.read_apply]
  show V c main_v0 _ = V c main_v0 _
  congr 1
  funext a
  apply Fin.ext
  match a with
  | ⟨0, _⟩ => show win2_0.index t (0 : Fin 2) * 6256 + 1 * p.val = r.val; rw [e0, hr]; omega
  | ⟨1, _⟩ => show win2_0.index t (1 : Fin 2) * 64 + 1 * k.val = k.val; rw [e1]; omega

/-- Row `p` of the message block at point `t` is row `6256 t + p` of the message array. -/
theorem iblk2_1_apply (c : Dev nD) (t : Fin cfg2.N) (p : Fin 6256) (k : Fin 64) (r : Fin 50048) (hr : r.val = t.val * 6256 + p.val) :
    (iblk2 (F := Ideal) V c 1 t : Vec Ideal S6256x64 .f32) (ix2 p k) = (V c main_v14 : S50048x64.Idx → EReal) (ix2 r k) := by
  obtain ⟨-, -, e0, e1, -⟩ := idx_facts2 t
  unfold iblk2
  rw [View.read_apply]
  show V c main_v14 _ = V c main_v14 _
  congr 1
  funext a
  apply Fin.ext
  match a with
  | ⟨0, _⟩ => show win2_1.index t (0 : Fin 2) * 6256 + 1 * p.val = r.val; rw [e0, hr]; omega
  | ⟨1, _⟩ => show win2_1.index t (1 : Fin 2) * 64 + 1 * k.val = k.val; rw [e1]; omega

/-- Entry `p` of the normaliser block at point `t` is entry `6256 t + p` of the normaliser column. -/
theorem iblk2_2_apply (c : Dev nD) (t : Fin cfg2.N) (p : Fin 6256) (r : Fin 50048) (hr : r.val = t.val * 6256 + p.val) :
    (iblk2 (F := Ideal) V c 2 t : Vec Ideal S6256x1 .f32) (ix2 p (0 : Fin 1)) = (V c main_v7 : S50048x1.Idx → EReal) (ix2 r (0 : Fin 1)) := by
  obtain ⟨-, -, -, -, e0, e1, -⟩ := idx_facts2 t
  unfold iblk2
  rw [View.read_apply]
  show V c main_v7 _ = V c main_v7 _
  congr 1
  funext a
  apply Fin.ext
  match a with
  | ⟨0, _⟩ => show win2_2.index t (0 : Fin 2) * 6256 + 1 * p.val = r.val; rw [e0, hr]; omega
  | ⟨1, _⟩ => show win2_2.index t (1 : Fin 2) * 1 + 1 * 0 = 0; rw [e1]

/-- The first matrix's block at any point is the matrix. -/
theorem iblk2_3_apply (c : Dev nD) (t : Fin cfg2.N) (k q : Fin 64) :
    (iblk2 (F := Ideal) V c 3 t : Vec Ideal S64x64 .bf16) (ix2 k q) = (V c main_v9 : S64x64.Idx → EReal) (ix2 k q) := by
  obtain ⟨-, -, -, -, -, -, e0, e1, -⟩ := idx_facts2 t
  unfold iblk2
  rw [View.read_apply]
  show V c main_v9 _ = V c main_v9 _
  congr 1
  funext a
  apply Fin.ext
  match a with
  | ⟨0, _⟩ => show win2_3.index t (0 : Fin 2) * 64 + 1 * k.val = k.val; rw [e0]; omega
  | ⟨1, _⟩ => show win2_3.index t (1 : Fin 2) * 64 + 1 * q.val = q.val; rw [e1]; omega

/-- The first bias row's block at any point is the row. -/
theorem iblk2_4_apply (c : Dev nD) (t : Fin cfg2.N) (q : Fin 64) :
    (iblk2 (F := Ideal) V c 4 t : Vec Ideal S64 .f32) (ix1 q) = (V c main_arg5 : S64.Idx → EReal) (ix1 q) := by
  obtain ⟨-, -, -, -, -, -, -, -, e0, -⟩ := idx_facts2 t
  unfold iblk2
  rw [View.read_apply]
  show V c main_arg5 _ = V c main_arg5 _
  congr 1
  funext a
  apply Fin.ext
  match a with
  | ⟨0, _⟩ => show win2_4.index t (0 : Fin 1) * 64 + 1 * q.val = q.val; rw [e0]; omega

/-- The second matrix's block at any point is the matrix. -/
theorem iblk2_5_apply (c : Dev nD) (t : Fin cfg2.N) (k q : Fin 64) :
    (iblk2 (F := Ideal) V c 5 t : Vec Ideal S64x64 .bf16) (ix2 k q) = (V c main_v11 : S64x64.Idx → EReal) (ix2 k q) := by
  obtain ⟨-, -, -, -, -, -, -, -, -, e0, e1, -⟩ := idx_facts2 t
  unfold iblk2
  rw [View.read_apply]
  show V c main_v11 _ = V c main_v11 _
  congr 1
  funext a
  apply Fin.ext
  match a with
  | ⟨0, _⟩ => show win2_5.index t (0 : Fin 2) * 64 + 1 * k.val = k.val; rw [e0]; omega
  | ⟨1, _⟩ => show win2_5.index t (1 : Fin 2) * 64 + 1 * q.val = q.val; rw [e1]; omega

/-- The second bias row's block at any point is the row. -/
theorem iblk2_6_apply (c : Dev nD) (t : Fin cfg2.N) (q : Fin 64) :
    (iblk2 (F := Ideal) V c 6 t : Vec Ideal S64 .f32) (ix1 q) = (V c main_arg7 : S64.Idx → EReal) (ix1 q) := by
  obtain ⟨-, -, -, -, -, -, -, -, -, -, -, e0, -⟩ := idx_facts2 t
  unfold iblk2
  rw [View.read_apply]
  show V c main_arg7 _ = V c main_arg7 _
  congr 1
  funext a
  apply Fin.ext
  match a with
  | ⟨0, _⟩ => show win2_6.index t (0 : Fin 1) * 64 + 1 * q.val = q.val; rw [e0]; omega

/-- WHAT POINT `t` WRITES BACK is block `t` of the dense stage of the arrays the region was entered with. -/
theorem flushed2_eq (c : Dev nD) (t : Fin cfg2.N) :
    (dat2 (F := Ideal) V c).flushed 7 t = ((cfg2.win 7).blk t).view.read (Elt Ideal)
      (Cert.Spec.denseRows (V c main_v0) (V c main_v14) (V c main_v7) (V c main_v9) (V c main_v11) (V c main_arg5) (V c main_arg7)) := by
  show (cfg2.win 7).cut (grid2.coords t) ((dat2 (F := Ideal) V c).after 7 t) = _
  rw [after2_7]
  unfold out2_7
  rw [View.canon_unit_zero hz2]
  simp only [View.ld_unit_zero (S := S6256x64) hz2, View.ld_unit_zero (S := S6256x1) hz2, View.ld_unit_zero (S := S64x64) hz2,
    View.ld_unit_zero (S := S64) hz1]
  obtain ⟨-, -, -, -, -, -, -, -, -, -, -, -, e0, e1⟩ := idx_facts2 t
  funext j
  show k2_pay1 (F := Ideal) (iblk2 (F := Ideal) V c 0 t) (iblk2 (F := Ideal) V c 1 t) (iblk2 (F := Ideal) V c 2 t) (iblk2 (F := Ideal) V c 3 t)
      (iblk2 (F := Ideal) V c 5 t) (iblk2 (F := Ideal) V c 4 t) (iblk2 (F := Ideal) V c 6 t) ((cfg2.win 7).xinj (grid2.coords t) j)
    = Cert.Spec.denseRows (V c main_v0) (V c main_v14) (V c main_v7) (V c main_v9) (V c main_v11) (V c main_arg5) (V c main_arg7)
      (((cfg2.win 7).blk t).view.emb j)
  refine block_entry_eq t.val (iblk2 (F := Ideal) V c 0 t) (iblk2 (F := Ideal) V c 1 t) (iblk2 (F := Ideal) V c 2 t)
    (iblk2 (F := Ideal) V c 3 t) (iblk2 (F := Ideal) V c 5 t) (iblk2 (F := Ideal) V c 4 t) (iblk2 (F := Ideal) V c 6 t)
    (V c main_v0) (V c main_v14) (V c main_v7) (V c main_v9) (V c main_v11) (V c main_arg5) (V c main_arg7)
    (fun p k r hr => iblk2_0_apply V c t p k r hr) (fun p k r hr => iblk2_1_apply V c t p k r hr)
    (fun p r hr => iblk2_2_apply V c t p r hr) (fun k q => iblk2_3_apply V c t k q) (fun k q => iblk2_5_apply V c t k q)
    (fun q => iblk2_4_apply V c t q) (fun q => iblk2_6_apply V c t q)
    ((cfg2.win 7).xinj (grid2.coords t) j) (((cfg2.win 7).blk t).view.emb j) ?_ ?_
  · show win2_7.index t (0 : Fin 2) * 6256 + 1 * (j 0).val = t.val * 6256 + (j 0).val
    rw [e0]; omega
  · show win2_7.index t (1 : Fin 2) * 64 + 1 * (j 1).val = (j 1).val
    rw [e1]; omega

/-- An index of the result array is in point `t`'s block iff each coordinate is in the block's range on its axis. -/
theorem mem_blk2 (t : Fin cfg2.N) (i : S50048x64.Idx) :
    i ∈ ((cfg2.win 7).blk t).view.set ↔ ∀ a : Fin 2, win2_7.index t a * S6256x64.size a ≤ (i a).val ∧ (i a).val < win2_7.index t a * S6256x64.size a + S6256x64.size a := by
  show i ∈ ((View.whole main_v15).slice (win2_7.rect t)).set ↔ _
  rw [View.set_slice_whole, Rect.mem_set_unit]
  exact Iff.rfl

/-- Every index of the result array is in some point's block: row `r` is in the block of point `r / 6256`. -/
theorem cover2 (i : S50048x64.Idx) : ∃ t : Fin cfg2.N, (cfg2.win 7).flush t = true ∧ i ∈ ((cfg2.win 7).blk t).view.set := by
  have hi0 : (i 0).val < 50048 := (i 0).isLt
  have hi1 : (i 1).val < 64 := (i 1).isLt
  have hN : cfg2.N = 8 := N_2
  have ht : (i 0).val / 6256 < cfg2.N := by rw [hN]; omega
  obtain ⟨-, -, -, -, -, -, -, -, -, -, -, -, e0, e1⟩ := idx_facts2 ⟨(i 0).val / 6256, ht⟩
  refine ⟨⟨(i 0).val / 6256, ht⟩, flush2_7 _, ?_⟩
  rw [mem_blk2]
  intro a
  match a with
  | ⟨0, _⟩ =>
    show win2_7.index ⟨(i 0).val / 6256, ht⟩ (0 : Fin 2) * 6256 ≤ (i 0).val ∧ (i 0).val < win2_7.index ⟨(i 0).val / 6256, ht⟩ (0 : Fin 2) * 6256 + 6256
    rw [e0]; show (i 0).val / 6256 * 6256 ≤ (i 0).val ∧ (i 0).val < (i 0).val / 6256 * 6256 + 6256; omega
  | ⟨1, _⟩ =>
    show win2_7.index ⟨(i 0).val / 6256, ht⟩ (1 : Fin 2) * 64 ≤ (i 1).val ∧ (i 1).val < win2_7.index ⟨(i 0).val / 6256, ht⟩ (1 : Fin 2) * 64 + 64
    rw [e1]; omega

/-- After the first dense region its result array is the dense stage of the arrays it was entered with. -/
theorem region2 (c : Dev nD) :
    (dat2 (F := Ideal) V c).arrAt 7 cfg2.N
      = Cert.Spec.denseRows (V c main_v0) (V c main_v14) (V c main_v7) (V c main_v9) (V c main_v11) (V c main_arg5) (V c main_arg7) :=
  (dat2 (F := Ideal) V c).arrAt_eq_of_cover 7
    (Cert.Spec.denseRows (V c main_v0) (V c main_v14) (V c main_v7) (V c main_v9) (V c main_v11) (V c main_arg5) (V c main_arg7))
    (fun t _ => flushed2_eq V c t) (cover2)

/-! ## The second dense region: the same blocks over its own arrays -/

/-- Where each window's block sits at point `t` of the second dense region (decided over the 8 points). -/
theorem idx_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 1) = 0
    ∧ win5_5.index t (0 : Fin 2) = 0 ∧ win5_5.index t (1 : Fin 2) = 0
    ∧ win5_6.index t (0 : Fin 1) = 0
    ∧ win5_7.index t (0 : Fin 2) = t.val ∧ win5_7.index t (1 : Fin 2) = 0 :=
  (by decide +kernel : ∀ t : Fin grid5.N, _)

/-- Row `p` of the feature block at point `t` is row `6256 t + p` of the second layer's feature array. -/
theorem iblk5_0_apply (c : Dev nD) (t : Fin cfg5.N) (p : Fin 6256) (k : Fin 64) (r : Fin 50048) (hr : r.val = t.val * 6256 + p.val) :
    (iblk5 (F := Ideal) V c 0 t : Vec Ideal S6256x64 .f32) (ix2 p k) = (V c main_v18 : S50048x64.Idx → EReal) (ix2 r k) := by
  obtain ⟨e0, e1, -⟩ := idx_facts5 t
  unfold iblk5
  rw [View.read_apply]
  show V c main_v18 _ = V c main_v18 _
  congr 1
  funext a
  apply Fin.ext
  match a with
  | ⟨0, _⟩ => show win5_0.index t (0 : Fin 2) * 6256 + 1 * p.val = r.val; rw [e0, hr]; omega
  | ⟨1, _⟩ => show win5_0.index t (1 : Fin 2) * 64 + 1 * k.val = k.val; rw [e1]; omega

/-- Row `p` of the message block at point `t` is row `6256 t + p` of the second layer's message array. -/
theorem iblk5_1_apply (c : Dev nD) (t : Fin cfg5.N) (p : Fin 6256) (k : Fin 64) (r : Fin 50048) (hr : r.val = t.val * 6256 + p.val) :
    (iblk5 (F := Ideal) V c 1 t : Vec Ideal S6256x64 .f32) (ix2 p k) = (V c main_v21 : S50048x64.Idx → EReal) (ix2 r k) := by
  obtain ⟨-, -, e0, e1, -⟩ := idx_facts5 t
  unfold iblk5
  rw [View.read_apply]
  show V c main_v21 _ = V c main_v21 _
  congr 1
  funext a
  apply Fin.ext
  match a with
  | ⟨0, _⟩ => show win5_1.index t (0 : Fin 2) * 6256 + 1 * p.val = r.val; rw [e0, hr]; omega
  | ⟨1, _⟩ => show win5_1.index t (1 : Fin 2) * 64 + 1 * k.val = k.val; rw [e1]; omega

/-- Entry `p` of the normaliser block at point `t` is entry `6256 t + p` of the normaliser column. -/
theorem iblk5_2_apply (c : Dev nD) (t : Fin cfg5.N) (p : Fin 6256) (r : Fin 50048) (hr : r.val = t.val * 6256 + p.val) :
    (iblk5 (F := Ideal) V c 2 t : Vec Ideal S6256x1 .f32) (ix2 p (0 : Fin 1)) = (V c main_v7 : S50048x1.Idx → EReal) (ix2 r (0 : Fin 1)) := by
  obtain ⟨-, -, -, -, e0, e1, -⟩ := idx_facts5 t
  unfold iblk5
  rw [View.read_apply]
  show V c main_v7 _ = V c main_v7 _
  congr 1
  funext a
  apply Fin.ext
  match a with
  | ⟨0, _⟩ => show win5_2.index t (0 : Fin 2) * 6256 + 1 * p.val = r.val; rw [e0, hr]; omega
  | ⟨1, _⟩ => show win5_2.index t (1 : Fin 2) * 1 + 1 * 0 = 0; rw [e1]

/-- The first matrix's block at any point is the matrix. -/
theorem iblk5_3_apply (c : Dev nD) (t : Fin cfg5.N) (k q : Fin 64) :
    (iblk5 (F := Ideal) V c 3 t : Vec Ideal S64x64 .bf16) (ix2 k q) = (V c main_v9 : S64x64.Idx → EReal) (ix2 k q) := by
  obtain ⟨-, -, -, -, -, -, e0, e1, -⟩ := idx_facts5 t
  unfold iblk5
  rw [View.read_apply]
  show V c main_v9 _ = V c main_v9 _
  congr 1
  funext a
  apply Fin.ext
  match a with
  | ⟨0, _⟩ => show win5_3.index t (0 : Fin 2) * 64 + 1 * k.val = k.val; rw [e0]; omega
  | ⟨1, _⟩ => show win5_3.index t (1 : Fin 2) * 64 + 1 * q.val = q.val; rw [e1]; omega

/-- The first bias row's block at any point is the row. -/
theorem iblk5_4_apply (c : Dev nD) (t : Fin cfg5.N) (q : Fin 64) :
    (iblk5 (F := Ideal) V c 4 t : Vec Ideal S64 .f32) (ix1 q) = (V c main_arg5 : S64.Idx → EReal) (ix1 q) := by
  obtain ⟨-, -, -, -, -, -, -, -, e0, -⟩ := idx_facts5 t
  unfold iblk5
  rw [View.read_apply]
  show V c main_arg5 _ = V c main_arg5 _
  congr 1
  funext a
  apply Fin.ext
  match a with
  | ⟨0, _⟩ => show win5_4.index t (0 : Fin 1) * 64 + 1 * q.val = q.val; rw [e0]; omega

/-- The second matrix's block at any point is the matrix. -/
theorem iblk5_5_apply (c : Dev nD) (t : Fin cfg5.N) (k q : Fin 64) :
    (iblk5 (F := Ideal) V c 5 t : Vec Ideal S64x64 .bf16) (ix2 k q) = (V c main_v11 : S64x64.Idx → EReal) (ix2 k q) := by
  obtain ⟨-, -, -, -, -, -, -, -, -, e0, e1, -⟩ := idx_facts5 t
  unfold iblk5
  rw [View.read_apply]
  show V c main_v11 _ = V c main_v11 _
  congr 1
  funext a
  apply Fin.ext
  match a with
  | ⟨0, _⟩ => show win5_5.index t (0 : Fin 2) * 64 + 1 * k.val = k.val; rw [e0]; omega
  | ⟨1, _⟩ => show win5_5.index t (1 : Fin 2) * 64 + 1 * q.val = q.val; rw [e1]; omega

/-- The second bias row's block at any point is the row. -/
theorem iblk5_6_apply (c : Dev nD) (t : Fin cfg5.N) (q : Fin 64) :
    (iblk5 (F := Ideal) V c 6 t : Vec Ideal S64 .f32) (ix1 q) = (V c main_arg7 : S64.Idx → EReal) (ix1 q) := by
  obtain ⟨-, -, -, -, -, -, -, -, -, -, -, e0, -⟩ := idx_facts5 t
  unfold iblk5
  rw [View.read_apply]
  show V c main_arg7 _ = V c main_arg7 _
  congr 1
  funext a
  apply Fin.ext
  match a with
  | ⟨0, _⟩ => show win5_6.index t (0 : Fin 1) * 64 + 1 * q.val = q.val; rw [e0]; omega

/-- WHAT POINT `t` OF THE SECOND DENSE REGION WRITES BACK is block `t` of the dense stage of the arrays it was entered with. -/
theorem flushed5_eq (c : Dev nD) (t : Fin cfg5.N) :
    (dat5 (F := Ideal) V c).flushed 7 t = ((cfg5.win 7).blk t).view.read (Elt Ideal)
      (Cert.Spec.denseRows (V c main_v18) (V c main_v21) (V c main_v7) (V c main_v9) (V c main_v11) (V c main_arg5) (V c main_arg7)) := by
  show (cfg5.win 7).cut (grid5.coords t) ((dat5 (F := Ideal) V c).after 7 t) = _
  rw [after5_7]
  unfold out5_7
  rw [View.canon_unit_zero hz2]
  simp only [View.ld_unit_zero (S := S6256x64) hz2, View.ld_unit_zero (S := S6256x1) hz2, View.ld_unit_zero (S := S64x64) hz2,
    View.ld_unit_zero (S := S64) hz1]
  rw [pay5_eq_pay2]
  obtain ⟨-, -, -, -, -, -, -, -, -, -, -, -, e0, e1⟩ := idx_facts5 t
  funext j
  show k2_pay1 (F := Ideal) (iblk5 (F := Ideal) V c 0 t) (iblk5 (F := Ideal) V c 1 t) (iblk5 (F := Ideal) V c 2 t) (iblk5 (F := Ideal) V c 3 t)
      (iblk5 (F := Ideal) V c 5 t) (iblk5 (F := Ideal) V c 4 t) (iblk5 (F := Ideal) V c 6 t) ((cfg5.win 7).xinj (grid5.coords t) j)
    = Cert.Spec.denseRows (V c main_v18) (V c main_v21) (V c main_v7) (V c main_v9) (V c main_v11) (V c main_arg5) (V c main_arg7)
      (((cfg5.win 7).blk t).view.emb j)
  refine block_entry_eq t.val (iblk5 (F := Ideal) V c 0 t) (iblk5 (F := Ideal) V c 1 t) (iblk5 (F := Ideal) V c 2 t)
    (iblk5 (F := Ideal) V c 3 t) (iblk5 (F := Ideal) V c 5 t) (iblk5 (F := Ideal) V c 4 t) (iblk5 (F := Ideal) V c 6 t)
    (V c main_v18) (V c main_v21) (V c main_v7) (V c main_v9) (V c main_v11) (V c main_arg5) (V c main_arg7)
    (fun p k r hr => iblk5_0_apply V c t p k r hr) (fun p k r hr => iblk5_1_apply V c t p k r hr)
    (fun p r hr => iblk5_2_apply V c t p r hr) (fun k q => iblk5_3_apply V c t k q) (fun k q => iblk5_5_apply V c t k q)
    (fun q => iblk5_4_apply V c t q) (fun q => iblk5_6_apply V c t q)
    ((cfg5.win 7).xinj (grid5.coords t) j) (((cfg5.win 7).blk t).view.emb j) ?_ ?_
  · show win5_7.index t (0 : Fin 2) * 6256 + 1 * (j 0).val = t.val * 6256 + (j 0).val
    rw [e0]; omega
  · show win5_7.index t (1 : Fin 2) * 64 + 1 * (j 1).val = (j 1).val
    rw [e1]; omega

/-- An index of the second region's result array is in point `t`'s block iff each coordinate is in the block's range. -/
theorem mem_blk5 (t : Fin cfg5.N) (i : S50048x64.Idx) :
    i ∈ ((cfg5.win 7).blk t).view.set ↔ ∀ a : Fin 2, win5_7.index t a * S6256x64.size a ≤ (i a).val ∧ (i a).val < win5_7.index t a * S6256x64.size a + S6256x64.size a := by
  show i ∈ ((View.whole main_v22).slice (win5_7.rect t)).set ↔ _
  rw [View.set_slice_whole, Rect.mem_set_unit]
  exact Iff.rfl

/-- Every index of the second region's result array is in some point's block: row `r` is in the block of point `r / 6256`. -/
theorem cover5 (i : S50048x64.Idx) : ∃ t : Fin cfg5.N, (cfg5.win 7).flush t = true ∧ i ∈ ((cfg5.win 7).blk t).view.set := by
  have hi0 : (i 0).val < 50048 := (i 0).isLt
  have hi1 : (i 1).val < 64 := (i 1).isLt
  have hN : cfg5.N = 8 := N_5
  have ht : (i 0).val / 6256 < cfg5.N := by rw [hN]; omega
  obtain ⟨-, -, -, -, -, -, -, -, -, -, -, -, e0, e1⟩ := idx_facts5 ⟨(i 0).val / 6256, ht⟩
  refine ⟨⟨(i 0).val / 6256, ht⟩, flush5_7 _, ?_⟩
  rw [mem_blk5]
  intro a
  match a with
  | ⟨0, _⟩ =>
    show win5_7.index ⟨(i 0).val / 6256, ht⟩ (0 : Fin 2) * 6256 ≤ (i 0).val ∧ (i 0).val < win5_7.index ⟨(i 0).val / 6256, ht⟩ (0 : Fin 2) * 6256 + 6256
    rw [e0]; show (i 0).val / 6256 * 6256 ≤ (i 0).val ∧ (i 0).val < (i 0).val / 6256 * 6256 + 6256; omega
  | ⟨1, _⟩ =>
    show win5_7.index ⟨(i 0).val / 6256, ht⟩ (1 : Fin 2) * 64 ≤ (i 1).val ∧ (i 1).val < win5_7.index ⟨(i 0).val / 6256, ht⟩ (1 : Fin 2) * 64 + 64
    rw [e1]; omega

/-- The same for the second dense region. -/
theorem region5 (c : Dev nD) :
    (dat5 (F := Ideal) V c).arrAt 7 cfg5.N
      = Cert.Spec.denseRows (V c main_v18) (V c main_v21) (V c main_v7) (V c main_v9) (V c main_v11) (V c main_arg5) (V c main_arg7) :=
  (dat5 (F := Ideal) V c).arrAt_eq_of_cover 7
    (Cert.Spec.denseRows (V c main_v18) (V c main_v21) (V c main_v7) (V c main_v9) (V c main_v11) (V c main_arg5) (V c main_arg7))
    (fun t _ => flushed5_eq V c t) (cover5)

end Cert.KernelIdeal.DenseValue

end
-- ==== Proof.LibScatterGather.lean ====
/-
  Three host operations read at one element, for any extents: a gather of whole rows of a matrix at a column of row
  numbers, and an accumulating scatter into a vector or into the rows of a matrix at a column of positions.

  A gather clamps the row number it reads (signed) into the matrix; a scatter reads the position signed and does NOT
  clamp it: an update whose position is outside the target is dropped.  At the exact (extended-real) instance the
  accumulating scatter is the target's entry plus the sum of the updates that land on it.
-/
import Idealize.ShloMosaic.PureOps.Ideal
import Idealize.ShloMosaic.PureOps.Contract
import Idealize.ShloMosaic.Lib.ValueIdx
import Idealize.ShloMosaic.Lib.StableHlo.Predicate

noncomputable section

open scoped BigOperators

namespace Cert.LibSG

open Idealize.ShloMosaic Idealize.ShloMosaic.ValueIdx Idealize.ShloMosaic.StableHlo.Predicate

/-- Rows gathered from an [N × D] matrix at an [n × 1] column of row numbers: entry (p, f) of the result is the matrix's
    entry (row p's number read signed and clamped into [0, N − 1], f). -/
theorem gather_rows {α : Type} {N D n w : ℕ} (d : GatherDims ⟨2, ![N, D]⟩ ⟨2, ![n, 1]⟩ ⟨2, ![n, D]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, D])
    (x : (⟨2, ![N, D]⟩ : Shape).Idx → α) (idx : IVec ⟨2, ![n, 1]⟩ w) (p : Fin n) (f : Fin D) (hN : 0 < N) :
    Host.gather d x idx (ix2 p f) = x (ix2 (⟨min (idx (ixP p)).toInt.toNat (N - 1), by omega⟩ : Fin N) f) := by
  obtain ⟨od, cd, ob, sb, sm, iv, ss, wf⟩ := d
  dsimp only at hoff hcoll hob hsb hsim hivd hss
  subst hoff hcoll hob hsb hsim hivd hss
  unfold Host.gather
  congr 1
  funext a
  refine Fin.ext ?_
  match a with
  | ⟨0, _⟩ =>
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ (c : Fin 1), (GatherDims.mk (s := ⟨2, ![N, D]⟩) (si := ⟨2, ![n, 1]⟩) (t := ⟨2, ![n, D]⟩) [1] [0] [] [] [0] 1 ![1, D] wf).siIdx (ix2 p f) c = ixP p := by
      intro c
      funext b; refine Fin.ext ?_
      match b with
      | ⟨0, _⟩ => rfl
      | ⟨1, _⟩ => exact Nat.lt_one_iff.mp c.isLt
    rw [hsi]
    rfl
  | ⟨1, _⟩ =>
    show GatherDims.start _ _ idx 1 + GatherDims.batchCoord _ _ 1 + GatherDims.offCoord _ _ 1 = _
    rw [GatherDims.batchCoord_eq_zero _ _ _ List.not_mem_nil]
    unfold GatherDims.start
    rw [dif_neg (show (1 : Fin 2) ∉ [0] by decide)]
    simp only [Nat.zero_add]
    rfl

/-- An update lands on operand index i exactly when, on every axis, its start plus its window coordinate is i's coordinate. -/
theorem resultIdx?_eq_some_iff {s si u : Shape} (d : ScatterDims s si u) {w : ℕ} (j : u.Idx) (idx : IVec si w) (i : s.Idx) :
    d.resultIdx? j idx = some i ↔ ∀ a, d.start j idx a + (d.window j a : ℤ) = ((i a).val : ℤ) := by
  unfold ScatterDims.resultIdx?
  split
  · next h =>
    constructor
    · intro e a
      have e' := congrArg (fun g : s.Idx => (g a).val) (Option.some.inj e)
      simp only at e'
      have := h a
      omega
    · intro e
      congr 1
      funext a
      refine Fin.ext ?_
      have := e a
      simp only
      omega
  · next h =>
    constructor
    · intro e; cases e
    · intro e
      exfalso
      apply h
      intro a
      have := e a
      have := (i a).isLt
      omega

/-- An accumulating scatter into an [N] vector at an [n × 1] column of positions, at the exact instance: entry i is the
    target's entry plus the sum of the updates whose position, read signed, is i. -/
theorem scatterAdd_flat {N n w : ℕ} (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1)
    (x : FVec Ideal ⟨1, ![N]⟩ .f32) (idx : IVec ⟨2, ![n, 1]⟩ w) (upd : FVec Ideal ⟨1, ![n]⟩ .f32) (i : Fin N) :
    Host.scatterAdd (F := Ideal) d x idx upd (ix1 i)
      = x (ix1 i) + ∑ e ∈ Finset.univ.filter (fun e : Fin n => (idx (ixP e)).toInt = (i.val : ℤ)), upd (ix1 e) := by
  obtain ⟨uw, iw, sd, iv, wf⟩ := d
  dsimp only at huw hiw hsd hivd
  subst huw hiw hsd hivd
  have hstart : ∀ j : (⟨1, ![n]⟩ : Shape).Idx,
      (ScatterDims.mk (s := ⟨1, ![N]⟩) (si := ⟨2, ![n, 1]⟩) (u := ⟨1, ![n]⟩) [] [0] [0] 1 wf).start j idx 0 = (idx (ixP (j 0))).toInt := by
    intro j
    unfold ScatterDims.start
    rw [dif_pos (List.mem_singleton.mpr rfl)]
    congr 2
    funext b; refine Fin.ext ?_
    match b with
    | ⟨0, _⟩ => rfl
    | ⟨1, _⟩ => rfl
  have hwin : ∀ j : (⟨1, ![n]⟩ : Shape).Idx,
      (ScatterDims.mk (s := ⟨1, ![N]⟩) (si := ⟨2, ![n, 1]⟩) (u := ⟨1, ![n]⟩) [] [0] [0] 1 wf).window j 0 = 0 := by
    intro j
    unfold ScatterDims.window
    exact dif_neg (show (0 : Fin 1) ∉ (List.finRange 1).filter (fun a => a ∉ [(0 : Fin 1)]) by decide)
  have hiff : ∀ j : (⟨1, ![n]⟩ : Shape).Idx,
      (ScatterDims.mk (s := ⟨1, ![N]⟩) (si := ⟨2, ![n, 1]⟩) (u := ⟨1, ![n]⟩) [] [0] [0] 1 wf).resultIdx? j idx = some (ix1 i)
        ↔ (idx (ixP (j 0))).toInt = (i.val : ℤ) := by
    intro j
    rw [resultIdx?_eq_some_iff, Fin.forall_fin_one, hstart, hwin]
    simp
  show x (ix1 i) + _ = _
  congr 1
  refine Finset.sum_nbij' (fun j => j 0) (fun e => ix1 e) ?_ ?_ ?_ ?_ ?_
  · intro j hj
    exact Finset.mem_filter.2 ⟨Finset.mem_univ _, (hiff j).1 (Finset.mem_filter.1 hj).2⟩
  · intro e he
    exact Finset.mem_filter.2 ⟨Finset.mem_univ _, (hiff (ix1 e)).2 (Finset.mem_filter.1 he).2⟩
  · intro j _
    exact (eq_ix1 j).symm
  · intro e _
    rfl
  · intro j _
    exact congrArg upd (eq_ix1 j)

/-- An accumulating scatter of [n × D] rows into the rows of an [N × D] matrix at an [n × 1] column of row positions, at
    the exact instance: entry (i, f) is the target's entry plus the sum, over the update rows whose position read signed
    is i, of their entry f. -/
theorem scatterAdd_rows {N D n w : ℕ} (d : ScatterDims ⟨2, ![N, D]⟩ ⟨2, ![n, 1]⟩ ⟨2, ![n, D]⟩)
    (huw : d.updateWindowDims = [1]) (hiw : d.insertedWindowDims = [0]) (hsd : d.scatterDimsToOperandDims = [0])
    (hivd : d.indexVectorDim = 1)
    (x : FVec Ideal ⟨2, ![N, D]⟩ .f32) (idx : IVec ⟨2, ![n, 1]⟩ w) (upd : FVec Ideal ⟨2, ![n, D]⟩ .f32) (i : Fin N) (f : Fin D) :
    Host.scatterAdd (F := Ideal) d x idx upd (ix2 i f)
      = x (ix2 i f) + ∑ e ∈ Finset.univ.filter (fun e : Fin n => (idx (ixP e)).toInt = (i.val : ℤ)), upd (ix2 e f) := by
  obtain ⟨uw, iw, sd, iv, wf⟩ := d
  dsimp only at huw hiw hsd hivd
  subst huw hiw hsd hivd
  have hstart0 : ∀ j : (⟨2, ![n, D]⟩ : Shape).Idx,
      (ScatterDims.mk (s := ⟨2, ![N, D]⟩) (si := ⟨2, ![n, 1]⟩) (u := ⟨2, ![n, D]⟩) [1] [0] [0] 1 wf).start j idx 0 = (idx (ixP (j 0))).toInt := by
    intro j
    unfold ScatterDims.start
    rw [dif_pos (List.mem_singleton.mpr rfl)]
    congr 2
    funext b; refine Fin.ext ?_
    match b with
    | ⟨0, _⟩ => rfl
    | ⟨1, _⟩ => rfl
  have hstart1 : ∀ j : (⟨2, ![n, D]⟩ : Shape).Idx,
      (ScatterDims.mk (s := ⟨2, ![N, D]⟩) (si := ⟨2, ![n, 1]⟩) (u := ⟨2, ![n, D]⟩) [1] [0] [0] 1 wf).start j idx 1 = 0 := by
    intro j
    unfold ScatterDims.start
    rw [dif_neg (show (1 : Fin 2) ∉ [0] by decide)]
  have hwin0 : ∀ j : (⟨2, ![n, D]⟩ : Shape).Idx,
      (ScatterDims.mk (s := ⟨2, ![N, D]⟩) (si := ⟨2, ![n, 1]⟩) (u := ⟨2, ![n, D]⟩) [1] [0] [0] 1 wf).window j 0 = 0 := by
    intro j
    unfold ScatterDims.window
    exact dif_neg (show (0 : Fin 2) ∉ (List.finRange 2).filter (fun a => a ∉ [(0 : Fin 2)]) by decide)
  have hwin1 : ∀ j : (⟨2, ![n, D]⟩ : Shape).Idx,
      (ScatterDims.mk (s := ⟨2, ![N, D]⟩) (si := ⟨2, ![n, 1]⟩) (u := ⟨2, ![n, D]⟩) [1] [0] [0] 1 wf).window j 1 = (j 1).val := by
    intro j
    unfold ScatterDims.window
    exact (dif_pos (show (1 : Fin 2) ∈ (List.finRange 2).filter (fun a => a ∉ [(0 : Fin 2)]) by decide)).trans rfl
  have hiff : ∀ j : (⟨2, ![n, D]⟩ : Shape).Idx,
      (ScatterDims.mk (s := ⟨2, ![N, D]⟩) (si := ⟨2, ![n, 1]⟩) (u := ⟨2, ![n, D]⟩) [1] [0] [0] 1 wf).resultIdx? j idx = some (ix2 i f)
        ↔ (idx (ixP (j 0))).toInt = (i.val : ℤ) ∧ j 1 = f := by
    intro j
    rw [resultIdx?_eq_some_iff, Fin.forall_fin_two, hstart0, hwin0, hstart1, hwin1]
    show (idx (ixP (j 0))).toInt + ((0 : ℕ) : ℤ) = (i.val : ℤ) ∧ (0 : ℤ) + ((j 1).val : ℤ) = (f.val : ℤ) ↔ _
    constructor
    · rintro ⟨h0, h1⟩
      exact ⟨by omega, Fin.ext (by omega)⟩
    · rintro ⟨h0, h1⟩
      subst h1
      exact ⟨by omega, by omega⟩
  show x (ix2 i f) + _ = _
  congr 1
  refine Finset.sum_nbij' (fun j => j 0) (fun e => ix2 e f) ?_ ?_ ?_ ?_ ?_
  · intro j hj
    exact Finset.mem_filter.2 ⟨Finset.mem_univ _, ((hiff j).1 (Finset.mem_filter.1 hj).2).1⟩
  · intro e he
    exact Finset.mem_filter.2 ⟨Finset.mem_univ _, (hiff (ix2 e f)).2 ⟨(Finset.mem_filter.1 he).2, rfl⟩⟩
  · intro j hj
    have h1 := ((hiff j).1 (Finset.mem_filter.1 hj).2).2
    rw [← h1]
    exact (eq_ix2 j).symm
  · intro e _
    rfl
  · intro j hj
    have h1 := ((hiff j).1 (Finset.mem_filter.1 hj).2).2
    rw [← h1]
    exact congrArg upd (eq_ix2 j)

end Cert.LibSG

end
-- ==== Proof.HostValue.lean ====
/-
  The idealized kernel program's host operations, read at the elements the regions and the result use.

  Before the first region: the features padded with 48 zero rows (rows below 50000 are the argument's), the normaliser
  (scatter-added weights plus a constant) padded with ones and laid out as a column, the two matrices transposed, and
  changes of float format, which are the identity on the extended reals.  Between the layers: rows 50000 … 50047 of the
  first layer's output are overwritten with zeros, so every row below 50000 is kept.  At the end the same overwrite and a
  slice of the first 50000 rows.  No host operation writes an argument.
-/
import proofs.«411369_j50465865728371_2_alg».proof.Proof.Gen.KernelIdeal.Frame
import proofs.«411369_j50465865728371_2_alg».proof.Proof.Spec
import proofs.«411369_j50465865728371_2_alg».proof.Proof.LibScatterGather
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate
import Idealize.ShloMosaic.Lib.KernelVsHost
import Idealize.ShloMosaic.Lib.IdealHost
import Idealize.ShloMosaic.PureOps.Ideal.Laws
import Idealize.ShloMosaic.Lib.Tactic

noncomputable section

open scoped BigOperators
open Idealize.ShloMosaic Idealize.ShloMosaic.TcCoe Idealize.ShloMosaic.ValueIdx Idealize.SL.Sem

namespace Cert.KernelIdeal.HostValue

open Cert.KernelIdeal Cert.KernelIdeal.Gen

variable (m : (ℓ : Loc nD τ sig) → Buf (Elt Ideal) ℓ) (ρ : Dev nD → PrngReg)

/-! ## Before the first region (the contents `W5`) -/

/-! ### Buffers that the stretches before a read leave alone -/

theorem W1_arg0 (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, Finset.mem_singleton]
      repeat' apply And.intro
      all_goals exact StableHlo.devRef_ne_of_ne (by decide)))
    _ = m ((c : Thread nD τ).loc main_arg0) := rfl

theorem W2_arg2 (c : Dev nD) : W2 m ρ c (Proc.devRef .tc main_arg2) = m ((c : Thread nD τ).loc main_arg2) :=
  calc W2 m ρ c (Proc.devRef .tc main_arg2)
    _ = W1 m ρ c (Proc.devRef .tc main_arg2) := StableHlo.after_of_forall_not_mem (b := Proc.devRef .tc main_arg2) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, Finset.mem_singleton]
      repeat' apply And.intro
      all_goals exact StableHlo.devRef_ne_of_ne (by decide)))
    _ = W0 m ρ c (Proc.devRef .tc main_arg2) := StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, Finset.mem_singleton]
      repeat' apply And.intro
      all_goals exact StableHlo.devRef_ne_of_ne (by decide)))
    _ = m ((c : Thread nD τ).loc main_arg2) := rfl

theorem W2_arg3 (c : Dev nD) : W2 m ρ c (Proc.devRef .tc main_arg3) = m ((c : Thread nD τ).loc main_arg3) :=
  calc W2 m ρ c (Proc.devRef .tc main_arg3)
    _ = W1 m ρ c (Proc.devRef .tc main_arg3) := StableHlo.after_of_forall_not_mem (b := Proc.devRef .tc main_arg3) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, Finset.mem_singleton]
      repeat' apply And.intro
      all_goals exact StableHlo.devRef_ne_of_ne (by decide)))
    _ = W0 m ρ c (Proc.devRef .tc main_arg3) := StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, Finset.mem_singleton]
      repeat' apply And.intro
      all_goals exact StableHlo.devRef_ne_of_ne (by decide)))
    _ = m ((c : Thread nD τ).loc main_arg3) := rfl

theorem W4_arg4 (c : Dev nD) : W4 m ρ c (Proc.devRef .tc main_arg4) = m ((c : Thread nD τ).loc main_arg4) :=
  calc W4 m ρ c (Proc.devRef .tc main_arg4)
    _ = W3 m ρ c (Proc.devRef .tc main_arg4) := StableHlo.after_of_forall_not_mem (b := Proc.devRef .tc main_arg4) _ _ (List.forall_iff_forall_mem.mp (by
      simp only [hostOps0_3, List.flatten_cons, List.flatten_nil, List.append_nil, List.cons_append,
        List.nil_append, List.Forall, StableHlo.nullary_writes, StableHlo.unary_writes, StableHlo.binary_writes, StableHlo.ternary_writes, Finset.mem_singleton]
      repeat' apply And.intro
      all_goals exact StableHlo.devRef_ne_of_ne (by decide)))
    _ = W2 m ρ c (Proc.devRef .tc main_arg4) := StableHlo.after_of_forall_not_mem (b := Proc.devRef .tc main_arg4) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, Finset.mem_singleton]
      repeat' apply And.intro
      all_goals exact StableHlo.devRef_ne_of_ne (by decide)))
    _ = W1 m ρ c (Proc.devRef .tc main_arg4) := StableHlo.after_of_forall_not_mem (b := Proc.devRef .tc main_arg4) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, Finset.mem_singleton]
      repeat' apply And.intro
      all_goals exact StableHlo.devRef_ne_of_ne (by decide)))
    _ = W0 m ρ c (Proc.devRef .tc main_arg4) := StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, Finset.mem_singleton]
      repeat' apply And.intro
      all_goals exact StableHlo.devRef_ne_of_ne (by decide)))
    _ = m ((c : Thread nD τ).loc main_arg4) := rfl

theorem W4_arg6 (c : Dev nD) : W4 m ρ c (Proc.devRef .tc main_arg6) = m ((c : Thread nD τ).loc main_arg6) :=
  calc W4 m ρ c (Proc.devRef .tc main_arg6)
    _ = W3 m ρ c (Proc.devRef .tc main_arg6) := StableHlo.after_of_forall_not_mem (b := Proc.devRef .tc main_arg6) _ _ (List.forall_iff_forall_mem.mp (by
      simp only [hostOps0_3, List.flatten_cons, List.flatten_nil, List.append_nil, List.cons_append,
        List.nil_append, List.Forall, StableHlo.nullary_writes, StableHlo.unary_writes, StableHlo.binary_writes, StableHlo.ternary_writes, Finset.mem_singleton]
      repeat' apply And.intro
      all_goals exact StableHlo.devRef_ne_of_ne (by decide)))
    _ = W2 m ρ c (Proc.devRef .tc main_arg6) := StableHlo.after_of_forall_not_mem (b := Proc.devRef .tc main_arg6) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, Finset.mem_singleton]
      repeat' apply And.intro
      all_goals exact StableHlo.devRef_ne_of_ne (by decide)))
    _ = W1 m ρ c (Proc.devRef .tc main_arg6) := StableHlo.after_of_forall_not_mem (b := Proc.devRef .tc main_arg6) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, Finset.mem_singleton]
      repeat' apply And.intro
      all_goals exact StableHlo.devRef_ne_of_ne (by decide)))
    _ = W0 m ρ c (Proc.devRef .tc main_arg6) := StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, Finset.mem_singleton]
      repeat' apply And.intro
      all_goals exact StableHlo.devRef_ne_of_ne (by decide)))
    _ = m ((c : Thread nD τ).loc main_arg6) := rfl

/-- The padded features are written once, by the second stretch; the three stretches after it keep them. -/
theorem W5_v0_W2 (c : Dev nD) : W5 m ρ c (Proc.devRef .tc main_v0) = W2 m ρ c (Proc.devRef .tc main_v0) :=
  calc W5 m ρ c (Proc.devRef .tc main_v0)
    _ = W4 m ρ c (Proc.devRef .tc main_v0) := StableHlo.after_of_forall_not_mem (b := Proc.devRef .tc main_v0) _ _ (List.forall_iff_forall_mem.mp (by
      simp only [hostOps0_4, List.flatten_cons, List.flatten_nil, List.append_nil, List.cons_append,
        List.nil_append, List.Forall, StableHlo.nullary_writes, StableHlo.unary_writes, StableHlo.binary_writes, StableHlo.ternary_writes, Finset.mem_singleton]
      repeat' apply And.intro
      all_goals exact StableHlo.devRef_ne_of_ne (by decide)))
    _ = W3 m ρ c (Proc.devRef .tc main_v0) := StableHlo.after_of_forall_not_mem (b := Proc.devRef .tc main_v0) _ _ (List.forall_iff_forall_mem.mp (by
      simp only [hostOps0_3, List.flatten_cons, List.flatten_nil, List.append_nil, List.cons_append,
        List.nil_append, List.Forall, StableHlo.nullary_writes, StableHlo.unary_writes, StableHlo.binary_writes, StableHlo.ternary_writes, Finset.mem_singleton]
      repeat' apply And.intro
      all_goals exact StableHlo.devRef_ne_of_ne (by decide)))
    _ = W2 m ρ c (Proc.devRef .tc main_v0) := StableHlo.after_of_forall_not_mem (b := Proc.devRef .tc main_v0) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, Finset.mem_singleton]
      repeat' apply And.intro
      all_goals exact StableHlo.devRef_ne_of_ne (by decide)))

theorem W5_v0_W4 (c : Dev nD) : W5 m ρ c (Proc.devRef .tc main_v0) = W4 m ρ c (Proc.devRef .tc main_v0) :=
  calc W5 m ρ c (Proc.devRef .tc main_v0)
    _ = W4 m ρ c (Proc.devRef .tc main_v0) := StableHlo.after_of_forall_not_mem (b := Proc.devRef .tc main_v0) _ _ (List.forall_iff_forall_mem.mp (by
      simp only [hostOps0_4, List.flatten_cons, List.flatten_nil, List.append_nil, List.cons_append,
        List.nil_append, List.Forall, StableHlo.nullary_writes, StableHlo.unary_writes, StableHlo.binary_writes, StableHlo.ternary_writes, Finset.mem_singleton]
      repeat' apply And.intro
      all_goals exact StableHlo.devRef_ne_of_ne (by decide)))

/-! ### What each stretch writes, as a term of the contents `V` it starts from -/

/-- The second stretch: the features padded at the bottom with the constant. -/
theorem after01_v0 (V : Valuation τ sig (Elt Ideal)) :
    (StableHlo.after hostOps0_1 V (Proc.devRef .tc main_v0) : FVec Ideal S50048x64 .f32)
      = pad S50048x64 ![0, 0] ![48, 0] ![0, 0] (V (Proc.devRef .tc main_arg0) : FVec Ideal S50000x64 .f32)
          (sitofp .f32 (V (Proc.devRef .tc main_c) : IVec S_ 32) : FVec Ideal S_ .f32)
          Facts₀.pads_S50000x64_S50048x64_0480_000 Facts₀.h_S_ := by
  after_results
  rfl

/-- The third stretch: the weights scatter-added into a vector of zeros, plus a constant vector. -/
theorem after02_v5 (V : Valuation τ sig (Elt Ideal)) :
    (StableHlo.after hostOps0_2 V (Proc.devRef .tc main_v5) : FVec Ideal S50000 .f32)
      = addf (Host.scatterAdd scatter_S50000_S800000x1_S800000_n_0_0_1
                (broadcastInDim S50000 ![] Facts₀.bcast_S_S50000 (constant (F := Ideal) S_ .f32 0x00000000#32))
                (broadcastInDim S800000x1 ![0] Facts₀.bcast_S800000_S800000x1_0 (V (Proc.devRef .tc main_arg2) : IVec S800000 32))
                (V (Proc.devRef .tc main_arg3) : FVec Ideal S800000 .f32))
             (broadcastInDim S50000 ![] Facts₀.bcast_S_S50000 (constant (F := Ideal) S_ .f32 0x3089705F#32)) := by
  after_results

/-- The fourth stretch: that vector padded at the end with a constant. -/
theorem after03_v6 (V : Valuation τ sig (Elt Ideal)) :
    (StableHlo.after hostOps0_3 V (Proc.devRef .tc main_v6) : FVec Ideal S50048 .f32)
      = pad S50048 ![0] ![48] ![0] (V (Proc.devRef .tc main_v5) : FVec Ideal S50000 .f32)
          (V (Proc.devRef .tc main_cst_1) : FVec Ideal S_ .f32) Facts₀.pads_S50000_S50048_0480 Facts₀.h_S_ := by
  after_results
  rfl

/-- The fifth stretch: the padded vector as a column, the two matrices transposed, and three changes of format. -/
theorem after04_v7 (V : Valuation τ sig (Elt Ideal)) :
    (StableHlo.after hostOps0_4 V (Proc.devRef .tc main_v7) : FVec Ideal S50048x1 .f32)
      = broadcastInDim S50048x1 ![0] Facts₀.bcast_S50048_S50048x1_0 (V (Proc.devRef .tc main_v6) : FVec Ideal S50048 .f32) := by
  after_results
theorem after04_v9 (V : Valuation τ sig (Elt Ideal)) :
    (StableHlo.after hostOps0_4 V (Proc.devRef .tc main_v9) : FVec Ideal S64x64 .bf16)
      = (truncf .bf16 (transpose S64x64 [1, 0] (V (Proc.devRef .tc main_arg4) : FVec Ideal S64x64 .f32)
          Facts₀.transposes_S64x64_S64x64_1_0 : FVec Ideal S64x64 .f32) Facts₀.bitsLt_bf16_f32 : FVec Ideal S64x64 .bf16) := by
  after_results
theorem after04_v11 (V : Valuation τ sig (Elt Ideal)) :
    (StableHlo.after hostOps0_4 V (Proc.devRef .tc main_v11) : FVec Ideal S64x64 .bf16)
      = (truncf .bf16 (transpose S64x64 [1, 0] (V (Proc.devRef .tc main_arg6) : FVec Ideal S64x64 .f32)
          Facts₀.transposes_S64x64_S64x64_1_0 : FVec Ideal S64x64 .f32) Facts₀.bitsLt_bf16_f32 : FVec Ideal S64x64 .bf16) := by
  after_results
theorem after04_v12 (V : Valuation τ sig (Elt Ideal)) :
    (StableHlo.after hostOps0_4 V (Proc.devRef .tc main_v12) : FVec Ideal S50048x64 .bf16)
      = (truncf .bf16 (V (Proc.devRef .tc main_v0) : FVec Ideal S50048x64 .f32) Facts₀.bitsLt_bf16_f32 : FVec Ideal S50048x64 .bf16) := by
  after_results

/-! ### Layouts read at an entry -/

/-- A vector laid out as a column reads, at row e, the vector's entry e. -/
theorem column_apply {α : Type} {n : ℕ} (h : (⟨1, ![n]⟩ : Shape).BroadcastsInDim ⟨2, ![n, 1]⟩ ![0]) (hn : n ≠ 1)
    (v : (⟨1, ![n]⟩ : Shape).Idx → α) (e : Fin n) (z : Fin 1) :
    broadcastInDim ⟨2, ![n, 1]⟩ ![0] h v (ix2 e z) = v (ix1 e) := by
  refine broadcastInDim_apply _ _ _ _ (ix1 e) ?_
  intro a
  match a with
  | ⟨0, _⟩ =>
    show e.val = if n = 1 then 0 else e.val
    rw [if_neg hn]

/-- The transpose of a square matrix reads, at (k, d), the matrix's entry (d, k). -/
theorem transpose_sq_apply {α : Type} {n : ℕ} (h : (⟨2, ![n, n]⟩ : Shape).Transposes [1, 0] ⟨2, ![n, n]⟩)
    (x : (⟨2, ![n, n]⟩ : Shape).Idx → α) (k d : Fin n) :
    transpose ⟨2, ![n, n]⟩ [1, 0] x h (ix2 k d) = x (ix2 d k) := by
  refine transpose_apply _ _ _ _ (ix2 d k) ?_
  intro b
  match b with
  | ⟨0, _⟩ => rfl
  | ⟨1, _⟩ => rfl

/-! ### The ten reads -/

/-- The padded features keep the argument's rows. -/
theorem W5_v0 (c : Dev nD) (i : Fin 50000) (d : Fin 64) :
    (W5 m ρ c (Proc.devRef .tc main_v0) : S50048x64.Idx → EReal) (ix2 (⟨i.val, by omega⟩ : Fin 50048) d)
      = (m ((c : Thread nD τ).loc main_arg0) : S50000x64.Idx → EReal) (ix2 i d) := by
  have e := after01_v0 (W1 m ρ c)
  rw [W5_v0_W2]
  show (StableHlo.after hostOps0_1 (W1 m ρ c) (Proc.devRef .tc main_v0) : FVec Ideal S50048x64 .f32) _ = _
  rw [e, W1_arg0]
  -- a row below 50000 lies inside the operand: no low padding, no interior padding
  refine pad_apply_of_inside _ _ _ _ _ _ _ _ (ix2 i d) ?_
  intro a
  match a with
  | ⟨0, _⟩ => simp
  | ⟨1, _⟩ => simp

/-- The table the first gather reads is the padded features (a change of format). -/
theorem W5_v12 (c : Dev nD) :
    (W5 m ρ c (Proc.devRef .tc main_v12) : S50048x64.Idx → EReal) = (W5 m ρ c (Proc.devRef .tc main_v0) : S50048x64.Idx → EReal) := by
  have e := after04_v12 (W4 m ρ c)
  rw [W5_v0_W4]
  show (StableHlo.after hostOps0_4 (W4 m ρ c) (Proc.devRef .tc main_v12) : FVec Ideal S50048x64 .bf16) = _
  rw [e]
  funext j
  exact truncf_apply _ _ j

/-- The normaliser column on a row below 50000. -/
theorem W5_v7 (c : Dev nD) (i : Fin 50000) :
    (W5 m ρ c (Proc.devRef .tc main_v7) : S50048x1.Idx → EReal) (ix2 (⟨i.val, by omega⟩ : Fin 50048) (0 : Fin 1))
      = Cert.Spec.denomR (N := 50000) (m ((c : Thread nD τ).loc main_arg2)) (m ((c : Thread nD τ).loc main_arg3))
          (Ideal.ofBits .f32 0x3089705F#32) (ix1 i) := by
  have e7 := after04_v7 (W4 m ρ c)
  have e6 := after03_v6 (W3 m ρ c)
  have e5 := after02_v5 (W2 m ρ c)
  -- the column's row i is the padded vector's entry i
  show (StableHlo.after hostOps0_4 (W4 m ρ c) (Proc.devRef .tc main_v7) : FVec Ideal S50048x1 .f32) _ = _
  rw [e7, column_apply _ (by decide)]
  -- which, below 50000, is the unpadded vector's entry i
  show (StableHlo.after hostOps0_3 (W3 m ρ c) (Proc.devRef .tc main_v6) : FVec Ideal S50048 .f32) _ = _
  rw [e6, pad_apply_of_inside _ _ _ _ _ _ _ _ (ix1 i) (by
    intro a
    match a with
    | ⟨0, _⟩ => simp)]
  -- which is zero plus the weights of the edges whose destination is i, plus the constant
  show (StableHlo.after hostOps0_2 (W2 m ρ c) (Proc.devRef .tc main_v5) : FVec Ideal S50000 .f32) _ = _
  rw [e5, addf_apply, Cert.LibSG.scatterAdd_flat _ rfl rfl rfl rfl, broadcastInDim_scalar_apply, broadcastInDim_scalar_apply,
    constant_apply, constant_apply, Ideal.ofBits_zero_f32, W2_arg2, W2_arg3]
  have hb : ∀ e : Fin 800000, broadcastInDim S800000x1 ![0] Facts₀.bcast_S800000_S800000x1_0
      (m ((c : Thread nD τ).loc main_arg2) : IVec S800000 32) (StableHlo.Predicate.ixP e) = (m ((c : Thread nD τ).loc main_arg2) : IVec S800000 32) (ix1 e) :=
    fun e => by
      have hP : StableHlo.Predicate.ixP e = ix2 e (0 : Fin 1) := by
        funext a
        match a with
        | ⟨0, _⟩ => rfl
        | ⟨1, _⟩ => rfl
      rw [hP]
      exact column_apply _ (by decide) _ e 0
  simp only [hb]
  rfl

/-- The first matrix, transposed. -/
theorem W5_v9 (c : Dev nD) (k d : Fin 64) :
    (W5 m ρ c (Proc.devRef .tc main_v9) : S64x64.Idx → EReal) (ix2 k d)
      = (m ((c : Thread nD τ).loc main_arg4) : S64x64.Idx → EReal) (ix2 d k) := by
  have e := after04_v9 (W4 m ρ c)
  show (StableHlo.after hostOps0_4 (W4 m ρ c) (Proc.devRef .tc main_v9) : FVec Ideal S64x64 .bf16) _ = _
  rw [e, truncf_apply, W4_arg4]
  exact transpose_sq_apply _ _ k d

/-- The second matrix, transposed. -/
theorem W5_v11 (c : Dev nD) (k d : Fin 64) :
    (W5 m ρ c (Proc.devRef .tc main_v11) : S64x64.Idx → EReal) (ix2 k d)
      = (m ((c : Thread nD τ).loc main_arg6) : S64x64.Idx → EReal) (ix2 d k) := by
  have e := after04_v11 (W4 m ρ c)
  show (StableHlo.after hostOps0_4 (W4 m ρ c) (Proc.devRef .tc main_v11) : FVec Ideal S64x64 .bf16) _ = _
  rw [e, truncf_apply, W4_arg6]
  exact transpose_sq_apply _ _ k d

/-- No operation before the first region writes an argument. -/
theorem W5_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_forall_not_mem (b := Proc.devRef .tc main_arg1) _ _ (List.forall_iff_forall_mem.mp (by
      simp only [hostOps0_4, List.flatten_cons, List.flatten_nil, List.append_nil, List.cons_append,
        List.nil_append, List.Forall, StableHlo.nullary_writes, StableHlo.unary_writes, StableHlo.binary_writes, StableHlo.ternary_writes, Finset.mem_singleton]
      repeat' apply And.intro
      all_goals exact StableHlo.devRef_ne_of_ne (by decide)))
    _ = W3 m ρ c (Proc.devRef .tc main_arg1) := StableHlo.after_of_forall_not_mem (b := Proc.devRef .tc main_arg1) _ _ (List.forall_iff_forall_mem.mp (by
      simp only [hostOps0_3, List.flatten_cons, List.flatten_nil, List.append_nil, List.cons_append,
        List.nil_append, List.Forall, StableHlo.nullary_writes, StableHlo.unary_writes, StableHlo.binary_writes, StableHlo.ternary_writes, Finset.mem_singleton]
      repeat' apply And.intro
      all_goals exact StableHlo.devRef_ne_of_ne (by decide)))
    _ = W2 m ρ c (Proc.devRef .tc main_arg1) := StableHlo.after_of_forall_not_mem (b := Proc.devRef .tc main_arg1) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, Finset.mem_singleton]
      repeat' apply And.intro
      all_goals exact StableHlo.devRef_ne_of_ne (by decide)))
    _ = W1 m ρ c (Proc.devRef .tc main_arg1) := StableHlo.after_of_forall_not_mem (b := Proc.devRef .tc main_arg1) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, Finset.mem_singleton]
      repeat' apply And.intro
      all_goals exact StableHlo.devRef_ne_of_ne (by decide)))
    _ = W0 m ρ c (Proc.devRef .tc main_arg1) := StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, Finset.mem_singleton]
      repeat' apply And.intro
      all_goals exact StableHlo.devRef_ne_of_ne (by decide)))
    _ = m ((c : Thread nD τ).loc main_arg1) := rfl
theorem W5_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_forall_not_mem (b := Proc.devRef .tc main_arg2) _ _ (List.forall_iff_forall_mem.mp (by
      simp only [hostOps0_4, List.flatten_cons, List.flatten_nil, List.append_nil, List.cons_append,
        List.nil_append, List.Forall, StableHlo.nullary_writes, StableHlo.unary_writes, StableHlo.binary_writes, StableHlo.ternary_writes, Finset.mem_singleton]
      repeat' apply And.intro
      all_goals exact StableHlo.devRef_ne_of_ne (by decide)))
    _ = W3 m ρ c (Proc.devRef .tc main_arg2) := StableHlo.after_of_forall_not_mem (b := Proc.devRef .tc main_arg2) _ _ (List.forall_iff_forall_mem.mp (by
      simp only [hostOps0_3, List.flatten_cons, List.flatten_nil, List.append_nil, List.cons_append,
        List.nil_append, List.Forall, StableHlo.nullary_writes, StableHlo.unary_writes, StableHlo.binary_writes, StableHlo.ternary_writes, Finset.mem_singleton]
      repeat' apply And.intro
      all_goals exact StableHlo.devRef_ne_of_ne (by decide)))
    _ = W2 m ρ c (Proc.devRef .tc main_arg2) := StableHlo.after_of_forall_not_mem (b := Proc.devRef .tc main_arg2) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, Finset.mem_singleton]
      repeat' apply And.intro
      all_goals exact StableHlo.devRef_ne_of_ne (by decide)))
    _ = W1 m ρ c (Proc.devRef .tc main_arg2) := StableHlo.after_of_forall_not_mem (b := Proc.devRef .tc main_arg2) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, Finset.mem_singleton]
      repeat' apply And.intro
      all_goals exact StableHlo.devRef_ne_of_ne (by decide)))
    _ = W0 m ρ c (Proc.devRef .tc main_arg2) := StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, Finset.mem_singleton]
      repeat' apply And.intro
      all_goals exact StableHlo.devRef_ne_of_ne (by decide)))
    _ = m ((c : Thread nD τ).loc main_arg2) := rfl
theorem W5_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_forall_not_mem (b := Proc.devRef .tc main_arg3) _ _ (List.forall_iff_forall_mem.mp (by
      simp only [hostOps0_4, List.flatten_cons, List.flatten_nil, List.append_nil, List.cons_append,
        List.nil_append, List.Forall, StableHlo.nullary_writes, StableHlo.unary_writes, StableHlo.binary_writes, StableHlo.ternary_writes, Finset.mem_singleton]
      repeat' apply And.intro
      all_goals exact StableHlo.devRef_ne_of_ne (by decide)))
    _ = W3 m ρ c (Proc.devRef .tc main_arg3) := StableHlo.after_of_forall_not_mem (b := Proc.devRef .tc main_arg3) _ _ (List.forall_iff_forall_mem.mp (by
      simp only [hostOps0_3, List.flatten_cons, List.flatten_nil, List.append_nil, List.cons_append,
        List.nil_append, List.Forall, StableHlo.nullary_writes, StableHlo.unary_writes, StableHlo.binary_writes, StableHlo.ternary_writes, Finset.mem_singleton]
      repeat' apply And.intro
      all_goals exact StableHlo.devRef_ne_of_ne (by decide)))
    _ = W2 m ρ c (Proc.devRef .tc main_arg3) := StableHlo.after_of_forall_not_mem (b := Proc.devRef .tc main_arg3) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, Finset.mem_singleton]
      repeat' apply And.intro
      all_goals exact StableHlo.devRef_ne_of_ne (by decide)))
    _ = W1 m ρ c (Proc.devRef .tc main_arg3) := StableHlo.after_of_forall_not_mem (b := Proc.devRef .tc main_arg3) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, Finset.mem_singleton]
      repeat' apply And.intro
      all_goals exact StableHlo.devRef_ne_of_ne (by decide)))
    _ = W0 m ρ c (Proc.devRef .tc main_arg3) := StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, Finset.mem_singleton]
      repeat' apply And.intro
      all_goals exact StableHlo.devRef_ne_of_ne (by decide)))
    _ = m ((c : Thread nD τ).loc main_arg3) := rfl
theorem W5_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_forall_not_mem (b := Proc.devRef .tc main_arg5) _ _ (List.forall_iff_forall_mem.mp (by
      simp only [hostOps0_4, List.flatten_cons, List.flatten_nil, List.append_nil, List.cons_append,
        List.nil_append, List.Forall, StableHlo.nullary_writes, StableHlo.unary_writes, StableHlo.binary_writes, StableHlo.ternary_writes, Finset.mem_singleton]
      repeat' apply And.intro
      all_goals exact StableHlo.devRef_ne_of_ne (by decide)))
    _ = W3 m ρ c (Proc.devRef .tc main_arg5) := StableHlo.after_of_forall_not_mem (b := Proc.devRef .tc main_arg5) _ _ (List.forall_iff_forall_mem.mp (by
      simp only [hostOps0_3, List.flatten_cons, List.flatten_nil, List.append_nil, List.cons_append,
        List.nil_append, List.Forall, StableHlo.nullary_writes, StableHlo.unary_writes, StableHlo.binary_writes, StableHlo.ternary_writes, Finset.mem_singleton]
      repeat' apply And.intro
      all_goals exact StableHlo.devRef_ne_of_ne (by decide)))
    _ = W2 m ρ c (Proc.devRef .tc main_arg5) := StableHlo.after_of_forall_not_mem (b := Proc.devRef .tc main_arg5) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, Finset.mem_singleton]
      repeat' apply And.intro
      all_goals exact StableHlo.devRef_ne_of_ne (by decide)))
    _ = W1 m ρ c (Proc.devRef .tc main_arg5) := StableHlo.after_of_forall_not_mem (b := Proc.devRef .tc main_arg5) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, Finset.mem_singleton]
      repeat' apply And.intro
      all_goals exact StableHlo.devRef_ne_of_ne (by decide)))
    _ = W0 m ρ c (Proc.devRef .tc main_arg5) := StableHlo.after_of_forall_not_mem (b := Proc.devRef .tc main_arg5) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, Finset.mem_singleton]
      repeat' apply And.intro
      all_goals exact StableHlo.devRef_ne_of_ne (by decide)))
    _ = m ((c : Thread nD τ).loc main_arg5) := rfl
theorem W5_arg7 (c : Dev nD) : W5 m ρ c (Proc.devRef .tc main_arg7) = m ((c : Thread nD τ).loc main_arg7) :=
  calc W5 m ρ c (Proc.devRef .tc main_arg7)
    _ = W4 m ρ c (Proc.devRef .tc main_arg7) := StableHlo.after_of_forall_not_mem (b := Proc.devRef .tc main_arg7) _ _ (List.forall_iff_forall_mem.mp (by
      simp only [hostOps0_4, List.flatten_cons, List.flatten_nil, List.append_nil, List.cons_append,
        List.nil_append, List.Forall, StableHlo.nullary_writes, StableHlo.unary_writes, StableHlo.binary_writes, StableHlo.ternary_writes, Finset.mem_singleton]
      repeat' apply And.intro
      all_goals exact StableHlo.devRef_ne_of_ne (by decide)))
    _ = W3 m ρ c (Proc.devRef .tc main_arg7) := StableHlo.after_of_forall_not_mem (b := Proc.devRef .tc main_arg7) _ _ (List.forall_iff_forall_mem.mp (by
      simp only [hostOps0_3, List.flatten_cons, List.flatten_nil, List.append_nil, List.cons_append,
        List.nil_append, List.Forall, StableHlo.nullary_writes, StableHlo.unary_writes, StableHlo.binary_writes, StableHlo.ternary_writes, Finset.mem_singleton]
      repeat' apply And.intro
      all_goals exact StableHlo.devRef_ne_of_ne (by decide)))
    _ = W2 m ρ c (Proc.devRef .tc main_arg7) := StableHlo.after_of_forall_not_mem (b := Proc.devRef .tc main_arg7) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, Finset.mem_singleton]
      repeat' apply And.intro
      all_goals exact StableHlo.devRef_ne_of_ne (by decide)))
    _ = W1 m ρ c (Proc.devRef .tc main_arg7) := StableHlo.after_of_forall_not_mem (b := Proc.devRef .tc main_arg7) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, Finset.mem_singleton]
      repeat' apply And.intro
      all_goals exact StableHlo.devRef_ne_of_ne (by decide)))
    _ = W0 m ρ c (Proc.devRef .tc main_arg7) := StableHlo.after_of_forall_not_mem (b := Proc.devRef .tc main_arg7) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, Finset.mem_singleton]
      repeat' apply And.intro
      all_goals exact StableHlo.devRef_ne_of_ne (by decide)))
    _ = m ((c : Thread nD τ).loc main_arg7) := rfl

end Cert.KernelIdeal.HostValue

end
-- ==== Proof.HostTail.lean ====
/-
  The idealized kernel program's host operations between the layers and after the last region.

  Between the layers rows 50000 … 50047 of the first layer's output are overwritten with a 48 × 64 block of zeros placed
  at row 50000: an update lands on row 50000 + r, so every row below 50000 is kept; the table the second gather reads
  is that array after a change of float format, the identity on the extended reals.  After the last region the same
  overwrite is followed by a slice of the first 50000 rows, which therefore are the second layer's rows.
-/
import proofs.«411369_j50465865728371_2_alg».proof.Proof.Gen.KernelIdeal.Frame
import proofs.«411369_j50465865728371_2_alg».proof.Proof.Spec
import proofs.«411369_j50465865728371_2_alg».proof.Proof.LibScatterGather
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate
import Idealize.ShloMosaic.Lib.Tactic

noncomputable section

open scoped BigOperators
open Idealize.ShloMosaic Idealize.ShloMosaic.TcCoe Idealize.ShloMosaic.ValueIdx Idealize.SL.Sem

namespace Cert.KernelIdeal.HostTail

open Cert.KernelIdeal Cert.KernelIdeal.Gen

variable (m : (ℓ : Loc nD τ sig) → Buf (Elt Ideal) ℓ) (ρ : Dev nD → PrngReg)

/-! ## A replacing scatter away from where its updates land -/

section Scatter

/-- A scatter is a fold, over the update indices, of "overwrite the element this update lands on, or drop the update":
    an element no update lands on is never touched, whatever the combining function is. -/
theorem scatter_of_not_lands {α : Type} {s si u : Shape} {w : ℕ} (d : ScatterDims s si u) (f : α → α → α)
    (x : s.Idx → α) (idx : IVec si w) (upd : u.Idx → α) (i : s.Idx)
    (h : ∀ j : u.Idx, d.resultIdx? j idx ≠ some i) :
    Host.scatter d f x idx upd i = x i := by
  unfold Host.scatter
  have key : ∀ (l : List (Fin u.numel)) (r : s.Idx → α), r i = x i →
      (l.foldl (fun r n =>
        match d.resultIdx? (u.rowMajor.symm n) idx with
        | some i => fun i' => if i' = i then f (r i) (upd (u.rowMajor.symm n)) else r i'
        | none => r) r) i = x i := by
    intro l
    induction l with
    | nil => intro r hr; exact hr
    | cons n l ih =>
      intro r hr
      rw [List.foldl_cons]
      apply ih
      cases hres : d.resultIdx? (u.rowMajor.symm n) idx with
      | none => exact hr
      | some i0 =>
        have hne : i ≠ i0 := fun e => h _ (e ▸ hres)
        show (if i = i0 then _ else r i) = x i
        rw [if_neg hne]
        exact hr
  exact key _ x rfl

/-- One block of [n × D] rows written into an [N × D] matrix at the row its single start index names: the block's row r
    lands on row start + r, never above the start, so every row strictly below the start (read signed) is kept. -/
theorem scatter_block_below {α : Type} {N D n w : ℕ} (d : ScatterDims ⟨2, ![N, D]⟩ ⟨1, ![1]⟩ ⟨2, ![n, D]⟩)
    (huw : d.updateWindowDims = [0, 1]) (hiw : d.insertedWindowDims = []) (hsd : d.scatterDimsToOperandDims = [0])
    (hivd : d.indexVectorDim = 0) (f : α → α → α)
    (x : (⟨2, ![N, D]⟩ : Shape).Idx → α) (idx : IVec ⟨1, ![1]⟩ w) (upd : (⟨2, ![n, D]⟩ : Shape).Idx → α)
    (i : (⟨2, ![N, D]⟩ : Shape).Idx) (hi : ((i 0).val : ℤ) < (idx (ix1 0)).toInt) :
    Host.scatter d f x idx upd i = x i := by
  obtain ⟨uw, iw, sd, iv, wf⟩ := d
  dsimp only at huw hiw hsd hivd
  subst huw hiw hsd hivd
  refine scatter_of_not_lands _ f x idx upd i fun j hj => ?_
  have h0 := (Cert.LibSG.resultIdx?_eq_some_iff _ j idx i).mp hj 0
  have hstart : (ScatterDims.mk (s := ⟨2, ![N, D]⟩) (si := ⟨1, ![1]⟩) (u := ⟨2, ![n, D]⟩) [0, 1] [] [0] 0 wf).start j idx 0
      = (idx (ix1 0)).toInt := by
    unfold ScatterDims.start
    rw [dif_pos (List.mem_singleton.mpr rfl)]
    congr 2
    funext b; refine Fin.ext ?_
    match b with
    | ⟨0, _⟩ => rfl
  rw [hstart] at h0
  omega

end Scatter

/-! ## Between the layers (the contents `W9`, from `W8`) -/

/-- Overwriting rows 50000 … 50047 with zeros keeps every row below 50000 of the first layer's output. -/
theorem W9_v18 (c : Dev nD) (i : Fin 50000) (d : Fin 64) :
    (W9 m ρ c (Proc.devRef .tc main_v18) : S50048x64.Idx → EReal) (ix2 (⟨i.val, by omega⟩ : Fin 50048) d)
      = (W8 m ρ c (Proc.devRef .tc main_v15) : S50048x64.Idx → EReal) (ix2 (⟨i.val, by omega⟩ : Fin 50048) d) := by
  have h18 : W9 m ρ c (Proc.devRef .tc main_v18)
      = Host.scatter scatter_S50048x64_S1_S48x64_01_n_0_0 (fun _ b => b) (W8 m ρ c (Proc.devRef .tc main_v15))
          (broadcastInDim S1 ![] bcast_S_S1 (constantI S_ 32 50000#32))
          (broadcastInDim S48x64 ![] bcast_S_S48x64 (constant (F := Ideal) S_ .f32 0x00000000#32)) := by
    show StableHlo.after hostOps3 _ (Proc.devRef .tc main_v18) = _
    after_results
    rfl
  rw [h18]
  refine scatter_block_below scatter_S50048x64_S1_S48x64_01_n_0_0 rfl rfl rfl rfl _ _ _ _ _ ?_
  show ((i.val : ℕ) : ℤ) < (50000#32 : BitVec 32).toInt
  have : (50000#32 : BitVec 32).toInt = 50000 := by decide
  rw [this]
  have := i.isLt
  omega

/-- The table the second gather reads is that array (a change of format). -/
theorem W9_v19 (c : Dev nD) :
    (W9 m ρ c (Proc.devRef .tc main_v19) : S50048x64.Idx → EReal) = (W9 m ρ c (Proc.devRef .tc main_v18) : S50048x64.Idx → EReal) := by
  show (StableHlo.after hostOps3 (W8 m ρ c) (Proc.devRef .tc main_v19) : S50048x64.Idx → EReal)
      = (StableHlo.after hostOps3 (W8 m ρ c) (Proc.devRef .tc main_v18) : S50048x64.Idx → EReal)
  after_results
  funext j
  exact truncf_apply _ _ j

/-- The operations between the layers write only their own six results (two constants, their two broadcasts, the overwritten array and its change of format): every other buffer is kept. -/
theorem W9_of_ne (c : Dev nD) (b : Ref sig .tc) (h16 : b ≠ main_c_2) (h16' : b ≠ main_v16) (h3 : b ≠ main_cst_3) (h17 : b ≠ main_v17)
    (h18 : b ≠ main_v18) (h19 : b ≠ main_v19) :
    W9 m ρ c (Proc.devRef .tc b) = W8 m ρ c (Proc.devRef .tc b) := by
  refine StableHlo.after_of_forall_not_mem (b := Proc.devRef .tc b) _ _ (List.forall_iff_forall_mem.mp ?_)
  simp only [hostOps3, List.Forall, StableHlo.nullary_writes, StableHlo.unary_writes, StableHlo.ternary_writes,
    Finset.mem_singleton]
  exact ⟨StableHlo.devRef_ne_of_ne h16, StableHlo.devRef_ne_of_ne h16', StableHlo.devRef_ne_of_ne h3,
    StableHlo.devRef_ne_of_ne h17, StableHlo.devRef_ne_of_ne h18, StableHlo.devRef_ne_of_ne h19⟩

/-! ## After the last region (the contents `W13`, from `W12`) -/

/-- The result is the first 50000 rows of the second layer's output. -/
theorem W13_v26 (c : Dev nD) (i : Fin 50000) (d : Fin 64) :
    (W13 m ρ c (Proc.devRef .tc main_v26) : S50000x64.Idx → EReal) (ix2 i d)
      = (W12 m ρ c (Proc.devRef .tc main_v22) : S50048x64.Idx → EReal) (ix2 (⟨i.val, by omega⟩ : Fin 50048) d) := by
  have h26 : W13 m ρ c (Proc.devRef .tc main_v26)
      = extractStridedSlice S50000x64 ![0, 0]
          (Host.scatter scatter_S50048x64_S1_S48x64_01_n_0_0 (fun _ b => b) (W12 m ρ c (Proc.devRef .tc main_v22))
            (broadcastInDim S1 ![] bcast_S_S1 (constantI S_ 32 50000#32))
            (broadcastInDim S48x64 ![] bcast_S_S48x64 (constant (F := Ideal) S_ .f32 0x00000000#32)))
          slices_S50048x64_S50000x64_0_0 := by
    show StableHlo.after hostOps6 _ (Proc.devRef .tc main_v26) = _
    after_results
    rfl
  rw [h26]
  refine (extractStridedSlice_apply _ _ _ (ix2 i d) (ix2 (⟨i.val, by omega⟩ : Fin 50048) d) ?_).trans ?_
  · intro a
    match a with
    | ⟨0, _⟩ => show i.val = 0 + i.val; omega
    | ⟨1, _⟩ => show d.val = 0 + d.val; omega
  refine scatter_block_below scatter_S50048x64_S1_S48x64_01_n_0_0 rfl rfl rfl rfl _ _ _ _ _ ?_
  show ((i.val : ℕ) : ℤ) < (50000#32 : BitVec 32).toInt
  have : (50000#32 : BitVec 32).toInt = 50000 := by decide
  rw [this]
  have := i.isLt
  omega

end Cert.KernelIdeal.HostTail

end
-- ==== Proof.KernelValue.lean ====
/-
  The idealized kernel program's result as a function of its arguments.

  The program's buffer contents at the boundaries of its segments form a chain: host operations, then for each of the two
  layers a gather region, a scatter region and a dense region, with the zero overwrite of the padding rows between the
  layers and the final slice.  Each region leaves in its result array the stage's function of the arrays it was entered
  with, and touches nothing else; so the first layer's output is the one-hot reading of a layer on the padded table, the
  second layer's the same on the first's output.  On rows below 50000 the padded table is the argument and, the source
  words being row numbers of the smaller table, each one-hot layer is the gather/scatter layer: the sliced result is the
  two-layer function of the arguments.
-/
import proofs.«411369_j50465865728371_2_alg».proof.Proof.Gen.KernelIdeal.Frame
import proofs.«411369_j50465865728371_2_alg».proof.Proof.Spec
import proofs.«411369_j50465865728371_2_alg».proof.Proof.Algebra
import proofs.«411369_j50465865728371_2_alg».proof.Proof.GatherValue
import proofs.«411369_j50465865728371_2_alg».proof.Proof.ScatterValue
import proofs.«411369_j50465865728371_2_alg».proof.Proof.DenseValue
import proofs.«411369_j50465865728371_2_alg».proof.Proof.HostValue
import proofs.«411369_j50465865728371_2_alg».proof.Proof.HostTail
import Idealize.ShloMosaic.Lib.ValueIdx

noncomputable section

open scoped BigOperators
open Idealize.ShloMosaic Idealize.ShloMosaic.TcCoe Idealize.ShloMosaic.ValueIdx Idealize.SL.Sem

namespace Cert.KernelIdeal.KernelValue

open Cert.KernelIdeal Cert.KernelIdeal.Gen Cert.Spec

variable (m : (ℓ : Loc nD τ sig) → Buf (Elt Ideal) ℓ) (ρ : Dev nD → PrngReg)

/-- The constant added to the scatter-added weights. -/
abbrev eps : EReal := Ideal.ofBits .f32 0x3089705F#32

/-- A matrix argument read transposed. -/
abbrev tr (W : Mat 64 64) : Mat 64 64 := fun j => W (ix2 (j 1) (j 0))

/-! ## The first layer -/

/-- The first gather's result: the weighted rows of the padded features. -/
theorem gathered1 (c : Dev nD) :
    (W6 m ρ c (Proc.devRef .tc main_v13) : S800000x64.Idx → EReal)
      = weightedRows (W5 m ρ c (Proc.devRef .tc main_v0) : S50048x64.Idx → EReal)
          (m ((c : Thread nD τ).loc main_arg1)) (m ((c : Thread nD τ).loc main_arg3)) := by
  have h := (W6_arr m ρ c 3).trans (GatherValue.region0 (V5 m ρ) c)
  rw [show (V5 m ρ c main_v12 : S50048x64.Idx → EReal) = W5 m ρ c (Proc.devRef .tc main_v0) from HostValue.W5_v12 m ρ c,
    show V5 m ρ c main_arg1 = m ((c : Thread nD τ).loc main_arg1) from HostValue.W5_arg1 m ρ c,
    show V5 m ρ c main_arg3 = m ((c : Thread nD τ).loc main_arg3) from HostValue.W5_arg3 m ρ c] at h
  exact h

/-- The first scatter's result: their sums by destination. -/
theorem summed1 (c : Dev nD) :
    (W7 m ρ c (Proc.devRef .tc main_v14) : S50048x64.Idx → EReal)
      = sumByDst (n := 50048) (m ((c : Thread nD τ).loc main_arg2))
          (weightedRows (W5 m ρ c (Proc.devRef .tc main_v0) : S50048x64.Idx → EReal)
            (m ((c : Thread nD τ).loc main_arg1)) (m ((c : Thread nD τ).loc main_arg3))) := by
  have h := (W7_arr m ρ c 2).trans (ScatterValue.region1 (V6 m ρ) c)
  rw [show (V6 m ρ c main_v13 : S800000x64.Idx → EReal) = _ from gathered1 m ρ c,
    show V6 m ρ c main_arg2 = m ((c : Thread nD τ).loc main_arg2) from
      (W6_of_ne m ρ c main_arg2 (by decide)).trans (HostValue.W5_arg2 m ρ c)] at h
  exact h

/-- The first dense region's result: the one-hot reading of a layer on the padded table. -/
theorem layer1 (c : Dev nD) :
    (W8 m ρ c (Proc.devRef .tc main_v15) : S50048x64.Idx → EReal)
      = layerK (W5 m ρ c (Proc.devRef .tc main_v0) : S50048x64.Idx → EReal)
          (m ((c : Thread nD τ).loc main_arg1)) (m ((c : Thread nD τ).loc main_arg2)) (m ((c : Thread nD τ).loc main_arg3))
          (W5 m ρ c (Proc.devRef .tc main_v7) : S50048x1.Idx → EReal)
          (W5 m ρ c (Proc.devRef .tc main_v9) : S64x64.Idx → EReal) (W5 m ρ c (Proc.devRef .tc main_v11) : S64x64.Idx → EReal)
          (m ((c : Thread nD τ).loc main_arg5)) (m ((c : Thread nD τ).loc main_arg7)) := by
  have h := (W8_arr m ρ c 7).trans (DenseValue.region2 (V7 m ρ) c)
  rw [show (V7 m ρ c main_v14 : S50048x64.Idx → EReal) = _ from summed1 m ρ c,
    show V7 m ρ c main_v0 = W5 m ρ c (Proc.devRef .tc main_v0) from
      (W7_of_ne m ρ c main_v0 (by decide)).trans (W6_of_ne m ρ c main_v0 (by decide)),
    show V7 m ρ c main_v7 = W5 m ρ c (Proc.devRef .tc main_v7) from
      (W7_of_ne m ρ c main_v7 (by decide)).trans (W6_of_ne m ρ c main_v7 (by decide)),
    show V7 m ρ c main_v9 = W5 m ρ c (Proc.devRef .tc main_v9) from
      (W7_of_ne m ρ c main_v9 (by decide)).trans (W6_of_ne m ρ c main_v9 (by decide)),
    show V7 m ρ c main_v11 = W5 m ρ c (Proc.devRef .tc main_v11) from
      (W7_of_ne m ρ c main_v11 (by decide)).trans (W6_of_ne m ρ c main_v11 (by decide)),
    show V7 m ρ c main_arg5 = m ((c : Thread nD τ).loc main_arg5) from
      ((W7_of_ne m ρ c main_arg5 (by decide)).trans (W6_of_ne m ρ c main_arg5 (by decide))).trans (HostValue.W5_arg5 m ρ c),
    show V7 m ρ c main_arg7 = m ((c : Thread nD τ).loc main_arg7) from
      ((W7_of_ne m ρ c main_arg7 (by decide)).trans (W6_of_ne m ρ c main_arg7 (by decide))).trans (HostValue.W5_arg7 m ρ c)] at h
  exact h

/-- The two transposed matrices as the regions find them. -/
theorem matA (c : Dev nD) : (W5 m ρ c (Proc.devRef .tc main_v9) : S64x64.Idx → EReal) = tr (m ((c : Thread nD τ).loc main_arg4)) := by
  funext j
  obtain ⟨a, b, rfl⟩ : ∃ (a : Fin 64) (b : Fin 64), j = ix2 a b := ⟨j 0, j 1, eq_ix2 j⟩
  exact HostValue.W5_v9 m ρ c a b
theorem matB (c : Dev nD) : (W5 m ρ c (Proc.devRef .tc main_v11) : S64x64.Idx → EReal) = tr (m ((c : Thread nD τ).loc main_arg6)) := by
  funext j
  obtain ⟨a, b, rfl⟩ : ∃ (a : Fin 64) (b : Fin 64), j = ix2 a b := ⟨j 0, j 1, eq_ix2 j⟩
  exact HostValue.W5_v11 m ρ c a b

/-- The hypothesis on the source words: each is a row number of the smaller table, as a signed integer. -/
abbrev SrcInRange (c : Dev nD) : Prop :=
  ∀ e : Fin 800000, 0 ≤ ((m ((c : Thread nD τ).loc main_arg1) : S800000.Idx → BitVec 32) (ix1 e)).toInt
    ∧ ((m ((c : Thread nD τ).loc main_arg1) : S800000.Idx → BitVec 32) (ix1 e)).toInt < (50000 : ℤ)

/-- The gather/scatter reading of the first layer on the arguments. -/
abbrev refLayer1 (c : Dev nD) : Mat 50000 64 :=
  layerR (N := 50000) (by decide) (m ((c : Thread nD τ).loc main_arg0)) (m ((c : Thread nD τ).loc main_arg1))
    (m ((c : Thread nD τ).loc main_arg2)) (m ((c : Thread nD τ).loc main_arg3))
    (denomR (m ((c : Thread nD τ).loc main_arg2)) (m ((c : Thread nD τ).loc main_arg3)) eps)
    (tr (m ((c : Thread nD τ).loc main_arg4))) (tr (m ((c : Thread nD τ).loc main_arg6)))
    (m ((c : Thread nD τ).loc main_arg5)) (m ((c : Thread nD τ).loc main_arg7))

/-- On a row below 50000 the first layer's output is the gather/scatter layer of the arguments. -/
theorem layer1_rows (c : Dev nD) (hsrc : SrcInRange m c) (i : Fin 50000) (d : Fin 64) :
    (W8 m ρ c (Proc.devRef .tc main_v15) : S50048x64.Idx → EReal) (ix2 (⟨i.val, by omega⟩ : Fin 50048) d)
      = refLayer1 m c (ix2 i d) := by
  rw [layer1 m ρ c, matA m ρ c, matB m ρ c]
  exact layer_eq (N := 50000) (n := 50048) (by decide) (by decide) (by decide) _ _ (fun i d => HostValue.W5_v0 m ρ c i d) _ _ _ hsrc
    _ _ (fun i => HostValue.W5_v7 m ρ c i) _ _ _ _ i d

/-! ## Across the operations between the layers -/

/-- A region leaves an array it only reads as it was entered. -/
theorem in0 (c : Dev nD) (w : Fin cfg0.W) (hin : (cfg0.win w).isOut = false) :
    W6 m ρ c (Proc.devRef .tc (Pipeline.arrRef spec0 w)) = W5 m ρ c (Proc.devRef .tc (Pipeline.arrRef spec0 w)) :=
  (W6_arr m ρ c w).trans (((dat0 (V5 m ρ) c).arrAt_in w hin _).trans (A_eq0 (V5 m ρ) c w))
theorem in1 (c : Dev nD) (w : Fin cfg1.W) (hin : (cfg1.win w).isOut = false) :
    W7 m ρ c (Proc.devRef .tc (Pipeline.arrRef spec1 w)) = W6 m ρ c (Proc.devRef .tc (Pipeline.arrRef spec1 w)) :=
  (W7_arr m ρ c w).trans (((dat1 (V6 m ρ) c).arrAt_in w hin _).trans (A_eq1 (V6 m ρ) c w))
theorem in2 (c : Dev nD) (w : Fin cfg2.W) (hin : (cfg2.win w).isOut = false) :
    W8 m ρ c (Proc.devRef .tc (Pipeline.arrRef spec2 w)) = W7 m ρ c (Proc.devRef .tc (Pipeline.arrRef spec2 w)) :=
  (W8_arr m ρ c w).trans (((dat2 (V7 m ρ) c).arrAt_in w hin _).trans (A_eq2 (V7 m ρ) c w))

/-- A buffer that the operations between the layers do not write, and that each region of the first layer leaves as it
    found it, is as before the first region. -/
theorem W9_to_W5 (c : Dev nD) (b : Ref sig .tc) (h16 : b ≠ main_c_2) (h16' : b ≠ main_v16) (h3 : b ≠ main_cst_3) (h17 : b ≠ main_v17)
    (h18 : b ≠ main_v18) (h19 : b ≠ main_v19)
    (e2 : W8 m ρ c (Proc.devRef .tc b) = W7 m ρ c (Proc.devRef .tc b))
    (e1 : W7 m ρ c (Proc.devRef .tc b) = W6 m ρ c (Proc.devRef .tc b))
    (e0 : W6 m ρ c (Proc.devRef .tc b) = W5 m ρ c (Proc.devRef .tc b)) :
    W9 m ρ c (Proc.devRef .tc b) = W5 m ρ c (Proc.devRef .tc b) :=
  (HostTail.W9_of_ne m ρ c b h16 h16' h3 h17 h18 h19).trans ((e2.trans e1).trans e0)

/-- The arguments and the first stretch's results that the second layer reads, as it finds them. -/
theorem W9_arg1 (c : Dev nD) : W9 m ρ c (Proc.devRef .tc main_arg1) = m ((c : Thread nD τ).loc main_arg1) :=
  (W9_to_W5 m ρ c main_arg1 (by decide) (by decide) (by decide) (by decide) (by decide) (by decide)
    (W8_of_ne m ρ c main_arg1 (by decide)) (W7_of_ne m ρ c main_arg1 (by decide)) (in0 m ρ c 1 rfl)).trans (HostValue.W5_arg1 m ρ c)
theorem W9_arg3 (c : Dev nD) : W9 m ρ c (Proc.devRef .tc main_arg3) = m ((c : Thread nD τ).loc main_arg3) :=
  (W9_to_W5 m ρ c main_arg3 (by decide) (by decide) (by decide) (by decide) (by decide) (by decide)
    (W8_of_ne m ρ c main_arg3 (by decide)) (W7_of_ne m ρ c main_arg3 (by decide)) (in0 m ρ c 2 rfl)).trans (HostValue.W5_arg3 m ρ c)
theorem W9_arg2 (c : Dev nD) : W9 m ρ c (Proc.devRef .tc main_arg2) = m ((c : Thread nD τ).loc main_arg2) :=
  (W9_to_W5 m ρ c main_arg2 (by decide) (by decide) (by decide) (by decide) (by decide) (by decide)
    (W8_of_ne m ρ c main_arg2 (by decide)) (in1 m ρ c 0 rfl) (W6_of_ne m ρ c main_arg2 (by decide))).trans (HostValue.W5_arg2 m ρ c)
theorem W9_v7 (c : Dev nD) : W9 m ρ c (Proc.devRef .tc main_v7) = W5 m ρ c (Proc.devRef .tc main_v7) :=
  W9_to_W5 m ρ c main_v7 (by decide) (by decide) (by decide) (by decide) (by decide) (by decide)
    (in2 m ρ c 2 rfl) (W7_of_ne m ρ c main_v7 (by decide)) (W6_of_ne m ρ c main_v7 (by decide))
theorem W9_v9 (c : Dev nD) : W9 m ρ c (Proc.devRef .tc main_v9) = W5 m ρ c (Proc.devRef .tc main_v9) :=
  W9_to_W5 m ρ c main_v9 (by decide) (by decide) (by decide) (by decide) (by decide) (by decide)
    (in2 m ρ c 3 rfl) (W7_of_ne m ρ c main_v9 (by decide)) (W6_of_ne m ρ c main_v9 (by decide))
theorem W9_v11 (c : Dev nD) : W9 m ρ c (Proc.devRef .tc main_v11) = W5 m ρ c (Proc.devRef .tc main_v11) :=
  W9_to_W5 m ρ c main_v11 (by decide) (by decide) (by decide) (by decide) (by decide) (by decide)
    (in2 m ρ c 5 rfl) (W7_of_ne m ρ c main_v11 (by decide)) (W6_of_ne m ρ c main_v11 (by decide))
theorem W9_arg5 (c : Dev nD) : W9 m ρ c (Proc.devRef .tc main_arg5) = m ((c : Thread nD τ).loc main_arg5) :=
  (W9_to_W5 m ρ c main_arg5 (by decide) (by decide) (by decide) (by decide) (by decide) (by decide)
    (in2 m ρ c 4 rfl) (W7_of_ne m ρ c main_arg5 (by decide)) (W6_of_ne m ρ c main_arg5 (by decide))).trans (HostValue.W5_arg5 m ρ c)
theorem W9_arg7 (c : Dev nD) : W9 m ρ c (Proc.devRef .tc main_arg7) = m ((c : Thread nD τ).loc main_arg7) :=
  (W9_to_W5 m ρ c main_arg7 (by decide) (by decide) (by decide) (by decide) (by decide) (by decide)
    (in2 m ρ c 6 rfl) (W7_of_ne m ρ c main_arg7 (by decide)) (W6_of_ne m ρ c main_arg7 (by decide))).trans (HostValue.W5_arg7 m ρ c)

/-! ## The second layer -/

/-- The second gather's result: the weighted rows of the first layer's output. -/
theorem gathered2 (c : Dev nD) :
    (W10 m ρ c (Proc.devRef .tc main_v20) : S800000x64.Idx → EReal)
      = weightedRows (W9 m ρ c (Proc.devRef .tc main_v18) : S50048x64.Idx → EReal)
          (m ((c : Thread nD τ).loc main_arg1)) (m ((c : Thread nD τ).loc main_arg3)) := by
  have h := (W10_arr m ρ c 3).trans (GatherValue.region3 (V9 m ρ) c)
  rw [show (V9 m ρ c main_v19 : S50048x64.Idx → EReal) = W9 m ρ c (Proc.devRef .tc main_v18) from HostTail.W9_v19 m ρ c,
    show V9 m ρ c main_arg1 = m ((c : Thread nD τ).loc main_arg1) from W9_arg1 m ρ c,
    show V9 m ρ c main_arg3 = m ((c : Thread nD τ).loc main_arg3) from W9_arg3 m ρ c] at h
  exact h

/-- The second scatter's result: their sums by destination. -/
theorem summed2 (c : Dev nD) :
    (W11 m ρ c (Proc.devRef .tc main_v21) : S50048x64.Idx → EReal)
      = sumByDst (n := 50048) (m ((c : Thread nD τ).loc main_arg2))
          (weightedRows (W9 m ρ c (Proc.devRef .tc main_v18) : S50048x64.Idx → EReal)
            (m ((c : Thread nD τ).loc main_arg1)) (m ((c : Thread nD τ).loc main_arg3))) := by
  have h := (W11_arr m ρ c 2).trans (ScatterValue.region4 (V10 m ρ) c)
  rw [show (V10 m ρ c main_v20 : S800000x64.Idx → EReal) = _ from gathered2 m ρ c,
    show V10 m ρ c main_arg2 = m ((c : Thread nD τ).loc main_arg2) from
      (W10_of_ne m ρ c main_arg2 (by decide)).trans (W9_arg2 m ρ c)] at h
  exact h

/-- A buffer the second layer's gather and scatter regions do not hold, as its dense region finds it. -/
theorem W11_to_W9 (c : Dev nD) (b : Ref sig .tc) (h4 : ∀ w, Pipeline.arrRef spec4 w ≠ b) (h3 : ∀ w, Pipeline.arrRef spec3 w ≠ b) :
    W11 m ρ c (Proc.devRef .tc b) = W9 m ρ c (Proc.devRef .tc b) :=
  (W11_of_ne m ρ c b h4).trans (W10_of_ne m ρ c b h3)

/-- The second dense region's result: the one-hot reading of a layer on the first layer's output. -/
theorem layer2 (c : Dev nD) :
    (W12 m ρ c (Proc.devRef .tc main_v22) : S50048x64.Idx → EReal)
      = layerK (W9 m ρ c (Proc.devRef .tc main_v18) : S50048x64.Idx → EReal)
          (m ((c : Thread nD τ).loc main_arg1)) (m ((c : Thread nD τ).loc main_arg2)) (m ((c : Thread nD τ).loc main_arg3))
          (W5 m ρ c (Proc.devRef .tc main_v7) : S50048x1.Idx → EReal)
          (W5 m ρ c (Proc.devRef .tc main_v9) : S64x64.Idx → EReal) (W5 m ρ c (Proc.devRef .tc main_v11) : S64x64.Idx → EReal)
          (m ((c : Thread nD τ).loc main_arg5)) (m ((c : Thread nD τ).loc main_arg7)) := by
  have h := (W12_arr m ρ c 7).trans (DenseValue.region5 (V11 m ρ) c)
  rw [show (V11 m ρ c main_v21 : S50048x64.Idx → EReal) = _ from summed2 m ρ c,
    show V11 m ρ c main_v18 = W9 m ρ c (Proc.devRef .tc main_v18) from W11_to_W9 m ρ c main_v18 (by decide) (by decide),
    show V11 m ρ c main_v7 = W5 m ρ c (Proc.devRef .tc main_v7) from (W11_to_W9 m ρ c main_v7 (by decide) (by decide)).trans (W9_v7 m ρ c),
    show V11 m ρ c main_v9 = W5 m ρ c (Proc.devRef .tc main_v9) from (W11_to_W9 m ρ c main_v9 (by decide) (by decide)).trans (W9_v9 m ρ c),
    show V11 m ρ c main_v11 = W5 m ρ c (Proc.devRef .tc main_v11) from (W11_to_W9 m ρ c main_v11 (by decide) (by decide)).trans (W9_v11 m ρ c),
    show V11 m ρ c main_arg5 = m ((c : Thread nD τ).loc main_arg5) from (W11_to_W9 m ρ c main_arg5 (by decide) (by decide)).trans (W9_arg5 m ρ c),
    show V11 m ρ c main_arg7 = m ((c : Thread nD τ).loc main_arg7) from (W11_to_W9 m ρ c main_arg7 (by decide) (by decide)).trans (W9_arg7 m ρ c)] at h
  exact h

/-! ## The result -/

/-- The program's result array at (i, d) is the two-layer function of its arguments. -/
theorem result_rows (c : Dev nD) (hsrc : SrcInRange m c) (i : Fin 50000) (d : Fin 64) :
    (W13 m ρ c (Proc.devRef .tc main_v26) : S50000x64.Idx → EReal) (ix2 i d)
      = twoLayersR (N := 50000) (by decide) (m ((c : Thread nD τ).loc main_arg0)) (m ((c : Thread nD τ).loc main_arg1))
          (m ((c : Thread nD τ).loc main_arg2)) (m ((c : Thread nD τ).loc main_arg3)) eps
          (m ((c : Thread nD τ).loc main_arg4)) (m ((c : Thread nD τ).loc main_arg6))
          (m ((c : Thread nD τ).loc main_arg5)) (m ((c : Thread nD τ).loc main_arg7)) (ix2 i d) := by
  rw [HostTail.W13_v26 m ρ c i d, layer2 m ρ c, matA m ρ c, matB m ρ c]
  exact layer_eq (N := 50000) (n := 50048) (by decide) (by decide) (by decide) _ (refLayer1 m c)
    (fun i d => (HostTail.W9_v18 m ρ c i d).trans (layer1_rows m ρ c hsrc i d)) _ _ _ hsrc
    _ _ (fun i => HostValue.W5_v7 m ρ c i) _ _ _ _ i d

end Cert.KernelIdeal.KernelValue

end
-- ==== Proof.RefValue.lean ====
/-
  The reference program's result, read at an element.

  The reference is two layers of: wrap a negative source word by the table's height, gather the rows (the gather
  clamps), multiply by the edge weights, scatter-add the rows by destination into zeros (an edge whose destination is
  no row is dropped), divide by the normaliser (the scatter-added weights plus a constant), two 64 × 64 products with
  the transposed matrices, two bias rows, and a maximum with zero.  Read index by index this is the two-layer function
  of the specification.
-/
import proofs.«411369_j50465865728371_2_alg».proof.Proof.Gen.ReferenceIdeal.Read
import proofs.«411369_j50465865728371_2_alg».proof.Proof.Spec
import proofs.«411369_j50465865728371_2_alg».proof.Proof.LibScatterGather
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

noncomputable section

open scoped BigOperators
open Idealize.ShloMosaic Idealize.ShloMosaic.TcCoe Idealize.ShloMosaic.ValueIdx Idealize.SL.Sem

namespace Cert.ReferenceIdeal.RefValue

open Cert.ReferenceIdeal Cert.ReferenceIdeal.Gen Cert.ReferenceIdeal.Read
open Idealize.ShloMosaic.StableHlo.Predicate

/-- Two rank-1 indices with the same coordinate are equal. -/
theorem idx1_ext {n : Nat} (j j' : (⟨1, ![n]⟩ : Shape).Idx) (h : (j 0).val = (j' 0).val) : j = j' := by
  funext a; refine Fin.ext ?_
  match a with | ⟨0, _⟩ => exact h

/-- Two rank-2 indices with the same coordinates are equal. -/
theorem idx2_ext {n0 n1 : Nat} (j j' : (⟨2, ![n0, n1]⟩ : Shape).Idx) (h0 : (j 0).val = (j' 0).val)
    (h1 : (j 1).val = (j' 1).val) : j = j' := by
  funext a; refine Fin.ext ?_
  match a with | ⟨0, _⟩ => exact h0 | ⟨1, _⟩ => exact h1

/-! ## Words: the wrapped source word -/

/-- Selecting s + 50000 when s is negative as a signed word, and s otherwise, is the if-then-else on the sign. -/
theorem wrap_word (s : BitVec 32) :
    Scalar.select (IntOp.cmpi .slt s 0#32) (IntOp.addi s 50000#32) s
      = (if s.toInt < 0 then s + BitVec.ofNat 32 50000 else s) := by
  unfold Scalar.select IntOp.cmpi IntOp.addi
  by_cases h : s.toInt < 0
  · have hs : s.slt 0#32 = true := by simp [BitVec.slt, h]
    simp [hs, h]
  · have hs : s.slt 0#32 = false := by simp [BitVec.slt, h]
    simp [hs, h]

/-! ## The message sums, for any table -/

/-- Gather the rows of a table t at the wrapped source words, multiply by the broadcast weights, and scatter-add by
    destination into zeros: entry (i, f) is the message sum of the specification. -/
theorem msg_generic (t z : FVec Ideal S50000x64 .f32) (dsts srcs : IVec S800000x1 32) (wb : FVec Ideal S800000x64 .f32)
    (x1 x2 : IVec S800000 32) (x3 : FVec Ideal S800000 .f32)
    (hz : ∀ j, z j = 0)
    (hd : ∀ e : Fin 800000, dsts (ixP e) = x2 (ix1 e))
    (hs : ∀ e : Fin 800000, srcs (ixP e)
      = (if (x1 (ix1 e)).toInt < 0 then x1 (ix1 e) + BitVec.ofNat 32 50000 else x1 (ix1 e)))
    (hw : ∀ (e : Fin 800000) (f : Fin 64), wb (ix2 e f) = x3 (ix1 e))
    (i : Fin 50000) (f : Fin 64) :
    Host.scatterAdd (F := Ideal) scatter_S50000x64_S800000x1_S800000x64_1_0_0_1 z dsts
        (mulf wb (Host.gather gather_S50000x64_S800000x1_S800000x64_1_0_n_n_0_1_164 t srcs)) (ix2 i f)
      = Cert.Spec.msgR (N := 50000) (by decide) t x1 x2 x3 (ix2 i f) := by
  have h1 := Cert.LibSG.scatterAdd_rows (N := 50000) (D := 64) (n := 800000) scatter_S50000x64_S800000x1_S800000x64_1_0_0_1
    rfl rfl rfl rfl z dsts (mulf wb (Host.gather gather_S50000x64_S800000x1_S800000x64_1_0_n_n_0_1_164 t srcs)) i f
  rw [h1, hz]
  show (0 : EReal) + _ = 0 + _
  refine congrArg (HAdd.hAdd (0 : EReal)) ?_
  refine Finset.sum_congr (Finset.filter_congr fun e _ =>
    (congrArg (fun s : BitVec 32 => s.toInt = (i.val : ℤ)) (hd e)).to_iff) fun e _ => ?_
  show wb (ix2 e f) * Host.gather _ t srcs (ix2 e f) = _
  have h2 := Cert.LibSG.gather_rows (N := 50000) (D := 64) (n := 800000) gather_S50000x64_S800000x1_S800000x64_1_0_n_n_0_1_164
    rfl rfl rfl rfl rfl rfl rfl t srcs e f (by decide)
  rw [hw, h2]
  simp only [hs]
  rfl

/-! ## The normaliser -/

/-- The destination column read at edge e. -/
theorem dst_col1 (x2 : IVec S800000 32) (e : Fin 800000) : val_main_v1 (F := Ideal) x2 (ixP e) = x2 (ix1 e) := by
  rw [val_main_v1_apply]; exact congrArg x2 (idx1_ext _ _ rfl)

/-- The normaliser of node i: the scatter-added weights plus the constant. -/
theorem den4 (x2 : IVec S800000 32) (x3 : FVec Ideal S800000 .f32) (i : Fin 50000) :
    val_main_v4 (F := Ideal) x2 x3 (ix1 i)
      = Cert.Spec.denomR (N := 50000) x2 x3 (Ideal.ofBits .f32 0x3089705F#32) (ix1 i) := by
  rw [val_main_v4_apply, val_main_v3_apply, val_main_cst_0_apply]
  unfold val_main_v2
  have h := Cert.LibSG.scatterAdd_flat (N := 50000) (n := 800000) scatter_S50000_S800000x1_S800000_n_0_0_1
    rfl rfl rfl rfl (val_main_v0 (F := Ideal)) (val_main_v1 (F := Ideal) x2) x3 i
  rw [h, val_main_v0_apply, val_main_cst_apply]
  show (Ideal.ofBits .f32 0x00000000#32 + _) + _ = (0 + _) + _
  rw [Ideal.ofBits_zero_f32]
  refine congrArg (fun s : EReal => (0 + s) + Ideal.ofBits .f32 0x3089705F#32) ?_
  exact Finset.sum_congr (Finset.filter_congr fun e _ =>
    (congrArg (fun s : BitVec 32 => s.toInt = (i.val : ℤ)) (dst_col1 x2 e)).to_iff) fun e _ => rfl

/-! ## The first layer -/

theorem dst_col16 (x2 : IVec S800000 32) (e : Fin 800000) : val_main_v16 (F := Ideal) x2 (ixP e) = x2 (ix1 e) := by
  rw [val_main_v16_apply]; exact congrArg x2 (idx1_ext _ _ rfl)

/-- The source column of the first gather at edge e is the wrapped source word. -/
theorem src_col11 (x1 : IVec S800000 32) (e : Fin 800000) :
    val_main_v11 (F := Ideal) x1 (ixP e)
      = (if (x1 (ix1 e)).toInt < 0 then x1 (ix1 e) + BitVec.ofNat 32 50000 else x1 (ix1 e)) := by
  rw [val_main_v11_apply, val_main_v10_apply, val_main_v7_apply, val_main_v9_apply, val_main_v6_apply,
    val_main_v8_apply, val_main_c_apply, val_main_c_1_apply,
    show idx_main_v11 (ixP e) = ix1 e from idx1_ext _ _ rfl]
  exact wrap_word _

/-- The weights broadcast along the rows. -/
theorem w_bc13 (x3 : FVec Ideal S800000 .f32) (e : Fin 800000) (f : Fin 64) :
    val_main_v13 (F := Ideal) x3 (ix2 e f) = x3 (ix1 e) := by
  rw [val_main_v13_apply, val_main_v5_apply]; exact congrArg x3 (idx1_ext _ _ rfl)

theorem zero15 (j : S50000x64.Idx) : val_main_v15 (F := Ideal) j = 0 := by
  rw [val_main_v15_apply, val_main_cst_2_apply]; exact Ideal.ofBits_zero_f32

/-- The first layer's scatter-added messages. -/
theorem msg17 (x0 : FVec Ideal S50000x64 .f32) (x1 x2 : IVec S800000 32) (x3 : FVec Ideal S800000 .f32)
    (i : Fin 50000) (f : Fin 64) :
    val_main_v17 (F := Ideal) x0 x1 x2 x3 (ix2 i f)
      = Cert.Spec.msgR (N := 50000) (by decide) x0 x1 x2 x3 (ix2 i f) := by
  unfold val_main_v17 val_main_v14 val_main_v12
  exact msg_generic x0 _ _ _ _ x1 x2 x3 zero15 (dst_col16 x2) (src_col11 x1) (w_bc13 x3) i f

/-- The first layer's normaliser, broadcast along the rows. -/
theorem den19 (x2 : IVec S800000 32) (x3 : FVec Ideal S800000 .f32) (i : Fin 50000) (k : Fin 64) :
    val_main_v19 (F := Ideal) x2 x3 (ix2 i k)
      = Cert.Spec.denomR (N := 50000) x2 x3 (Ideal.ofBits .f32 0x3089705F#32) (ix1 i) := by
  rw [val_main_v19_apply, val_main_v18_apply,
    show idx_main_v18 (idx_main_v19 (ix2 i k)) = ix1 i from idx1_ext _ _ rfl]
  exact den4 x2 x3 i

theorem b24 (x5 : FVec Ideal S64 .f32) (i : Fin 50000) (d : Fin 64) : val_main_v24 (F := Ideal) x5 (ix2 i d) = x5 (ix1 d) := by
  rw [val_main_v24_apply, val_main_v23_apply]; exact congrArg x5 (idx1_ext _ _ rfl)

theorem b30 (x7 : FVec Ideal S64 .f32) (i : Fin 50000) (d : Fin 64) : val_main_v30 (F := Ideal) x7 (ix2 i d) = x7 (ix1 d) := by
  rw [val_main_v30_apply, val_main_v29_apply]; exact congrArg x7 (idx1_ext _ _ rfl)

theorem zero_call0 (j : S50000x64.Idx) : val_main_call0_v0 (F := Ideal) j = 0 := by
  rw [val_main_call0_v0_apply, val_main_call0_cst_apply]; exact Ideal.ofBits_zero_f32

/-- The first layer's output at (i, d). -/
theorem layer1 (x0 : FVec Ideal S50000x64 .f32) (x1 x2 : IVec S800000 32) (x3 : FVec Ideal S800000 .f32)
    (x4 : FVec Ideal S64x64 .f32) (x5 : FVec Ideal S64 .f32) (x6 : FVec Ideal S64x64 .f32) (x7 : FVec Ideal S64 .f32) (i : Fin 50000) (d : Fin 64) :
    val_main_v32 (F := Ideal) x0 x1 x2 x3 x4 x5 x6 x7 (ix2 i d)
      = Cert.Spec.layerR (N := 50000) (by decide) x0 x1 x2 x3
          (Cert.Spec.denomR x2 x3 (Ideal.ofBits .f32 0x3089705F#32))
          (fun j => x4 (ix2 (j 1) (j 0))) (fun j => x6 (ix2 (j 1) (j 0))) x5 x7 (ix2 i d) := by
  have hP : (∑ k : Fin 64, x0 (lidx_main_v22 (ix2 i d) k) * val_main_v21 (F := Ideal) x4 (ridx_main_v22 (ix2 i d) k))
      = ∑ k : Fin 64, x0 (ix2 i k) * x4 (ix2 d k) := Finset.sum_congr rfl fun k _ => by
    rw [val_main_v21_apply, show lidx_main_v22 (ix2 i d) k = ix2 i k from idx2_ext _ _ rfl rfl,
      show idx_main_v21 (ridx_main_v22 (ix2 i d) k) = ix2 d k from idx2_ext _ _ rfl rfl]
  have hQ : (∑ k : Fin 64, val_main_v20 (F := Ideal) x0 x1 x2 x3 (lidx_main_v27 (ix2 i d) k)
        * val_main_v26 (F := Ideal) x6 (ridx_main_v27 (ix2 i d) k))
      = ∑ k : Fin 64, Ideal.div (Cert.Spec.msgR (N := 50000) (by decide) x0 x1 x2 x3 (ix2 i k))
          (Cert.Spec.denomR (N := 50000) x2 x3 (Ideal.ofBits .f32 0x3089705F#32) (ix1 i)) * x6 (ix2 d k) :=
    Finset.sum_congr rfl fun k _ => by
      rw [val_main_v26_apply, show lidx_main_v27 (ix2 i d) k = ix2 i k from idx2_ext _ _ rfl rfl,
        show idx_main_v26 (ridx_main_v27 (ix2 i d) k) = ix2 d k from idx2_ext _ _ rfl rfl,
        val_main_v20_apply, msg17, den19]
      rfl
  rw [val_main_v32_apply, val_main_v31_apply, val_main_v28_apply, val_main_v25_apply, val_main_v22_apply,
    val_main_v27_apply, hP, hQ, b24, b30, zero_call0]
  rfl

/-! ## The second layer: the same chain on the first layer's output -/

theorem dst_col44 (x2 : IVec S800000 32) (e : Fin 800000) : val_main_v44 (F := Ideal) x2 (ixP e) = x2 (ix1 e) := by
  rw [val_main_v44_apply]; exact congrArg x2 (idx1_ext _ _ rfl)

/-- The source column of the second gather at edge e is the wrapped source word. -/
theorem src_col39 (x1 : IVec S800000 32) (e : Fin 800000) :
    val_main_v39 (F := Ideal) x1 (ixP e)
      = (if (x1 (ix1 e)).toInt < 0 then x1 (ix1 e) + BitVec.ofNat 32 50000 else x1 (ix1 e)) := by
  rw [val_main_v39_apply, val_main_v38_apply, val_main_v35_apply, val_main_v37_apply, val_main_v34_apply,
    val_main_v36_apply, val_main_c_3_apply, val_main_c_4_apply,
    show idx_main_v39 (ixP e) = ix1 e from idx1_ext _ _ rfl]
  exact wrap_word _

theorem w_bc41 (x3 : FVec Ideal S800000 .f32) (e : Fin 800000) (f : Fin 64) :
    val_main_v41 (F := Ideal) x3 (ix2 e f) = x3 (ix1 e) := by
  rw [val_main_v41_apply, val_main_v33_apply]; exact congrArg x3 (idx1_ext _ _ rfl)

theorem zero43 (j : S50000x64.Idx) : val_main_v43 (F := Ideal) j = 0 := by
  rw [val_main_v43_apply, val_main_cst_5_apply]; exact Ideal.ofBits_zero_f32

/-- The second layer's scatter-added messages, over the first layer's output as the table. -/
theorem msg45 (x0 : FVec Ideal S50000x64 .f32) (x1 x2 : IVec S800000 32) (x3 : FVec Ideal S800000 .f32)
    (x4 : FVec Ideal S64x64 .f32) (x5 : FVec Ideal S64 .f32) (x6 : FVec Ideal S64x64 .f32) (x7 : FVec Ideal S64 .f32) (i : Fin 50000) (f : Fin 64) :
    val_main_v45 (F := Ideal) x0 x1 x2 x3 x4 x5 x6 x7 (ix2 i f)
      = Cert.Spec.msgR (N := 50000) (by decide) (val_main_v32 (F := Ideal) x0 x1 x2 x3 x4 x5 x6 x7) x1 x2 x3 (ix2 i f) := by
  unfold val_main_v45 val_main_v42 val_main_v40
  exact msg_generic (val_main_v32 (F := Ideal) x0 x1 x2 x3 x4 x5 x6 x7) _ _ _ _ x1 x2 x3 zero43 (dst_col44 x2) (src_col39 x1)
    (w_bc41 x3) i f

theorem den47 (x2 : IVec S800000 32) (x3 : FVec Ideal S800000 .f32) (i : Fin 50000) (k : Fin 64) :
    val_main_v47 (F := Ideal) x2 x3 (ix2 i k)
      = Cert.Spec.denomR (N := 50000) x2 x3 (Ideal.ofBits .f32 0x3089705F#32) (ix1 i) := by
  rw [val_main_v47_apply, val_main_v46_apply,
    show idx_main_v46 (idx_main_v47 (ix2 i k)) = ix1 i from idx1_ext _ _ rfl]
  exact den4 x2 x3 i

theorem b52 (x5 : FVec Ideal S64 .f32) (i : Fin 50000) (d : Fin 64) : val_main_v52 (F := Ideal) x5 (ix2 i d) = x5 (ix1 d) := by
  rw [val_main_v52_apply, val_main_v51_apply]; exact congrArg x5 (idx1_ext _ _ rfl)

theorem b58 (x7 : FVec Ideal S64 .f32) (i : Fin 50000) (d : Fin 64) : val_main_v58 (F := Ideal) x7 (ix2 i d) = x7 (ix1 d) := by
  rw [val_main_v58_apply, val_main_v57_apply]; exact congrArg x7 (idx1_ext _ _ rfl)

theorem zero_call1 (j : S50000x64.Idx) : val_main_call1_v0 (F := Ideal) j = 0 := by
  rw [val_main_call1_v0_apply, val_main_call1_cst_apply]; exact Ideal.ofBits_zero_f32

/-- The second layer's output at (i, d), as a layer over the first layer's output. -/
theorem layer2 (x0 : FVec Ideal S50000x64 .f32) (x1 x2 : IVec S800000 32) (x3 : FVec Ideal S800000 .f32)
    (x4 : FVec Ideal S64x64 .f32) (x5 : FVec Ideal S64 .f32) (x6 : FVec Ideal S64x64 .f32) (x7 : FVec Ideal S64 .f32) (i : Fin 50000) (d : Fin 64) :
    val_main_v60 (F := Ideal) x0 x1 x2 x3 x4 x5 x6 x7 (ix2 i d)
      = Cert.Spec.layerR (N := 50000) (by decide) (val_main_v32 (F := Ideal) x0 x1 x2 x3 x4 x5 x6 x7) x1 x2 x3
          (Cert.Spec.denomR x2 x3 (Ideal.ofBits .f32 0x3089705F#32))
          (fun j => x4 (ix2 (j 1) (j 0))) (fun j => x6 (ix2 (j 1) (j 0))) x5 x7 (ix2 i d) := by
  have hP : (∑ k : Fin 64, val_main_v32 (F := Ideal) x0 x1 x2 x3 x4 x5 x6 x7 (lidx_main_v50 (ix2 i d) k)
        * val_main_v49 (F := Ideal) x4 (ridx_main_v50 (ix2 i d) k))
      = ∑ k : Fin 64, val_main_v32 (F := Ideal) x0 x1 x2 x3 x4 x5 x6 x7 (ix2 i k) * x4 (ix2 d k) :=
    Finset.sum_congr rfl fun k _ => by
      rw [val_main_v49_apply, show lidx_main_v50 (ix2 i d) k = ix2 i k from idx2_ext _ _ rfl rfl,
        show idx_main_v49 (ridx_main_v50 (ix2 i d) k) = ix2 d k from idx2_ext _ _ rfl rfl]
  have hQ : (∑ k : Fin 64, val_main_v48 (F := Ideal) x0 x1 x2 x3 x4 x5 x6 x7 (lidx_main_v55 (ix2 i d) k)
        * val_main_v54 (F := Ideal) x6 (ridx_main_v55 (ix2 i d) k))
      = ∑ k : Fin 64, Ideal.div
          (Cert.Spec.msgR (N := 50000) (by decide) (val_main_v32 (F := Ideal) x0 x1 x2 x3 x4 x5 x6 x7) x1 x2 x3 (ix2 i k))
          (Cert.Spec.denomR (N := 50000) x2 x3 (Ideal.ofBits .f32 0x3089705F#32) (ix1 i)) * x6 (ix2 d k) :=
    Finset.sum_congr rfl fun k _ => by
      rw [val_main_v54_apply, show lidx_main_v55 (ix2 i d) k = ix2 i k from idx2_ext _ _ rfl rfl,
        show idx_main_v54 (ridx_main_v55 (ix2 i d) k) = ix2 d k from idx2_ext _ _ rfl rfl,
        val_main_v48_apply, msg45, den47]
      rfl
  rw [val_main_v60_apply, val_main_v59_apply, val_main_v56_apply, val_main_v53_apply, val_main_v50_apply,
    val_main_v55_apply, hP, hQ, b52, b58, zero_call1]
  rfl

/-- The reference's result at (i, d) is the two-layer function of its arguments. -/
theorem result_apply (x0 : FVec Ideal S50000x64 .f32) (x1 x2 : IVec S800000 32) (x3 : FVec Ideal S800000 .f32)
    (x4 : FVec Ideal S64x64 .f32) (x5 : FVec Ideal S64 .f32) (x6 : FVec Ideal S64x64 .f32) (x7 : FVec Ideal S64 .f32)
    (i : Fin 50000) (d : Fin 64) :
    val_main_v60 (F := Ideal) x0 x1 x2 x3 x4 x5 x6 x7 (ix2 i d)
      = Cert.Spec.twoLayersR (N := 50000) (by decide) x0 x1 x2 x3 (Ideal.ofBits .f32 0x3089705F#32) x4 x6 x5 x7 (ix2 i d) := by
  have h32 : val_main_v32 (F := Ideal) x0 x1 x2 x3 x4 x5 x6 x7
      = Cert.Spec.layerR (N := 50000) (by decide) x0 x1 x2 x3
          (Cert.Spec.denomR x2 x3 (Ideal.ofBits .f32 0x3089705F#32))
          (fun j => x4 (ix2 (j 1) (j 0))) (fun j => x6 (ix2 (j 1) (j 0))) x5 x7 := by
    funext j
    obtain ⟨a, b, rfl⟩ : ∃ a b, j = ix2 a b := ⟨_, _, eq_ix2 j⟩
    exact layer1 x0 x1 x2 x3 x4 x5 x6 x7 a b
  rw [layer2, h32]
  rfl

end Cert.ReferenceIdeal.RefValue

end
-- ==== Proof.PreRange.lean ====
/-
  What the precondition says of the edge sources.

  The precondition is a conjunction, folded left to right, of "all entries finite" for each float argument and, last,
  two tests on the source words: every word is at least 0 and every word is below 50000, both as signed integers.
  A conjunction of one-bit words is 1 only if each is, and an and-reduction over an array is 1 only if every entry is.
-/
import proofs.«411369_j50465865728371_2_alg».proof.Defs
import proofs.«411369_j50465865728371_2_alg».proof.Proof.Gen.Pre_finite_inputs
import Idealize.ShloMosaic.Lib.ValueIdx
import Idealize.ShloMosaic.Lib.ReduceAll
import Idealize.ShloMosaic.Lib.StableHlo.Predicate

noncomputable section

open Idealize.ShloMosaic Idealize.ShloMosaic.ValueIdx Idealize.SL.Sem

namespace Cert.PreRange

/-- Under the precondition's function being all ones, every source word is in [0, 50000) as a signed integer. -/
theorem src_range_of_fn [Cert.Pre_finite_inputs.Facts] {F : FTy → Type} [FloatOps F]
    (a0 : FVec F Cert.Pre_finite_inputs.S50000x64 .f32) (a1 a2 : IVec Cert.Pre_finite_inputs.S800000 32)
    (a3 : FVec F Cert.Pre_finite_inputs.S800000 .f32) (a4 : FVec F Cert.Pre_finite_inputs.S64x64 .f32)
    (a5 : FVec F Cert.Pre_finite_inputs.S64 .f32) (a6 : FVec F Cert.Pre_finite_inputs.S64x64 .f32)
    (a7 : FVec F Cert.Pre_finite_inputs.S64 .f32)
    (h : Cert.Pre_finite_inputs.fn (F := F) a0 a1 a2 a3 a4 a5 a6 a7 = (fun _ => 1#1)) (e : Fin 800000) :
    0 ≤ (a1 (ix1 e)).toInt ∧ (a1 (ix1 e)).toInt < (50000 : ℤ) := by
  -- A scalar has exactly one index.
  haveI : Subsingleton Cert.Pre_finite_inputs.S_.Idx := ⟨fun a b => funext fun d => d.elim0⟩
  -- The equation of functions, read at the scalar's one index, with the chain of lets laid open:
  -- the result is ((float tests) and (all words ≥ 0)) and (all words < 50000).
  have h0 := congrFun h ValueIdx.ix0
  dsimp only [Cert.Pre_finite_inputs.fn, Cert.Pre_finite_inputs.fn_part1, Cert.Pre_finite_inputs.fn_part2] at h0
  -- An and of two one-bit scalars is 1 only if both are; the left operand is never looked into.
  have split : ∀ x y : IVec Cert.Pre_finite_inputs.S_ 1, andi x y ix0 = 1#1 → x ix0 = 1#1 ∧ y ix0 = 1#1 :=
    fun x y hxy => IntOp.andi_eq_one.1 hxy
  obtain ⟨h1, hlt⟩ := split _ _ h0
  obtain ⟨-, hge⟩ := split _ _ h1
  -- An and-reduction over the whole array is 1 only if the compared bit is 1 at every position, here at e.
  -- There the comparison is of the word a1 e with the broadcast constant.
  have hge' : IntOp.cmpi .sge (a1 (ix1 e)) 0#32 = 1#1 := Host.reduce_andi_all _ _ _ _ _ hge (ix1 e)
  have hlt' : IntOp.cmpi .slt (a1 (ix1 e)) 50000#32 = 1#1 := Host.reduce_andi_all _ _ _ _ _ hlt (ix1 e)
  -- Signed comparisons compare the signed readings; the two constants read 0 and 50000.
  rw [IntOp.cmpi_sge, show (0#32 : BitVec 32).toInt = 0 from by decide] at hge'
  rw [IntOp.cmpi_slt, show (50000#32 : BitVec 32).toInt = 50000 from by decide] at hlt'
  exact ⟨hge', hlt'⟩

/-- The same, from the idealized kernel program's precondition on its launch memory. -/
theorem src_range [Cert.KernelIdeal.Facts] [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (e : Fin 800000) :
    0 ≤ ((m ((c.tc : Thread Cert.KernelIdeal.nD Cert.KernelIdeal.τ).loc Cert.KernelIdeal.main_arg1) : Cert.KernelIdeal.S800000.Idx → BitVec 32) (ix1 e)).toInt
      ∧ ((m ((c.tc : Thread Cert.KernelIdeal.nD Cert.KernelIdeal.τ).loc Cert.KernelIdeal.main_arg1) : Cert.KernelIdeal.S800000.Idx → BitVec 32) (ix1 e)).toInt < (50000 : ℤ) :=
  src_range_of_fn _ _ _ _ _ _ _ _ (h c) e

end Cert.PreRange

end
-- ==== Proof.lean ====
/-
  Two layers of weighted neighbour aggregation on a graph of 50000 nodes and 800000 edges, computed by blocked products
  with one-hot matrices, against the same two layers computed by a row gather and an accumulating scatter.

  Per layer both programs form, for every node i, msg(i, ·) = Σ_{e : dst e = i} w e · x(src e, ·), divide it by the
  node's normaliser (the sum of its incoming weights plus a constant, computed by the same host scatter in both) and
  return relu(x·W0ᵀ + b0 + (msg / den)·W1ᵀ + b1).  The kernel pads the table to 50048 rows; for a block of 128 edges it
  gathers by multiplying the 128 × 50048 one-hot matrix of the sources into the table, and sums by destination by
  accumulating, over the 6250 blocks, the product of the 50048 × 128 one-hot matrix of the destinations with the
  weighted rows.  Over the extended reals 0 · y = 0 and 0 + y = y for every y and sums may be regrouped, so a one-hot
  product selects a row exactly and no finiteness is used.

  The two agree when every source word is a row number of the table (0 ≤ src e < 50000), the range in which the
  reference's own gather indexes inside the table: outside it the reference wraps and clamps the row number while a
  one-hot row has no one, or picks a padding row.  A destination outside the table is dropped by both (the reference's
  scatter drops it; the kernel adds it to a padding row, which is overwritten with zeros between the layers and sliced
  off at the end), so nothing is assumed of the destinations.

  The modules: the specification and the algebra joining the two readings of a layer; the value of each of the three
  kernel bodies on its blocks and of each region's result array; the host operations around the regions; the program's
  run with its result named; the composition of these into the result as a function of the arguments; the reference's
  result read off its run; the range of the sources read off the precondition; and the claims below.
-/
import proofs.«411369_j50465865728371_2_alg».proof.Defs
import proofs.«411369_j50465865728371_2_alg».proof.Proof.Gen.Kernel
import proofs.«411369_j50465865728371_2_alg».proof.Proof.Gen.Kernel.Skeleton
import proofs.«411369_j50465865728371_2_alg».proof.Proof.Gen.Kernel.Launch
import proofs.«411369_j50465865728371_2_alg».proof.Proof.Gen.Kernel.Points
import proofs.«411369_j50465865728371_2_alg».proof.Proof.Gen.Kernel.Frame
import proofs.«411369_j50465865728371_2_alg».proof.Proof.Gen.KernelIdeal
import proofs.«411369_j50465865728371_2_alg».proof.Proof.Gen.KernelIdeal.Skeleton
import proofs.«411369_j50465865728371_2_alg».proof.Proof.Gen.KernelIdeal.Launch
import proofs.«411369_j50465865728371_2_alg».proof.Proof.Gen.KernelIdeal.Points
import proofs.«411369_j50465865728371_2_alg».proof.Proof.Gen.KernelIdeal.Frame
import proofs.«411369_j50465865728371_2_alg».proof.Proof.Gen.ReferenceIdeal
import proofs.«411369_j50465865728371_2_alg».proof.Proof.Gen.ReferenceIdeal.Run
import proofs.«411369_j50465865728371_2_alg».proof.Proof.Gen.ReferenceIdeal.Read
import proofs.«411369_j50465865728371_2_alg».proof.Proof.Gen.Pre_finite_inputs
import proofs.«411369_j50465865728371_2_alg».proof.Proof.RunResult
import proofs.«411369_j50465865728371_2_alg».proof.Proof.KernelValue
import proofs.«411369_j50465865728371_2_alg».proof.Proof.RefValue
import proofs.«411369_j50465865728371_2_alg».proof.Proof.PreRange
import Idealize.ShloMosaic.Adequacy
import Idealize.ShloMosaic.Init

noncomputable section

namespace Cert.Proof

open Idealize.ShloMosaic Idealize.ShloMosaic.ValueIdx Idealize.SL.Sem

/-- The word-level kernel program runs and leaves its arguments as launched. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten when the kernel program was idealized. -/
theorem preserves : Cert.preserves_Kernel_KernelIdeal := trivial

/-- From memories that agree on the arguments, with every source word a row number of the table, both programs end
    with the two-layer function of the arguments in their result arrays. -/
theorem algebraic : Cert.algebraic_KernelIdeal_ReferenceIdeal := by
  intro m ρ m' ρ' hpre hagree
  refine ⟨fun c => Cert.KernelIdeal.Gen.W13 m ρ c (Proc.devRef .tc Cert.KernelIdeal.main_v26),
    Cert.KernelIdeal.Gen.run_result m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v60_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  funext j
  obtain ⟨i, d, rfl⟩ : ∃ (i : Fin 50000) (d : Fin 64), j = ix2 i d := ⟨j 0, j 1, eq_ix2 j⟩
  exact (Cert.ReferenceIdeal.RefValue.result_apply _ _ _ _ _ _ _ _ i d).trans
    (Cert.KernelIdeal.KernelValue.result_rows m ρ c (Cert.PreRange.src_range m hpre c) i d).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
